-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S704512x64 : Shape := ⟨2, ![704512, 64]⟩
abbrev S704512 : Shape := ⟨1, ![704512]⟩
abbrev S45088 : Shape := ⟨1, ![45088]⟩
abbrev S11008 : Shape := ⟨1, ![11008]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S704512 : S_.BroadcastsInDim S704512 (![] : Fin 0 → Fin S704512.rank)
  reducesTo_S704512_S_d0 : S704512.ReducesTo [0] S_
  bcast_S_S45088 : S_.BroadcastsInDim S45088 (![] : Fin 0 → Fin S45088.rank)
  reducesTo_S45088_S_d0 : S45088.ReducesTo [0] S_
  bcast_S_S11008 : S_.BroadcastsInDim S11008 (![] : Fin 0 → Fin S11008.rank)
  reducesTo_S11008_S_d0 : S11008.ReducesTo [0] S_
  bcast_S_S704512x64 : S_.BroadcastsInDim S704512x64 (![] : Fin 0 → Fin S704512x64.rank)
  reducesTo_S704512x64_S_d0_1 : S704512x64.ReducesTo [0, 1] S_

variable [Facts]

def fn_part1 {F : FTy → Type} [FloatOps F] (main_arg1 : IVec S704512x64 32) (main_arg3 : IVec S45088 32) (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  let main_c_6 : IVec S_ 32 := constantI S_ 32 0#32
  let main_v19 : IVec S704512x64 32 := broadcastInDim S704512x64 ![] bcast_S_S704512x64 main_c_6
  let main_v20 : IVec S704512x64 1 := cmpi .sge main_arg1 main_v19
  let main_c_7 : IVec S_ 32 := constantI S_ 32 16#32
  let main_v21 : IVec S704512x64 32 := broadcastInDim S704512x64 ![] bcast_S_S704512x64 main_c_7
  let main_v22 : IVec S704512x64 1 := cmpi .slt main_arg1 main_v21
  let main_v23 : IVec S704512x64 1 := andi main_v20 main_v22
  let main_c_8 : IVec S_ 1 := constantI S_ 1 1#1
  let main_v24 : IVec S_ 1 := (fun x v => Host.reduce IntOp.andi x v reducesTo_S704512x64_S_d0_1 h_S_) main_v23 main_c_8
  let main_v25 : IVec S_ 1 := andi main_v18 main_v24
  let main_c_9 : IVec S_ 32 := constantI S_ 32 0#32
  let main_v26 : IVec S45088 32 := broadcastInDim S45088 ![] bcast_S_S45088 main_c_9
  let main_v27 : IVec S45088 1 := cmpi .sge main_arg3 main_v26
  let main_c_10 : IVec S_ 32 := constantI S_ 32 45088768#32
  let main_v28 : IVec S45088 32 := broadcastInDim S45088 ![] bcast_S_S45088 main_c_10
  let main_v29 : IVec S45088 1 := cmpi .slt main_arg3 main_v28
  let main_v30 : IVec S45088 1 := andi main_v27 main_v29
  let main_c_11 : IVec S_ 1 := constantI S_ 1 1#1
  let main_v31 : IVec S_ 1 := (fun x v => Host.reduce IntOp.andi x v reducesTo_S45088_S_d0 h_S_) main_v30 main_c_11
  let main_v32 : IVec S_ 1 := andi main_v25 main_v31
  main_v32

def fn {F : FTy → Type} [FloatOps F] (main_arg0 : FVec F S64x4096 .f32) (main_arg1 : IVec S704512x64 32) (main_arg2 : FVec F S704512 .f32) (main_arg3 : IVec S45088 32) (main_arg4 : FVec F S45088 .f32) (main_arg5 : FVec F S11008 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S704512 .f32 := Host.absf main_arg2
  let main_cst_0 : FVec F S_ .f32 := constant S_ .f32 0x7F800000#32
  let main_v5 : FVec F S704512 .f32 := broadcastInDim S704512 ![] bcast_S_S704512 main_cst_0
  let main_v6 : IVec S704512 1 := cmpf .olt main_v4 main_v5
  let main_c_1 : IVec S_ 1 := constantI S_ 1 1#1
  let main_v7 : IVec S_ 1 := (fun x v => Host.reduce IntOp.andi x v reducesTo_S704512_S_d0 h_S_) main_v6 main_c_1
  let main_v8 : IVec S_ 1 := andi main_v3 main_v7
  let main_v9 : FVec F S45088 .f32 := Host.absf main_arg4
  let main_cst_2 : FVec F S_ .f32 := constant S_ .f32 0x7F800000#32
  let main_v10 : FVec F S45088 .f32 := broadcastInDim S45088 ![] bcast_S_S45088 main_cst_2
  let main_v11 : IVec S45088 1 := cmpf .olt main_v9 main_v10
  let main_c_3 : IVec S_ 1 := constantI S_ 1 1#1
  let main_v12 : IVec S_ 1 := (fun x v => Host.reduce IntOp.andi x v reducesTo_S45088_S_d0 h_S_) main_v11 main_c_3
  let main_v13 : IVec S_ 1 := andi main_v8 main_v12
  let main_v14 : FVec F S11008 .f32 := Host.absf main_arg5
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_arg1 main_arg3 main_v13 main_v16
-- ==== Kernel.lean ====
abbrev S64x4096 : Shape := ⟨2, ![64, 4096]⟩
abbrev S704512x64 : Shape := ⟨2, ![704512, 64]⟩
abbrev S704512 : Shape := ⟨1, ![704512]⟩
abbrev S45088 : Shape := ⟨1, ![45088]⟩
abbrev S11008 : Shape := ⟨1, ![11008]⟩
abbrev S1 : Shape := ⟨1, ![1]⟩
abbrev S16 : Shape := ⟨1, ![16]⟩
abbrev S11008x4096 : Shape := ⟨2, ![11008, 4096]⟩
abbrev S11008x64 : Shape := ⟨2, ![11008, 64]⟩
abbrev S64x11008 : Shape := ⟨2, ![64, 11008]⟩
abbrev S256x4096 : Shape := ⟨2, ![256, 4096]⟩
abbrev S256x64 : Shape := ⟨2, ![256, 64]⟩
abbrev S256 : Shape := ⟨1, ![256]⟩
abbrev S64x256 : Shape := ⟨2, ![64, 256]⟩
abbrev S256x64x1 : Shape := ⟨3, ![256, 64, 1]⟩
abbrev S256x64x64 : Shape := ⟨3, ![256, 64, 64]⟩
abbrev S4096x256 : Shape := ⟨2, ![4096, 256]⟩
abbrev S1x256 : Shape := ⟨2, ![1, 256]⟩
abbrev S_ : Shape := ⟨0, ![]⟩
abbrev S45088x1 : Shape := ⟨2, ![45088, 1]⟩
abbrev S45087 : Shape := ⟨1, ![45087]⟩
abbrev S45088x2 : Shape := ⟨2, ![45088, 2]⟩
abbrev S64x45088 : Shape := ⟨2, ![64, 45088]⟩
abbrev S1x45088 : Shape := ⟨2, ![1, 45088]⟩

abbrev nBuf : Space → Nat
  | .hbm => 204
  | .vmem => 9
  | .smem => 0
  | _ => 0

abbrev hbmTy0_0 (i : Nat) : BufTy := match i % 128 with
  | 0 => ⟨S64x4096, .f32⟩
  | 1 => ⟨S704512x64, .i32⟩
  | 2 => ⟨S704512, .f32⟩
  | 3 => ⟨S45088, .i32⟩
  | 4 => ⟨S45088, .f32⟩
  | 5 => ⟨S11008, .f32⟩
  | 6 => ⟨S1, .i1⟩
  | 7 => ⟨S16, .f32⟩
  | 8 => ⟨S11008x4096, .i32⟩
  | 9 => ⟨S11008x64, .f32⟩
  | 10 => ⟨S64x4096, .bf16⟩
  | 11 => ⟨S64x11008, .f32⟩
  | 12 => ⟨S45088, .i32⟩
  | 13 => ⟨S45088, .i32⟩
  | 14 => ⟨S45088, .i32⟩
  | 15 => ⟨S_, .i32⟩
  | 16 => ⟨S45088, .i32⟩
  | 17 => ⟨S45088, .i1⟩
  | 18 => ⟨S_, .i32⟩
  | 19 => ⟨S45088, .i32⟩
  | 20 => ⟨S45088, .i32⟩
  | 21 => ⟨S45088, .i32⟩
  | 22 => ⟨S45088x1, .i32⟩
  | 23 => ⟨S45088, .i32⟩
  | 24 => ⟨S_, .i32⟩
  | 25 => ⟨S45088, .i32⟩
  | 26 => ⟨S45088, .i1⟩
  | 27 => ⟨S_, .i32⟩
  | 28 => ⟨S45088, .i32⟩
  | 29 => ⟨S45088, .i32⟩
  | 30 => ⟨S45088, .i32⟩
  | 31 => ⟨S45088x1, .i32⟩
  | 32 => ⟨S45088, .f32⟩
  | 33 => ⟨S45087, .i32⟩
  | 34 => ⟨S45087, .i32⟩
  | 35 => ⟨S45087, .i1⟩
  | 36 => ⟨S45088, .i1⟩
  | 37 => ⟨S_, .i32⟩
  | 38 => ⟨S_, .i32⟩
  | 39 => ⟨S45088, .i32⟩
  | 40 => ⟨S45088, .i32⟩
  | 41 => ⟨S45088, .i32⟩
  | 42 => ⟨S_, .i32⟩
  | 43 => ⟨S45088, .i32⟩
  | 44 => ⟨S45088, .i1⟩
  | 45 => ⟨S45088, .i32⟩
  | 46 => ⟨S45088, .i32⟩
  | 47 => ⟨S_, .i32⟩
  | 48 => ⟨S45088, .i32⟩
  | 49 => ⟨S45088, .i1⟩
  | 50 => ⟨S45088, .i1⟩
  | 51 => ⟨S_, .i32⟩
  | 52 => ⟨S45088, .i32⟩
  | 53 => ⟨S45088, .i32⟩
  | 54 => ⟨S45088, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S45088, .i32⟩
  | 62 => ⟨S45088, .i32⟩
  | 63 => ⟨S_, .i32⟩
  | 64 => ⟨S45088, .i32⟩
  | 65 => ⟨S45088, .i1⟩
  | 66 => ⟨S_, .i32⟩
  | 67 => ⟨S45088, .i32⟩
  | 68 => ⟨S45088, .i1⟩
  | 69 => ⟨S_, .i32⟩
  | 70 => ⟨S_, .i1⟩
  | 71 => ⟨S45088, .i1⟩
  | 72 => ⟨S45088, .i1⟩
  | 73 => ⟨S45088, .i1⟩
  | 74 => ⟨S45088, .i32⟩
  | 75 => ⟨S45088, .i32⟩
  | 76 => ⟨S45088, .i32⟩
  | 77 => ⟨S_, .i32⟩
  | 78 => ⟨S45088, .i32⟩
  | 79 => ⟨S45088, .i1⟩
  | 80 => ⟨S_, .i32⟩
  | 81 => ⟨S45088, .i32⟩
  | 82 => ⟨S45088, .i32⟩
  | 83 => ⟨S45088, .i32⟩
  | 84 => ⟨S_, .i32⟩
  | 85 => ⟨S45088, .i32⟩
  | 86 => ⟨S45088, .i1⟩
  | 87 => ⟨S_, .i32⟩
  | 88 => ⟨S45088, .i32⟩
  | 89 => ⟨S45088, .i32⟩
  | 90 => ⟨S45088, .i32⟩
  | 91 => ⟨S45088x1, .i32⟩
  | 92 => ⟨S45088x1, .i32⟩
  | 93 => ⟨S45088x2, .i32⟩
  | 94 => ⟨S45088, .i32⟩
  | 95 => ⟨S_, .i32⟩
  | 96 => ⟨S45088, .i32⟩
  | 97 => ⟨S45088, .i1⟩
  | 98 => ⟨S_, .i32⟩
  | 99 => ⟨S45088, .i32⟩
  | 100 => ⟨S45088, .i32⟩
  | 101 => ⟨S45088, .i32⟩
  | 102 => ⟨S45088x1, .i32⟩
  | 103 => ⟨S45088, .f32⟩
  | 104 => ⟨S_, .i32⟩
  | 105 => ⟨S45088, .i32⟩
  | 106 => ⟨S45088, .i1⟩
  | 107 => ⟨S_, .i32⟩
  | 108 => ⟨S45088, .i32⟩
  | 109 => ⟨S45088, .i32⟩
  | 110 => ⟨S45088, .i32⟩
  | 111 => ⟨S45088x1, .i32⟩
  | 112 => ⟨S45088, .f32⟩
  | 113 => ⟨S45088, .f32⟩
  | 114 => ⟨S45088, .f32⟩
  | 115 => ⟨S_, .f32⟩
  | 116 => ⟨S_, .f32⟩
  | 117 => ⟨S45088, .f32⟩
  | 118 => ⟨S45088, .f32⟩
  | 119 => ⟨S_, .i32⟩
  | 120 => ⟨S45088, .i32⟩
  | 121 => ⟨S45088, .i32⟩
  | 122 => ⟨S_, .i32⟩
  | 123 => ⟨S45088, .i32⟩
  | 124 => ⟨S45088, .i1⟩
  | 125 => ⟨S_, .i32⟩
  | 126 => ⟨S45088, .i32⟩
  | 127 => ⟨S45088, .i32⟩
  | _ => ⟨S64x4096, .f32⟩

abbrev hbmTy0_1 (i : Nat) : BufTy := match i % 128 with
  | 0 => ⟨S45088, .i32⟩
  | 1 => ⟨S45088x1, .i32⟩
  | 2 => ⟨S45088, .i32⟩
  | 3 => ⟨S_, .i32⟩
  | 4 => ⟨S45088, .i32⟩
  | 5 => ⟨S45088, .i1⟩
  | 6 => ⟨S_, .i32⟩
  | 7 => ⟨S45088, .i32⟩
  | 8 => ⟨S45088, .i32⟩
  | 9 => ⟨S45088, .i32⟩
  | 10 => ⟨S45088x1, .i32⟩
  | 11 => ⟨S45088, .f32⟩
  | 12 => ⟨S_, .i32⟩
  | 13 => ⟨S_, .i32⟩
  | 14 => ⟨S45088, .i32⟩
  | 15 => ⟨S45088, .i32⟩
  | 16 => ⟨S45088, .i32⟩
  | 17 => ⟨S_, .i32⟩
  | 18 => ⟨S45088, .i32⟩
  | 19 => ⟨S45088, .i1⟩
  | 20 => ⟨S45088, .i32⟩
  | 21 => ⟨S45088, .i32⟩
  | 22 => ⟨S_, .i32⟩
  | 23 => ⟨S45088, .i32⟩
  | 24 => ⟨S45088, .i1⟩
  | 25 => ⟨S45088, .i1⟩
  | 26 => ⟨S_, .i32⟩
  | 27 => ⟨S45088, .i32⟩
  | 28 => ⟨S45088, .i32⟩
  | 29 => ⟨S45088, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S45088, .i32⟩
  | 37 => ⟨S45088, .i32⟩
  | 38 => ⟨S_, .i32⟩
  | 39 => ⟨S45088, .i32⟩
  | 40 => ⟨S45088, .i1⟩
  | 41 => ⟨S_, .i32⟩
  | 42 => ⟨S45088, .i32⟩
  | 43 => ⟨S45088, .i1⟩
  | 44 => ⟨S_, .i32⟩
  | 45 => ⟨S_, .i1⟩
  | 46 => ⟨S45088, .i1⟩
  | 47 => ⟨S45088, .i1⟩
  | 48 => ⟨S45088, .i1⟩
  | 49 => ⟨S45088, .i32⟩
  | 50 => ⟨S45088, .i32⟩
  | 51 => ⟨S45088, .i32⟩
  | 52 => ⟨S_, .i32⟩
  | 53 => ⟨S45088, .i32⟩
  | 54 => ⟨S45088, .i1⟩
  | 55 => ⟨S_, .i32⟩
  | 56 => ⟨S45088, .i32⟩
  | 57 => ⟨S45088, .i32⟩
  | 58 => ⟨S45088, .i32⟩
  | 59 => ⟨S45088x1, .i32⟩
  | 60 => ⟨S64x45088, .f32⟩
  | 61 => ⟨S1x45088, .f32⟩
  | 62 => ⟨S64x45088, .f32⟩
  | 63 => ⟨S64x45088, .f32⟩
  | 64 => ⟨S_, .f32⟩
  | 65 => ⟨S64x11008, .f32⟩
  | 66 => ⟨S_, .i32⟩
  | 67 => ⟨S45088, .i32⟩
  | 68 => ⟨S45088, .i1⟩
  | 69 => ⟨S_, .i32⟩
  | 70 => ⟨S45088, .i32⟩
  | 71 => ⟨S45088, .i32⟩
  | 72 => ⟨S45088, .i32⟩
  | 73 => ⟨S45088x1, .i32⟩
  | 74 => ⟨S64x11008, .f32⟩
  | 75 => ⟨S64x11008, .f32⟩
  | _ => ⟨S64x4096, .f32⟩

abbrev hbmTy (i : Nat) : BufTy := match i / 128 with
  | 0 => hbmTy0_0 i
  | 1 => hbmTy0_1 i
  | _ => ⟨S64x4096, .f32⟩

abbrev bufTy : (tb : Table) → Fin (tcTables nBuf tb) → BufTy
  | .hbm, ⟨i, _⟩ => hbmTy i
  | .local _ .vmem, ⟨0, _⟩ => ⟨S256x4096, .i32⟩
  | .local _ .vmem, ⟨1, _⟩ => ⟨S256x4096, .i32⟩
  | .local _ .vmem, ⟨2, _⟩ => ⟨S256x64, .f32⟩
  | .local _ .vmem, ⟨3, _⟩ => ⟨S256x64, .f32⟩
  | .local _ .vmem, ⟨4, _⟩ => ⟨S64x4096, .bf16⟩
  | .local _ .vmem, ⟨5, _⟩ => ⟨S256, .f32⟩
  | .local _ .vmem, ⟨6, _⟩ => ⟨S256, .f32⟩
  | .local _ .vmem, ⟨7, _⟩ => ⟨S64x256, .f32⟩
  | .local _ .vmem, ⟨8, _⟩ => ⟨S64x256, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1_0 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v23 : Ref sig .tc := ⟨.hbm, 54, rfl⟩
abbrev main_c_5 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_v5 : Ref sig .tc := ⟨.hbm, 64, rfl⟩
abbrev main_call2_v6 : Ref sig .tc := ⟨.hbm, 65, rfl⟩
abbrev main_call2_c_2 : Ref sig .tc := ⟨.hbm, 66, rfl⟩
abbrev main_call2_v7 : Ref sig .tc := ⟨.hbm, 67, rfl⟩
abbrev main_call2_v8 : Ref sig .tc := ⟨.hbm, 68, rfl⟩
abbrev main_call2_c_3 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_v24 : Ref sig .tc := ⟨.hbm, 76, rfl⟩
abbrev main_c_6 : Ref sig .tc := ⟨.hbm, 77, rfl⟩
abbrev main_v25 : Ref sig .tc := ⟨.hbm, 78, rfl⟩
abbrev main_v26 : Ref sig .tc := ⟨.hbm, 79, rfl⟩
abbrev main_c_7 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_c_8 : Ref sig .tc := ⟨.hbm, 84, rfl⟩
abbrev main_v30 : Ref sig .tc := ⟨.hbm, 85, rfl⟩
abbrev main_v31 : Ref sig .tc := ⟨.hbm, 86, rfl⟩
abbrev main_c_9 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_c_10 : Ref sig .tc := ⟨.hbm, 95, rfl⟩
abbrev main_v39 : Ref sig .tc := ⟨.hbm, 96, rfl⟩
abbrev main_v40 : Ref sig .tc := ⟨.hbm, 97, rfl⟩
abbrev main_c_11 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_c_12 : Ref sig .tc := ⟨.hbm, 104, rfl⟩
abbrev main_v46 : Ref sig .tc := ⟨.hbm, 105, rfl⟩
abbrev main_v47 : Ref sig .tc := ⟨.hbm, 106, rfl⟩
abbrev main_c_13 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_cst_14 : Ref sig .tc := ⟨.hbm, 115, rfl⟩
abbrev main_call3_v0 : Ref sig .tc := ⟨.hbm, 116, rfl⟩
abbrev main_call3_v1 : Ref sig .tc := ⟨.hbm, 117, rfl⟩
abbrev main_v55 : Ref sig .tc := ⟨.hbm, 118, rfl⟩
abbrev main_c_15 : Ref sig .tc := ⟨.hbm, 119, rfl⟩
abbrev main_v56 : Ref sig .tc := ⟨.hbm, 120, rfl⟩
abbrev main_v57 : Ref sig .tc := ⟨.hbm, 121, rfl⟩
abbrev main_c_16 : Ref sig .tc := ⟨.hbm, 122, rfl⟩
abbrev main_v58 : Ref sig .tc := ⟨.hbm, 123, rfl⟩
abbrev main_v59 : Ref sig .tc := ⟨.hbm, 124, rfl⟩
abbrev main_c_17 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_c_18 : Ref sig .tc := ⟨.hbm, 131, rfl⟩
abbrev main_v65 : Ref sig .tc := ⟨.hbm, 132, rfl⟩
abbrev main_v66 : Ref sig .tc := ⟨.hbm, 133, rfl⟩
abbrev main_c_19 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_c_20 : Ref sig .tc := ⟨.hbm, 140, rfl⟩
abbrev main_call4_v0 : Ref sig .tc := ⟨.hbm, 141, rfl⟩
abbrev main_call4_v1 : Ref sig .tc := ⟨.hbm, 142, rfl⟩
abbrev main_call4_v2 : Ref sig .tc := ⟨.hbm, 143, rfl⟩
abbrev main_call4_v3 : Ref sig .tc := ⟨.hbm, 144, rfl⟩
abbrev main_call4_v4 : Ref sig .tc := ⟨.hbm, 145, rfl⟩
abbrev main_call4_v5 : Ref sig .tc := ⟨.hbm, 146, rfl⟩
abbrev main_call4_v6 : Ref sig .tc := ⟨.hbm, 147, rfl⟩
abbrev main_call4_v7 : Ref sig .tc := ⟨.hbm, 148, rfl⟩
abbrev main_call4_v8 : Ref sig .tc := ⟨.hbm, 149, rfl⟩
abbrev main_call4_c : Ref sig .tc := ⟨.hbm, 150, rfl⟩
abbrev main_call4_v9 : Ref sig .tc := ⟨.hbm, 151, rfl⟩
abbrev main_call4_v10 : Ref sig .tc := ⟨.hbm, 152, rfl⟩
abbrev main_call4_v11 : Ref sig .tc := ⟨.hbm, 153, rfl⟩
abbrev main_call4_c_0 : Ref sig .tc := ⟨.hbm, 154, rfl⟩
abbrev main_call4_v12 : Ref sig .tc := ⟨.hbm, 155, rfl⟩
abbrev main_call4_v13 : Ref sig .tc := ⟨.hbm, 156, rfl⟩
abbrev main_v72 : Ref sig .tc := ⟨.hbm, 157, rfl⟩
abbrev main_c_21 : Ref sig .tc := ⟨.hbm, 158, rfl⟩
abbrev main_call5_v0 : Ref sig .tc := ⟨.hbm, 159, rfl⟩
abbrev main_call5_c : Ref sig .tc := ⟨.hbm, 160, rfl⟩
abbrev main_call5_v1 : Ref sig .tc := ⟨.hbm, 161, rfl⟩
abbrev main_call5_c_0 : Ref sig .tc := ⟨.hbm, 162, rfl⟩
abbrev main_call5_v2 : Ref sig .tc := ⟨.hbm, 163, rfl⟩
abbrev main_call5_v3 : Ref sig .tc := ⟨.hbm, 164, rfl⟩
abbrev main_call5_v4 : Ref sig .tc := ⟨.hbm, 165, rfl⟩
abbrev main_call5_c_1 : Ref sig .tc := ⟨.hbm, 166, rfl⟩
abbrev main_call5_v5 : Ref sig .tc := ⟨.hbm, 167, rfl⟩
abbrev main_call5_v6 : Ref sig .tc := ⟨.hbm, 168, rfl⟩
abbrev main_call5_c_2 : Ref sig .tc := ⟨.hbm, 169, rfl⟩
abbrev main_call5_v7 : Ref sig .tc := ⟨.hbm, 170, rfl⟩
abbrev main_call5_v8 : Ref sig .tc := ⟨.hbm, 171, rfl⟩
abbrev main_call5_c_3 : Ref sig .tc := ⟨.hbm, 172, rfl⟩
abbrev main_call5_v9 : Ref sig .tc := ⟨.hbm, 173, rfl⟩
abbrev main_call5_v10 : Ref sig .tc := ⟨.hbm, 174, rfl⟩
abbrev main_call5_v11 : Ref sig .tc := ⟨.hbm, 175, rfl⟩
abbrev main_call5_v12 : Ref sig .tc := ⟨.hbm, 176, rfl⟩
abbrev main_call5_v13 : Ref sig .tc := ⟨.hbm, 177, rfl⟩
abbrev main_call5_v14 : Ref sig .tc := ⟨.hbm, 178, rfl⟩
abbrev main_v73 : Ref sig .tc := ⟨.hbm, 179, rfl⟩
abbrev main_c_22 : Ref sig .tc := ⟨.hbm, 180, rfl⟩
abbrev main_v74 : Ref sig .tc := ⟨.hbm, 181, rfl⟩
abbrev main_v75 : Ref sig .tc := ⟨.hbm, 182, rfl⟩
abbrev main_c_23 : Ref sig .tc := ⟨.hbm, 183, rfl⟩
abbrev main_v76 : Ref sig .tc := ⟨.hbm, 184, rfl⟩
abbrev main_v77 : Ref sig .tc := ⟨.hbm, 185, rfl⟩
abbrev main_v78 : Ref sig .tc := ⟨.hbm, 186, rfl⟩
abbrev main_v79 : Ref sig .tc := ⟨.hbm, 187, rfl⟩
abbrev main_v80 : Ref sig .tc := ⟨.hbm, 188, rfl⟩
abbrev main_v81 : Ref sig .tc := ⟨.hbm, 189, rfl⟩
abbrev main_v82 : Ref sig .tc := ⟨.hbm, 190, rfl⟩
abbrev main_v83 : Ref sig .tc := ⟨.hbm, 191, rfl⟩
abbrev main_cst_24 : Ref sig .tc := ⟨.hbm, 192, rfl⟩
abbrev main_v84 : Ref sig .tc := ⟨.hbm, 193, rfl⟩
abbrev main_c_25 : Ref sig .tc := ⟨.hbm, 194, rfl⟩
abbrev main_v85 : Ref sig .tc := ⟨.hbm, 195, rfl⟩
abbrev main_v86 : Ref sig .tc := ⟨.hbm, 196, rfl⟩
abbrev main_c_26 : Ref sig .tc := ⟨.hbm, 197, rfl⟩
abbrev main_v87 : Ref sig .tc := ⟨.hbm, 198, rfl⟩
abbrev main_v88 : Ref sig .tc := ⟨.hbm, 199, rfl⟩
abbrev main_v89 : Ref sig .tc := ⟨.hbm, 200, rfl⟩
abbrev main_v90 : Ref sig .tc := ⟨.hbm, 201, rfl⟩
abbrev main_v91 : Ref sig .tc := ⟨.hbm, 202, rfl⟩
abbrev main_v92 : Ref sig .tc := ⟨.hbm, 203, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S704512x64_S11008x4096 : S704512x64.ShapeCasts S11008x4096
  shapeCasts_S704512_S11008x64 : S704512.ShapeCasts S11008x64
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x64_S256x64_0_0 : ∀ a, (![0, 0] : Fin 2 → Nat) a + S256x64.size a ≤ S256x64.size a
  h_S256x64 : 0 < S256x64.numel
  shapeCasts_S256x64_S256x64 : S256x64.ShapeCasts S256x64
  shapeCasts_S256x64_S256x64x1 : S256x64.ShapeCasts S256x64x1
  shapeCasts_S256x64x1_S256x64x1 : S256x64x1.ShapeCasts S256x64x1
  broadcasts_S256x64x1_S256x64x64 : S256x64x1.Broadcasts S256x64x64
  shapeCasts_S256x64x64_S256x4096 : S256x64x64.ShapeCasts S256x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  transposes_S256x4096_p1_0_S4096x256 : S256x4096.Transposes [1, 0] S4096x256
  inb_S256_S256_0 : ∀ a, (![0] : Fin 1 → Nat) a + S256.size a ≤ S256.size a
  h_S256 : 0 < S256.numel
  shapeCasts_S256_S1x256 : S256.ShapeCasts S1x256
  broadcasts_S1x256_S64x256 : S1x256.Broadcasts S64x256
  inb_S64x256_S64x256_0_0 : ∀ a, (![0, 0] : Fin 2 → Nat) a + S64x256.size a ≤ S64x256.size a
  h_S64x256 : 0 < S64x256.numel
  bcast_S_S45088 : S_.BroadcastsInDim S45088 (![] : Fin 0 → Fin S45088.rank)
  bcast_S45088_S45088x1_0 : S45088.BroadcastsInDim S45088x1 (![0] : Fin 1 → Fin S45088x1.rank)
  slices_S45088_S45087_1 : S45088.Slices ![1] S45087
  slices_S45088_S45087_0 : S45088.Slices ![0] S45087
  concatenates_S45087_S1_S45088_d0 : Shape.Concatenates [S45087, S1] S45088 0
  concatenates_S45088x1_S45088x1_S45088x2_d1 : Shape.Concatenates [S45088x1, S45088x1] S45088x2 1
  bcast_S45088_S1x45088_1 : S45088.BroadcastsInDim S1x45088 (![1] : Fin 1 → Fin S1x45088.rank)
  bcast_S1x45088_S64x45088_0_1 : S1x45088.BroadcastsInDim S64x45088 (![0, 1] : Fin 2 → Fin S64x45088.rank)
  bcast_S_S64x11008 : S_.BroadcastsInDim S64x11008 (![] : Fin 0 → Fin S64x11008.rank)
  dot_S64x4096_S4096x256_S64x256_1_0_0_1_n_n_wf : DotDims.WF S64x4096 S4096x256 S64x256 [1] [0] [0] [1] [] []
  gather_S45088_S45088x1_S45088_n_0_n_n_0_1_1_wf : GatherDims.WF S45088 S45088x1 S45088 [] [0] [] [0] [] 1 ![1]
  gather_S704512x64_S45088x2_S45088_n_01_n_n_01_1_11_wf : GatherDims.WF S704512x64 S45088x2 S45088 [] [0, 1] [] [0, 1] [] 1 ![1, 1]
  gather_S704512_S45088x1_S45088_n_0_n_n_0_1_1_wf : GatherDims.WF S704512 S45088x1 S45088 [] [0] [] [0] [] 1 ![1]
  gather_S16_S45088x1_S45088_n_0_n_n_0_1_1_wf : GatherDims.WF S16 S45088x1 S45088 [] [0] [] [0] [] 1 ![1]
  scatter_S45088_S45088x1_S45088_n_0_0_1_wf : ScatterDims.WF S45088 S45088x1 S45088 [] [0] [0] 1
  gather_S64x4096_S45088x1_S64x45088_0_1_n_n_1_1_641_wf : GatherDims.WF S64x4096 S45088x1 S64x45088 [0] [1] [] [1] [] 1 ![64, 1]
  scatter_S64x11008_S45088x1_S64x45088_0_1_1_1_wf : ScatterDims.WF S64x11008 S45088x1 S64x45088 [0] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S11008x4096.size a
  hwx0_0 : ∀ i : grid0.Coords, EltTy.bits .i32 = 32 ∨ (Rect.block (s := S11008x4096) S256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S11008x64.size a
  hwx0_1 : ∀ i : grid0.Coords, EltTy.bits .f32 = 32 ∨ (Rect.block (s := S11008x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x4096.size a
  hwx0_2 : ∀ i : grid0.Coords, EltTy.bits .bf16 = 32 ∨ (Rect.block (s := S64x4096) S64x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S11008.size a
  hwx0_3 : ∀ i : grid0.Coords, EltTy.bits .f32 = 32 ∨ (Rect.block (s := S11008) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x11008.size a
  hwx0_4 : ∀ i : grid0.Coords, EltTy.bits .f32 = 32 ∨ (Rect.block (s := S64x11008) S64x256.size (cc0_transform_4 i) (hinb0_4 i)).WholeWords (EltTy.packing .f32)

variable [Facts₀]

def dot_S64x4096_S4096x256_S64x256_1_0_0_1_n_n : DotDims S64x4096 S4096x256 S64x256 where
  lhsContracting := [1]
  rhsContracting := [0]
  lhsNonContracting := [0]
  rhsNonContracting := [1]
  lhsBatch := []
  rhsBatch := []
  wf := dot_S64x4096_S4096x256_S64x256_1_0_0_1_n_n_wf
def comparator_i32_i32_d0 : BitVec 32 × BitVec 32 → BitVec 32 × BitVec 32 → BitVec 1 :=
  fun l r =>
    let v2 := IntOp.cmpi .slt l.1 r.1
    v2
def gather_S45088_S45088x1_S45088_n_0_n_n_0_1_1 : GatherDims S45088 S45088x1 S45088 where
  offsetDims := []
  collapsedSliceDims := [0]
  operandBatchingDims := []
  startIndicesBatchingDims := []
  startIndexMap := [0]
  indexVectorDim := 1
  sliceSizes := ![1]
  wf := gather_S45088_S45088x1_S45088_n_0_n_n_0_1_1_wf
def gather_S704512x64_S45088x2_S45088_n_01_n_n_01_1_11 : GatherDims S704512x64 S45088x2 S45088 where
  offsetDims := []
  collapsedSliceDims := [0, 1]
  operandBatchingDims := []
  startIndicesBatchingDims := []
  startIndexMap := [0, 1]
  indexVectorDim := 1
  sliceSizes := ![1, 1]
  wf := gather_S704512x64_S45088x2_S45088_n_01_n_n_01_1_11_wf
def gather_S704512_S45088x1_S45088_n_0_n_n_0_1_1 : GatherDims S704512 S45088x1 S45088 where
  offsetDims := []
  collapsedSliceDims := [0]
  operandBatchingDims := []
  startIndicesBatchingDims := []
  startIndexMap := [0]
  indexVectorDim := 1
  sliceSizes := ![1]
  wf := gather_S704512_S45088x1_S45088_n_0_n_n_0_1_1_wf
def gather_S16_S45088x1_S45088_n_0_n_n_0_1_1 : GatherDims S16 S45088x1 S45088 where
  offsetDims := []
  collapsedSliceDims := [0]
  operandBatchingDims := []
  startIndicesBatchingDims := []
  startIndexMap := [0]
  indexVectorDim := 1
  sliceSizes := ![1]
  wf := gather_S16_S45088x1_S45088_n_0_n_n_0_1_1_wf
def scatter_S45088_S45088x1_S45088_n_0_0_1 : ScatterDims S45088 S45088x1 S45088 where
  updateWindowDims := []
  insertedWindowDims := [0]
  scatterDimsToOperandDims := [0]
  indexVectorDim := 1
  wf := scatter_S45088_S45088x1_S45088_n_0_0_1_wf
def gather_S64x4096_S45088x1_S64x45088_0_1_n_n_1_1_641 : GatherDims S64x4096 S45088x1 S64x45088 where
  offsetDims := [0]
  collapsedSliceDims := [1]
  operandBatchingDims := []
  startIndicesBatchingDims := []
  startIndexMap := [1]
  indexVectorDim := 1
  sliceSizes := ![64, 1]
  wf := gather_S64x4096_S45088x1_S64x45088_0_1_n_n_1_1_641_wf
def scatter_S64x11008_S45088x1_S64x45088_0_1_1_1 : ScatterDims S64x11008 S45088x1 S64x45088 where
  updateWindowDims := [0]
  insertedWindowDims := [1]
  scatterDimsToOperandDims := [1]
  indexVectorDim := 1
  wf := scatter_S64x11008_S45088x1_S64x45088_0_1_1_1_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x4096 : Shape := ⟨2, ![64, 4096]⟩
abbrev S704512x64 : Shape := ⟨2, ![704512, 64]⟩
abbrev S704512 : Shape := ⟨1, ![704512]⟩
abbrev S45088 : Shape := ⟨1, ![45088]⟩
abbrev S11008 : Shape := ⟨1, ![11008]⟩
abbrev S16 : Shape := ⟨1, ![16]⟩
abbrev S_ : Shape := ⟨0, ![]⟩
abbrev S704512x64x1 : Shape := ⟨3, ![704512, 64, 1]⟩
abbrev S704512x1 : Shape := ⟨2, ![704512, 1]⟩
abbrev S45088768 : Shape := ⟨1, ![45088768]⟩
abbrev S45088x1 : Shape := ⟨2, ![45088, 1]⟩
abbrev S11008x4096 : Shape := ⟨2, ![11008, 4096]⟩
abbrev S4096x11008 : Shape := ⟨2, ![4096, 11008]⟩
abbrev S64x11008 : Shape := ⟨2, ![64, 11008]⟩
abbrev S1x11008 : Shape := ⟨2, ![1, 11008]⟩

abbrev nBuf : Space → Nat
  | .hbm => 35
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S704512x64, .i32⟩
  | .hbm, ⟨2, _⟩ => ⟨S704512, .f32⟩
  | .hbm, ⟨3, _⟩ => ⟨S45088, .i32⟩
  | .hbm, ⟨4, _⟩ => ⟨S45088, .f32⟩
  | .hbm, ⟨5, _⟩ => ⟨S11008, .f32⟩
  | .hbm, ⟨6, _⟩ => ⟨S16, .f32⟩
  | .hbm, ⟨7, _⟩ => ⟨S_, .i32⟩
  | .hbm, ⟨8, _⟩ => ⟨S704512x64, .i32⟩
  | .hbm, ⟨9, _⟩ => ⟨S704512x64, .i1⟩
  | .hbm, ⟨10, _⟩ => ⟨S_, .i32⟩
  | .hbm, ⟨11, _⟩ => ⟨S704512x64, .i32⟩
  | .hbm, ⟨12, _⟩ => ⟨S704512x64, .i32⟩
  | .hbm, ⟨13, _⟩ => ⟨S704512x64, .i32⟩
  | .hbm, ⟨14, _⟩ => ⟨S704512x64x1, .i32⟩
  | .hbm, ⟨15, _⟩ => ⟨S704512x64, .f32⟩
  | .hbm, ⟨16, _⟩ => ⟨S704512x1, .f32⟩
  | .hbm, ⟨17, _⟩ => ⟨S704512x64, .f32⟩
  | .hbm, ⟨18, _⟩ => ⟨S704512x64, .f32⟩
  | .hbm, ⟨19, _⟩ => ⟨S45088768, .f32⟩
  | .hbm, ⟨20, _⟩ => ⟨S_, .i32⟩
  | .hbm, ⟨21, _⟩ => ⟨S45088, .i32⟩
  | .hbm, ⟨22, _⟩ => ⟨S45088, .i1⟩
  | .hbm, ⟨23, _⟩ => ⟨S_, .i32⟩
  | .hbm, ⟨24, _⟩ => ⟨S45088, .i32⟩
  | .hbm, ⟨25, _⟩ => ⟨S45088, .i32⟩
  | .hbm, ⟨26, _⟩ => ⟨S45088, .i32⟩
  | .hbm, ⟨27, _⟩ => ⟨S45088x1, .i32⟩
  | .hbm, ⟨28, _⟩ => ⟨S45088768, .f32⟩
  | .hbm, ⟨29, _⟩ => ⟨S11008x4096, .f32⟩
  | .hbm, ⟨30, _⟩ => ⟨S4096x11008, .f32⟩
  | .hbm, ⟨31, _⟩ => ⟨S64x11008, .f32⟩
  | .hbm, ⟨32, _⟩ => ⟨S1x11008, .f32⟩
  | .hbm, ⟨33, _⟩ => ⟨S64x11008, .f32⟩
  | .hbm, ⟨34, _⟩ => ⟨S64x11008, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S_S704512x64 : S_.BroadcastsInDim S704512x64 (![] : Fin 0 → Fin S704512x64.rank)
  bcast_S704512x64_S704512x64x1_0_1 : S704512x64.BroadcastsInDim S704512x64x1 (![0, 1] : Fin 2 → Fin S704512x64x1.rank)
  bcast_S704512_S704512x1_0 : S704512.BroadcastsInDim S704512x1 (![0] : Fin 1 → Fin S704512x1.rank)
  bcast_S704512x1_S704512x64_0_1 : S704512x1.BroadcastsInDim S704512x64 (![0, 1] : Fin 2 → Fin S704512x64.rank)
  shapeCasts_S704512x64_S45088768 : S704512x64.ShapeCasts S45088768
  bcast_S_S45088 : S_.BroadcastsInDim S45088 (![] : Fin 0 → Fin S45088.rank)
  bcast_S45088_S45088x1_0 : S45088.BroadcastsInDim S45088x1 (![0] : Fin 1 → Fin S45088x1.rank)
  shapeCasts_S45088768_S11008x4096 : S45088768.ShapeCasts S11008x4096
  transposes_S11008x4096_S4096x11008_1_0 : S11008x4096.Transposes [1, 0] S4096x11008
  bcast_S11008_S1x11008_1 : S11008.BroadcastsInDim S1x11008 (![1] : Fin 1 → Fin S1x11008.rank)
  bcast_S1x11008_S64x11008_0_1 : S1x11008.BroadcastsInDim S64x11008 (![0, 1] : Fin 2 → Fin S64x11008.rank)
  gather_S16_S704512x64x1_S704512x64_n_0_n_n_0_2_1_wf : GatherDims.WF S16 S704512x64x1 S704512x64 [] [0] [] [0] [] 2 ![1]
  scatter_S45088768_S45088x1_S45088_n_0_0_1_wf : ScatterDims.WF S45088768 S45088x1 S45088 [] [0] [0] 1
  dot_S64x4096_S4096x11008_S64x11008_1_0_0_1_n_n_wf : DotDims.WF S64x4096 S4096x11008 S64x11008 [1] [0] [0] [1] [] []

variable [Facts₀]

def gather_S16_S704512x64x1_S704512x64_n_0_n_n_0_2_1 : GatherDims S16 S704512x64x1 S704512x64 where
  offsetDims := []
  collapsedSliceDims := [0]
  operandBatchingDims := []
  startIndicesBatchingDims := []
  startIndexMap := [0]
  indexVectorDim := 2
  sliceSizes := ![1]
  wf := gather_S16_S704512x64x1_S704512x64_n_0_n_n_0_2_1_wf
def scatter_S45088768_S45088x1_S45088_n_0_0_1 : ScatterDims S45088768 S45088x1 S45088 where
  updateWindowDims := []
  insertedWindowDims := [0]
  scatterDimsToOperandDims := [0]
  indexVectorDim := 1
  wf := scatter_S45088768_S45088x1_S45088_n_0_0_1_wf
def dot_S64x4096_S4096x11008_S64x11008_1_0_0_1_n_n : DotDims S64x4096 S4096x11008 S64x11008 where
  lhsContracting := [1]
  rhsContracting := [0]
  lhsNonContracting := [0]
  rhsNonContracting := [1]
  lhsBatch := []
  rhsBatch := []
  wf := dot_S64x4096_S4096x11008_S64x11008_1_0_0_1_n_n_wf

class Facts : Prop extends Facts₀ where

variable [Facts]
-- ==== Proof.KFrameHost.lean ====
/-
  The host side of the kernel program's run. The program is: five host operations (two constants, the codes and the scales
  reshaped to one row per output feature, the input rounded to bf16), one pipelined region over 43 tiles, and twelve
  stretches of host operations after it (the corrections for the outliers). Here: the buffers' contents as the region
  finds them (the five operations applied to the launched memory), the program as "prefix, region, continued by the twelve
  stretches", the three facts about the stretches that let the region's arrays be carried across them (they touch only
  unscoped buffers, allocate nothing, and write no array of the pipeline), what the region finds in each argument array and
  in each array it stages, that the argument arrays end as launched, each input window's staging buffer holding its block
  of the array at every tile, and the passage from the run's final state to "the six argument arrays are unchanged".
  Everything is at an arbitrary float instance.
-/
import proofs.«430974_j78323023610033_1_alg».proof.Proof.Gen.KernelIdeal.Launch
import proofs.«430974_j78323023610033_1_alg».proof.Proof.Gen.KernelIdeal.Points
import Idealize.ShloMosaic.Lib.Pipeline.FrameBody
import Idealize.ShloMosaic.Lib.Pipeline.FrameSuffix
import Idealize.ShloMosaic.Lib.StableHlo.Run

set_option maxRecDepth 16384

noncomputable section

namespace Cert.KernelIdeal.KF

open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## The program around its region -/

/-- Core c's buffer contents when the region is entered, as a valuation: the launched memory after the five host
    operations before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The twelve stretches of host operations after the region, in order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11]

theorem hostOps0_fresh : (hostOps0 : List (HloOp τ sig (Elt F))).Forall fun op => op.fresh = ∅ := by
  simp only [List.Forall]; repeat' constructor

/-- The program is its prefix, the region, and then the twelve stretches: run from the launched memory it reduces to the
    region entered at V and continued by the stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-- The stretches after the region touch the pipeline's arrays and the buffers that bypass it, nothing else. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop

theorem hostOps1_keeps : (hostOps1 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.reshape_writes, Finset.mem_singleton]
  repeat' apply And.intro
  all_goals exact fun w => StableHlo.devRef_ne_of_ne (by revert w; decide)
theorem hostOps1_1_keeps : (hostOps1_1 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.reshape_writes, Finset.mem_singleton]
  repeat' apply And.intro
  all_goals exact fun w => StableHlo.devRef_ne_of_ne (by revert w; decide)
theorem hostOps1_2_keeps : (hostOps1_2 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.reshape_writes, Finset.mem_singleton]
  repeat' apply And.intro
  all_goals exact fun w => StableHlo.devRef_ne_of_ne (by revert w; decide)
theorem hostOps1_3_keeps : (hostOps1_3 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.reshape_writes, Finset.mem_singleton]
  repeat' apply And.intro
  all_goals exact fun w => StableHlo.devRef_ne_of_ne (by revert w; decide)
theorem hostOps1_4_keeps : (hostOps1_4 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.reshape_writes, Finset.mem_singleton]
  repeat' apply And.intro
  all_goals exact fun w => StableHlo.devRef_ne_of_ne (by revert w; decide)
theorem hostOps1_5_keeps : (hostOps1_5 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.reshape_writes, Finset.mem_singleton]
  repeat' apply And.intro
  all_goals exact fun w => StableHlo.devRef_ne_of_ne (by revert w; decide)
theorem hostOps1_6_keeps : (hostOps1_6 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.reshape_writes, Finset.mem_singleton]
  repeat' apply And.intro
  all_goals exact fun w => StableHlo.devRef_ne_of_ne (by revert w; decide)
theorem hostOps1_7_keeps : (hostOps1_7 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.reshape_writes, Finset.mem_singleton]
  repeat' apply And.intro
  all_goals exact fun w => StableHlo.devRef_ne_of_ne (by revert w; decide)
theorem hostOps1_8_keeps : (hostOps1_8 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.reshape_writes, Finset.mem_singleton]
  repeat' apply And.intro
  all_goals exact fun w => StableHlo.devRef_ne_of_ne (by revert w; decide)
theorem hostOps1_9_keeps : (hostOps1_9 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.reshape_writes, Finset.mem_singleton]
  repeat' apply And.intro
  all_goals exact fun w => StableHlo.devRef_ne_of_ne (by revert w; decide)
theorem hostOps1_10_keeps : (hostOps1_10 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.reshape_writes, Finset.mem_singleton]
  repeat' apply And.intro
  all_goals exact fun w => StableHlo.devRef_ne_of_ne (by revert w; decide)
theorem hostOps1_11_keeps : (hostOps1_11 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.reshape_writes, Finset.mem_singleton]
  repeat' apply And.intro
  all_goals exact fun w => StableHlo.devRef_ne_of_ne (by revert w; decide)

/-- And none writes an array of the pipeline: each operation writes its own result buffer only, and no result buffer of
    theirs is one of the five arrays. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop
  · exact (List.forall_iff_forall_mem.mp hostOps1_11_keeps) op hop

/-! ## What the region finds -/

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- The codes, one row per output feature. -/
theorem V_main_v0 (c : Dev nD) : V m c main_v0 = shapeCast S11008x4096 (m ((c : Thread nD τ).loc main_arg1)) shapeCasts_S704512x64_S11008x4096 := by
  show StableHlo.after (List.flatten [hostOps0]) (fun b => m (c, b)) (Proc.devRef .tc main_v0) = _
  simp only [List.flatten_cons, List.flatten_nil, List.append_nil]
  after_results
  rfl
/-- The scales, one row per output feature. -/
theorem V_main_v1 (c : Dev nD) : V m c main_v1 = shapeCast S11008x64 (m ((c : Thread nD τ).loc main_arg2)) shapeCasts_S704512_S11008x64 := by
  show StableHlo.after (List.flatten [hostOps0]) (fun b => m (c, b)) (Proc.devRef .tc main_v1) = _
  simp only [List.flatten_cons, List.flatten_nil, List.append_nil]
  after_results
  rfl
/-- The input rounded to bf16. -/
theorem V_main_v2 (c : Dev nD) : V m c main_v2 = truncf .bf16 (m ((c : Thread nD τ).loc main_arg0)) bitsLt_bf16_f32 := by
  show StableHlo.after (List.flatten [hostOps0]) (fun b => m (c, b)) (Proc.devRef .tc main_v2) = _
  simp only [List.flatten_cons, List.flatten_nil, List.append_nil]
  after_results
/-- The one-element all-ones mask. -/
theorem V_main_c (c : Dev nD) : V m c main_c = constantI S1 1 1#1 := by
  show StableHlo.after (List.flatten [hostOps0]) (fun b => m (c, b)) (Proc.devRef .tc main_c) = _
  simp only [List.flatten_cons, List.flatten_nil, List.append_nil]
  after_results
/-- The table of the sixteen levels. -/
theorem V_main_cst (c : Dev nD) : V m c main_cst = fun i => FloatOps.ofBits .f32 (lit0 (S16.rowMajor i)) := by
  show StableHlo.after (List.flatten [hostOps0]) (fun b => m (c, b)) (Proc.devRef .tc main_cst) = _
  simp only [List.flatten_cons, List.flatten_nil, List.append_nil]
  after_results
  rfl

/-! ## The argument arrays at the end -/

theorem hostOps1_args : (hostOps1 : List (HloOp τ sig (Elt F))).Forall fun op =>
    Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_1_args : (hostOps1_1 : List (HloOp τ sig (Elt F))).Forall fun op =>
    Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_2_args : (hostOps1_2 : List (HloOp τ sig (Elt F))).Forall fun op =>
    Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_3_args : (hostOps1_3 : List (HloOp τ sig (Elt F))).Forall fun op =>
    Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_4_args : (hostOps1_4 : List (HloOp τ sig (Elt F))).Forall fun op =>
    Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_5_args : (hostOps1_5 : List (HloOp τ sig (Elt F))).Forall fun op =>
    Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_6_args : (hostOps1_6 : List (HloOp τ sig (Elt F))).Forall fun op =>
    Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_7_args : (hostOps1_7 : List (HloOp τ sig (Elt F))).Forall fun op =>
    Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_8_args : (hostOps1_8 : List (HloOp τ sig (Elt F))).Forall fun op =>
    Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_9_args : (hostOps1_9 : List (HloOp τ sig (Elt F))).Forall fun op =>
    Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_10_args : (hostOps1_10 : List (HloOp τ sig (Elt F))).Forall fun op =>
    Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_11_args : (hostOps1_11 : List (HloOp τ sig (Elt F))).Forall fun op =>
    Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
/-- No operation after the region writes any of the five arguments that no window stages. -/
theorem tail_args : ∀ ops ∈ (tailOps : List (List (HloOp τ sig (Elt F)))), ∀ op ∈ ops,
    Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes := by
  intro ops hops op hop
  simp only [List.mem_cons, List.mem_nil_iff, or_false] at hops
  rcases hops with rfl | rfl | rfl | rfl | rfl | rfl | rfl | rfl | rfl | rfl | rfl | rfl
  · exact (List.forall_iff_forall_mem.mp hostOps1_args) op hop
  · exact (List.forall_iff_forall_mem.mp hostOps1_1_args) op hop
  · exact (List.forall_iff_forall_mem.mp hostOps1_2_args) op hop
  · exact (List.forall_iff_forall_mem.mp hostOps1_3_args) op hop
  · exact (List.forall_iff_forall_mem.mp hostOps1_4_args) op hop
  · exact (List.forall_iff_forall_mem.mp hostOps1_5_args) op hop
  · exact (List.forall_iff_forall_mem.mp hostOps1_6_args) op hop
  · exact (List.forall_iff_forall_mem.mp hostOps1_7_args) op hop
  · exact (List.forall_iff_forall_mem.mp hostOps1_8_args) op hop
  · exact (List.forall_iff_forall_mem.mp hostOps1_9_args) op hop
  · exact (List.forall_iff_forall_mem.mp hostOps1_10_args) op hop
  · exact (List.forall_iff_forall_mem.mp hostOps1_11_args) op hop

/-- No host operation after the region writes argument 0, and no window stages it: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (fun op hop => by
        obtain ⟨ops, hops, hop'⟩ := List.mem_flatten.mp hop
        exact (tail_args ops hops op hop').1),
    Pipeline.withArrays_of_ne _ c (V0 m c) _ main_arg0 (by exact (by decide : ∀ w, Pipeline.arrRef spec0 w ≠ main_arg0))]
  exact V_main_arg0 m c
/-- No host operation after the region writes argument 1, and no window stages it: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (fun op hop => by
        obtain ⟨ops, hops, hop'⟩ := List.mem_flatten.mp hop
        exact (tail_args ops hops op hop').2.1),
    Pipeline.withArrays_of_ne _ c (V0 m c) _ main_arg1 (by exact (by decide : ∀ w, Pipeline.arrRef spec0 w ≠ main_arg1))]
  exact V_main_arg1 m c
/-- No host operation after the region writes argument 2, and no window stages it: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (fun op hop => by
        obtain ⟨ops, hops, hop'⟩ := List.mem_flatten.mp hop
        exact (tail_args ops hops op hop').2.2.1),
    Pipeline.withArrays_of_ne _ c (V0 m c) _ main_arg2 (by exact (by decide : ∀ w, Pipeline.arrRef spec0 w ≠ main_arg2))]
  exact V_main_arg2 m c
/-- No host operation after the region writes argument 3, and no window stages it: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (fun op hop => by
        obtain ⟨ops, hops, hop'⟩ := List.mem_flatten.mp hop
        exact (tail_args ops hops op hop').2.2.2.1),
    Pipeline.withArrays_of_ne _ c (V0 m c) _ main_arg3 (by exact (by decide : ∀ w, Pipeline.arrRef spec0 w ≠ main_arg3))]
  exact V_main_arg3 m c
/-- No host operation after the region writes argument 4, and no window stages it: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (fun op hop => by
        obtain ⟨ops, hops, hop'⟩ := List.mem_flatten.mp hop
        exact (tail_args ops hops op hop').2.2.2.2),
    Pipeline.withArrays_of_ne _ c (V0 m c) _ main_arg4 (by exact (by decide : ∀ w, Pipeline.arrRef spec0 w ≠ main_arg4))]
  exact V_main_arg4 m c

/-! ## The windows' blocks -/

/-- Window w's block at tile t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every tile, fetched there or not, for any proof data whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every tile, fetched there or not, for any proof data whose
    array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every tile, fetched there or not, for any proof data whose
    array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every tile, fetched there or not, for any proof data whose
    array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## From the run's final state to the unchanged arguments -/

/-- At one final state: every array of the pipeline at what the proof data say and every other unscoped buffer as the
    stretches after the region leave it, so the six argument arrays as launched. -/
theorem post_args (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F))
    (hr : Pipeline.FramePost cfgs dats 0 (Pipeline.afterTail₀ cfgs dats 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((hr c).2 main_arg0 (Pipeline.mem_restRefs_of main_arg0 (by decide) (by decide))).trans (W_main_arg0 m dats c),
   ((hr c).2 main_arg1 (Pipeline.mem_restRefs_of main_arg1 (by decide) (by decide))).trans (W_main_arg1 m dats c),
   ((hr c).2 main_arg2 (Pipeline.mem_restRefs_of main_arg2 (by decide) (by decide))).trans (W_main_arg2 m dats c),
   ((hr c).2 main_arg3 (Pipeline.mem_restRefs_of main_arg3 (by decide) (by decide))).trans (W_main_arg3 m dats c),
   ((hr c).2 main_arg4 (Pipeline.mem_restRefs_of main_arg4 (by decide) (by decide))).trans (W_main_arg4 m dats c),
   ((hr c).1 3).trans (((dats 0 c).arrAt_in 3 rfl _).trans ((hA c 3).trans (V_main_arg5 m c)))⟩

/-- For any proof data whose arrays are the region-entry contents, a run that ends with every array of the pipeline at what
    the proof data say and every other unscoped buffer as the stretches after the region leave it, ends with the six
    argument arrays as launched: the bias (the one argument a window stages) because an input window's array is never
    written, the others because no host operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hr c => post_args m dats hA r hr c) h

end Cert.KernelIdeal.KF

end
-- ==== Proof.Spec.lean ====
/-
  The specification both programs are compared with: a linear layer `x · Wᵀ + bias` whose weight matrix is stored as
  4-bit codes into a table of sixteen levels, one scale per block of 64 consecutive weights, and then overwritten at a
  list of flat positions ("outliers") by given values, the later entry of the list winning where two name one position.
  Everything is stated index by index over literal extents, on the extended reals.
-/
import Idealize.ShloMosaic.PureOps.Ideal
import Idealize.ShloMosaic.Lib.ValueIdx

noncomputable section

open scoped BigOperators

namespace Cert.QSpec

open Idealize.ShloMosaic Idealize.ShloMosaic.ValueIdx

abbrev SX : Shape := ⟨2, ![64, 4096]⟩
abbrev SI : Shape := ⟨2, ![704512, 64]⟩
abbrev SS : Shape := ⟨1, ![704512]⟩
abbrev SP : Shape := ⟨1, ![45088]⟩
abbrev SB : Shape := ⟨1, ![11008]⟩
abbrev SO : Shape := ⟨2, ![64, 11008]⟩

/-- The sixteen levels, as f32 words, in code order. -/
abbrev lvlWord : Fin 16 → BitVec 32 := fun
  | 0 => 0xBF800000#32 | 1 => 0xBF323A2A#32 | 2 => 0xBF066CF4#32 | 3 => 0xBECA3055#32 | 4 => 0xBE919CE0#32 | 5 => 0xBE3D3C36#32 | 6 => 0xBDBA92A3#32 | 7 => 0x00000000#32
  | 8 => 0x3DA30553#32 | 9 => 0x3E24C2F8#32 | 10 => 0x3E7C01A3#32 | 11 => 0x3EAD013B#32 | 12 => 0x3EE1A36E#32 | 13 => 0x3F10068E#32 | 14 => 0x3F391687#32 | 15 => 0x3F800000#32
  | _ => 0#32

/-- The level a code word names (a word outside 0 … 15 is read modulo 16; under `Args.Ok` none occurs). -/
def level (w : BitVec 32) : EReal := Ideal.ofBits .f32 (lvlWord ⟨w.toNat % 16, Nat.mod_lt _ (by decide)⟩)

/-- The six argument arrays. -/
structure Args where
  x : FVec Ideal SX .f32
  idx : IVec SI 32
  sc : FVec Ideal SS .f32
  P : IVec SP 32
  val : FVec Ideal SP .f32
  bias : FVec Ideal SB .f32

/-- What the precondition says of them: the float arrays hold real numbers, the codes are below 16 and the outlier
    positions below 11008 · 4096 (as unsigned words: so they are also nonnegative as signed ones). -/
structure Args.Ok (a : Args) : Prop where
  x_fin : ∀ i, ∃ r : ℝ, a.x i = (r : EReal)
  sc_fin : ∀ i, ∃ r : ℝ, a.sc i = (r : EReal)
  val_fin : ∀ i, ∃ r : ℝ, a.val i = (r : EReal)
  bias_fin : ∀ i, ∃ r : ℝ, a.bias i = (r : EReal)
  idx_lt : ∀ i, (a.idx i).toNat < 16
  P_lt : ∀ i, (a.P i).toNat < 45088768

/-- Outlier `n`'s flat position. -/
def Args.pos (a : Args) (n : Fin 45088) : ℕ := (a.P (ix1 n)).toNat

/-- The flat position of row `o`, column `k` of the weight matrix. -/
def flat (o : Fin 11008) (k : Fin 4096) : ℕ := o.val * 4096 + k.val

/-- The dequantized weight at flat position `q`: its code's level times its block's scale. -/
def wbase (a : Args) (q : ℕ) : EReal :=
  if h : q < 45088768 then
    level (a.idx (ix2 (⟨q / 64, by omega⟩ : Fin 704512) (⟨q % 64, Nat.mod_lt _ (by decide)⟩ : Fin 64)))
      * a.sc (ix1 (⟨q / 64, by omega⟩ : Fin 704512))
  else 0

/-- Outlier `n` is the last entry of the list that names its position. -/
def Args.isLast (a : Args) (n : Fin 45088) : Prop := ∀ n' : Fin 45088, a.pos n' = a.pos n → n' ≤ n

open Classical in
/-- The weight finally in force at flat position `q`: the value of the last outlier naming `q`, the dequantized
    weight where none does. -/
def wfin (a : Args) (q : ℕ) : EReal :=
  if h : ∃ n : Fin 45088, a.pos n = q ∧ a.isLast n then a.val (ix1 h.choose) else wbase a q

/-- THE RESULT at row `r` of `x`, output feature `o`. -/
def outAt (a : Args) (r : Fin 64) (o : Fin 11008) : EReal :=
  (∑ k : Fin 4096, a.x (ix2 r k) * wfin a (flat o k)) + a.bias (ix1 o)

/-- The result array. -/
def out (a : Args) : FVec Ideal SO .f32 := fun j => outAt a ⟨(j 0).val, idx2_lt0 j⟩ ⟨(j 1).val, idx2_lt1 j⟩

/-! ## The same result as the kernel arranges it: the product with the dequantized weights, then one correction per outlier -/

/-- The product with the DEQUANTIZED weights, plus the bias. -/
def baseAt (a : Args) (r : Fin 64) (o : Fin 11008) : EReal :=
  (∑ k : Fin 4096, a.x (ix2 r k) * wbase a (flat o k)) + a.bias (ix1 o)

open Classical in
/-- Outlier `n`'s correction to its weight: its value less the dequantized weight there if it is the last naming its
    position, nothing otherwise. -/
def delta (a : Args) (n : Fin 45088) : EReal := if a.isLast n then a.val (ix1 n) - wbase a (a.pos n) else 0

/-- The corrections that land on output feature `o`, each times the entry of `x` in its column. -/
def corrAt (a : Args) (r : Fin 64) (o : Fin 11008) : EReal :=
  ∑ n : Fin 45088, if a.pos n / 4096 = o.val then
    a.x (ix2 r (⟨a.pos n % 4096, Nat.mod_lt _ (by decide)⟩ : Fin 4096)) * delta a n else 0

end Cert.QSpec

end
-- ==== Proof.KBodyDefs.lean ====
/-
  What the kernel body computes at one grid point, as a term: it loads the tile's block of codes, its block of
  scales, the whole of `x` (rounded to bf16 on the host) and the tile's slice of the bias, each through a rectangle that
  is its whole staging buffer; selects each code's level, multiplies by the block's scale, multiplies `x` by the
  transposed tile on the matrix unit, adds the bias along the rows, and stores the 64 × 256 result over its whole
  output buffer. Also the six argument arrays of a core gathered into the specification's record.
-/
import proofs.«430974_j78323023610033_1_alg».proof.Proof.Gen.KernelIdeal.Skeleton
import proofs.«430974_j78323023610033_1_alg».proof.Proof.Spec
import Idealize.ShloMosaic.Lib.Pipeline.FrameBody

set_option maxRecDepth 16384

noncomputable section

namespace Cert.KernelIdeal.KF

open Idealize.ShloMosaic Idealize.ShloMosaic.TcCoe Cert.KernelIdeal Cert.KernelIdeal.Gen

variable {F : FTy → Type} [FloatOps F]

/-- The rectangles the body loads and stores through: each the whole of its buffer. -/
abbrev r0 : Rect S256x4096 := Rect.unit (s := S256x4096) ![0, 0] S256x4096.size inb_S256x4096_S256x4096_0_0
abbrev r1 : Rect S256x64 := Rect.unit (s := S256x64) ![0, 0] S256x64.size inb_S256x64_S256x64_0_0
abbrev r2 : Rect S64x4096 := Rect.unit (s := S64x4096) ![0, 0] S64x4096.size inb_S64x4096_S64x4096_0_0
abbrev r3 : Rect S256 := Rect.unit (s := S256) ![0] S256.size inb_S256_S256_0
abbrev r4 : Rect S64x256 := Rect.unit (s := S64x256) ![0, 0] S64x256.size inb_S64x256_S64x256_0_0

/-- The value the body stores, from the four input blocks: codes `x0`, scales `x1`, `x` in bf16 `x2`, bias `x3`. -/
def body (x0 : Vec F S256x4096 .i32) (x1 : Vec F S256x64 .f32) (x2 : Vec F S64x4096 .bf16) (x3 : Vec F S256 .f32) :
    FVec F S64x256 .f32 :=
  k0_pay1 (k0_pay5 (k0_pay2 (View.ld x0 r0)) (k0_pay3 (View.ld x1 r1)) (k0_pay4 (View.ld x0 r0)) 8#32 (View.ld x2 r2))
    (View.ld x3 r3)

/-- The output window's staging buffer after the body: its one store, over the whole buffer. -/
def out0_4 (x0 : Vec F S256x4096 .i32) (x1 : Vec F S256x64 .f32) (x2 : Vec F S64x4096 .bf16) (x3 : Vec F S256 .f32) :
    Vec F S64x256 .f32 :=
  View.canon [⟨r4, body x0 x1 x2 x3⟩]

/-- The one store covers the buffer. -/
theorem cover0_4 (p0 : Vec F S64x256 .f32) (y : S64x256.Idx) :
    ∃ pc ∈ ([⟨r4, p0⟩] : List (View.Piece (Elt F) S64x256 .f32)), y ∈ pc.1.set :=
  View.cover_of_tiled [⟨r4, p0⟩] S64x256.size (by rfl) y

/-- Core `c`'s six argument arrays, at the ideal instance, as the specification's record. -/
def args (m : (ℓ : Loc nD τ sig) → Buf (Elt Ideal) ℓ) (c : Dev nD) : Cert.QSpec.Args :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5)⟩

end Cert.KernelIdeal.KF

end
-- ==== Proof.KFrameBody.lean ====
/-
  The body side of the kernel program's run. At one tile the body reads four staging buffers whole (the tile's codes, its
  scales, the input in bf16, its slice of the bias), also reads the output buffer without using what it finds there, and
  overwrites the output buffer whole with the 64 × 256 product-plus-bias block. Here: that statement as a separation-logic
  triple over any contents of the inputs (the output buffer held at unknown contents before, at the canonical contents of
  the one covering store after); the per-tile record of what each window's buffer holds after the body (inputs: their block
  of the array, unchanged; output: the stored block computed from the four input blocks); each input buffer holding its
  block when the body is entered at any tile; the obligation "entered with the five buffers so, the body returns them so"
  at every tile; and from it the run of the whole program and the statement that the six argument arrays end as launched.
  Everything is at an arbitrary float instance.
-/
import proofs.«430974_j78323023610033_1_alg».proof.Proof.KFrameHost
import proofs.«430974_j78323023610033_1_alg».proof.Proof.KBodyDefs
import Idealize.ShloMosaic.Lib.Ring
import Idealize.ShloMosaic.Lib.Tactic

-- membership in a rectangle of these extents is decided by a structural recursion once per coordinate of the long axis
set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 1000000 in
/-- The body on five whole staging buffers — the four inputs at contents that read `x0 … x3`, the output at anything — runs
    to its continuation with the inputs as they were and the output reading `out0_4 x0 x1 x2 x3`: the four loads read the
    inputs whole, the load of the output buffer is dead, and the one store covers the output buffer, so what it leaves
    does not depend on what was there. -/
theorem sound_kernel (c : Dev nD) (E : Set ℕ) (i : grid0.Coords)
    (arg1 : Memref sig .tc .vmem S256x4096 .i32) (harg1 : arg1.IsWhole)
    (arg2 : Memref sig .tc .vmem S256x64 .f32) (harg2 : arg2.IsWhole)
    (arg3 : Memref sig .tc .vmem S64x4096 .bf16) (harg3 : arg3.IsWhole)
    (arg4 : Memref sig .tc .vmem S256 .f32) (harg4 : arg4.IsWhole)
    (arg5 : Memref sig .tc .vmem S64x256 .f32) (harg5 : arg5.IsWhole)
    (x0 : Vec F S256x4096 .i32) (x1 : Vec F S256x64 .f32) (x2 : Vec F S64x4096 .bf16) (x3 : Vec F S256 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E
          (cc0__dequant_matmul_kernel i arg1 harg1 arg2 harg2 arg3 harg3 arg4 harg4 arg5 harg5) K := by
  simp only [cc0__dequant_matmul_kernel_eq_skeleton]; unfold cc0__dequant_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The record of the one pipeline on core `c`: each array as the region finds it; after the body at tile `t` each input's
    buffer at its block of the array and the output's at the block the body stores, computed from the four input blocks;
    the invariant that of a region that touches nothing else; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

/-- The record's arrays are the region-entry contents (the record projected, the host prefix never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

/-- Each input's current staging buffer holds its block of the array when the body is entered, at every tile (the input in
    bf16 is brought in at the first tile only and stays, its block being the whole array at every tile). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic tile -/

/-- What the body is entered with at tile `t`: the invariant, what the core owes, and the five current staging buffers,
    each at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns: the same, each buffer at what the record says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any tile: the inputs' buffers hold their blocks, so the triple applies at those blocks; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _
    (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation the pipeline's run asks of the body, at every tile. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of the program on
    the TensorCores terminates, and every final state has every array of the pipeline at what the record computes and every
    other unscoped buffer as the twelve stretches after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: every run of the program ends with the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.KF

end
-- ==== Proof.KFrameHostBits.lean ====
/-
  The host side of the kernel program's run. The program is: five host operations (two constants, the codes and the scales
  reshaped to one row per output feature, the input rounded to bf16), one pipelined region over 43 tiles, and twelve
  stretches of host operations after it (the corrections for the outliers). Here: the buffers' contents as the region
  finds them (the five operations applied to the launched memory), the program as "prefix, region, continued by the twelve
  stretches", the three facts about the stretches that let the region's arrays be carried across them (they touch only
  unscoped buffers, allocate nothing, and write no array of the pipeline), what the region finds in each argument array and
  in each array it stages, that the argument arrays end as launched, each input window's staging buffer holding its block
  of the array at every tile, and the passage from the run's final state to "the six argument arrays are unchanged".
  Everything is at an arbitrary float instance.
-/
import proofs.«430974_j78323023610033_1_alg».proof.Proof.Gen.Kernel.Launch
import proofs.«430974_j78323023610033_1_alg».proof.Proof.Gen.Kernel.Points
import Idealize.ShloMosaic.Lib.Pipeline.FrameBody
import Idealize.ShloMosaic.Lib.Pipeline.FrameSuffix
import Idealize.ShloMosaic.Lib.StableHlo.Run

set_option maxRecDepth 16384

noncomputable section

namespace Cert.Kernel.KF

open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## The program around its region -/

/-- Core c's buffer contents when the region is entered, as a valuation: the launched memory after the five host
    operations before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The twelve stretches of host operations after the region, in order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11]

theorem hostOps0_fresh : (hostOps0 : List (HloOp τ sig (Elt F))).Forall fun op => op.fresh = ∅ := by
  simp only [List.Forall]; repeat' constructor

/-- The program is its prefix, the region, and then the twelve stretches: run from the launched memory it reduces to the
    region entered at V and continued by the stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-- The stretches after the region touch the pipeline's arrays and the buffers that bypass it, nothing else. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop

theorem hostOps1_keeps : (hostOps1 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.reshape_writes, Finset.mem_singleton]
  repeat' apply And.intro
  all_goals exact fun w => StableHlo.devRef_ne_of_ne (by revert w; decide)
theorem hostOps1_1_keeps : (hostOps1_1 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.reshape_writes, Finset.mem_singleton]
  repeat' apply And.intro
  all_goals exact fun w => StableHlo.devRef_ne_of_ne (by revert w; decide)
theorem hostOps1_2_keeps : (hostOps1_2 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.reshape_writes, Finset.mem_singleton]
  repeat' apply And.intro
  all_goals exact fun w => StableHlo.devRef_ne_of_ne (by revert w; decide)
theorem hostOps1_3_keeps : (hostOps1_3 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.reshape_writes, Finset.mem_singleton]
  repeat' apply And.intro
  all_goals exact fun w => StableHlo.devRef_ne_of_ne (by revert w; decide)
theorem hostOps1_4_keeps : (hostOps1_4 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.reshape_writes, Finset.mem_singleton]
  repeat' apply And.intro
  all_goals exact fun w => StableHlo.devRef_ne_of_ne (by revert w; decide)
theorem hostOps1_5_keeps : (hostOps1_5 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.reshape_writes, Finset.mem_singleton]
  repeat' apply And.intro
  all_goals exact fun w => StableHlo.devRef_ne_of_ne (by revert w; decide)
theorem hostOps1_6_keeps : (hostOps1_6 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.reshape_writes, Finset.mem_singleton]
  repeat' apply And.intro
  all_goals exact fun w => StableHlo.devRef_ne_of_ne (by revert w; decide)
theorem hostOps1_7_keeps : (hostOps1_7 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.reshape_writes, Finset.mem_singleton]
  repeat' apply And.intro
  all_goals exact fun w => StableHlo.devRef_ne_of_ne (by revert w; decide)
theorem hostOps1_8_keeps : (hostOps1_8 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.reshape_writes, Finset.mem_singleton]
  repeat' apply And.intro
  all_goals exact fun w => StableHlo.devRef_ne_of_ne (by revert w; decide)
theorem hostOps1_9_keeps : (hostOps1_9 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.reshape_writes, Finset.mem_singleton]
  repeat' apply And.intro
  all_goals exact fun w => StableHlo.devRef_ne_of_ne (by revert w; decide)
theorem hostOps1_10_keeps : (hostOps1_10 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.reshape_writes, Finset.mem_singleton]
  repeat' apply And.intro
  all_goals exact fun w => StableHlo.devRef_ne_of_ne (by revert w; decide)
theorem hostOps1_11_keeps : (hostOps1_11 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.reshape_writes, Finset.mem_singleton]
  repeat' apply And.intro
  all_goals exact fun w => StableHlo.devRef_ne_of_ne (by revert w; decide)

/-- And none writes an array of the pipeline: each operation writes its own result buffer only, and no result buffer of
    theirs is one of the five arrays. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop
  · exact (List.forall_iff_forall_mem.mp hostOps1_11_keeps) op hop

/-! ## What the region finds -/

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- The codes, one row per output feature. -/
theorem V_main_v0 (c : Dev nD) : V m c main_v0 = shapeCast S11008x4096 (m ((c : Thread nD τ).loc main_arg1)) shapeCasts_S704512x64_S11008x4096 := by
  show StableHlo.after (List.flatten [hostOps0]) (fun b => m (c, b)) (Proc.devRef .tc main_v0) = _
  simp only [List.flatten_cons, List.flatten_nil, List.append_nil]
  after_results
  rfl
/-- The scales, one row per output feature. -/
theorem V_main_v1 (c : Dev nD) : V m c main_v1 = shapeCast S11008x64 (m ((c : Thread nD τ).loc main_arg2)) shapeCasts_S704512_S11008x64 := by
  show StableHlo.after (List.flatten [hostOps0]) (fun b => m (c, b)) (Proc.devRef .tc main_v1) = _
  simp only [List.flatten_cons, List.flatten_nil, List.append_nil]
  after_results
  rfl
/-- The input rounded to bf16. -/
theorem V_main_v2 (c : Dev nD) : V m c main_v2 = truncf .bf16 (m ((c : Thread nD τ).loc main_arg0)) bitsLt_bf16_f32 := by
  show StableHlo.after (List.flatten [hostOps0]) (fun b => m (c, b)) (Proc.devRef .tc main_v2) = _
  simp only [List.flatten_cons, List.flatten_nil, List.append_nil]
  after_results
/-- The one-element all-ones mask. -/
theorem V_main_c (c : Dev nD) : V m c main_c = constantI S1 1 1#1 := by
  show StableHlo.after (List.flatten [hostOps0]) (fun b => m (c, b)) (Proc.devRef .tc main_c) = _
  simp only [List.flatten_cons, List.flatten_nil, List.append_nil]
  after_results
/-- The table of the sixteen levels. -/
theorem V_main_cst (c : Dev nD) : V m c main_cst = fun i => FloatOps.ofBits .f32 (lit0 (S16.rowMajor i)) := by
  show StableHlo.after (List.flatten [hostOps0]) (fun b => m (c, b)) (Proc.devRef .tc main_cst) = _
  simp only [List.flatten_cons, List.flatten_nil, List.append_nil]
  after_results
  rfl

/-! ## The argument arrays at the end -/

theorem hostOps1_args : (hostOps1 : List (HloOp τ sig (Elt F))).Forall fun op =>
    Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_1_args : (hostOps1_1 : List (HloOp τ sig (Elt F))).Forall fun op =>
    Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_2_args : (hostOps1_2 : List (HloOp τ sig (Elt F))).Forall fun op =>
    Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_3_args : (hostOps1_3 : List (HloOp τ sig (Elt F))).Forall fun op =>
    Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_4_args : (hostOps1_4 : List (HloOp τ sig (Elt F))).Forall fun op =>
    Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_5_args : (hostOps1_5 : List (HloOp τ sig (Elt F))).Forall fun op =>
    Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_6_args : (hostOps1_6 : List (HloOp τ sig (Elt F))).Forall fun op =>
    Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_7_args : (hostOps1_7 : List (HloOp τ sig (Elt F))).Forall fun op =>
    Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_8_args : (hostOps1_8 : List (HloOp τ sig (Elt F))).Forall fun op =>
    Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_9_args : (hostOps1_9 : List (HloOp τ sig (Elt F))).Forall fun op =>
    Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_10_args : (hostOps1_10 : List (HloOp τ sig (Elt F))).Forall fun op =>
    Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_11_args : (hostOps1_11 : List (HloOp τ sig (Elt F))).Forall fun op =>
    Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes := by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide)
/-- No operation after the region writes any of the five arguments that no window stages. -/
theorem tail_args : ∀ ops ∈ (tailOps : List (List (HloOp τ sig (Elt F)))), ∀ op ∈ ops,
    Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes := by
  intro ops hops op hop
  simp only [List.mem_cons, List.mem_nil_iff, or_false] at hops
  rcases hops with rfl | rfl | rfl | rfl | rfl | rfl | rfl | rfl | rfl | rfl | rfl | rfl
  · exact (List.forall_iff_forall_mem.mp hostOps1_args) op hop
  · exact (List.forall_iff_forall_mem.mp hostOps1_1_args) op hop
  · exact (List.forall_iff_forall_mem.mp hostOps1_2_args) op hop
  · exact (List.forall_iff_forall_mem.mp hostOps1_3_args) op hop
  · exact (List.forall_iff_forall_mem.mp hostOps1_4_args) op hop
  · exact (List.forall_iff_forall_mem.mp hostOps1_5_args) op hop
  · exact (List.forall_iff_forall_mem.mp hostOps1_6_args) op hop
  · exact (List.forall_iff_forall_mem.mp hostOps1_7_args) op hop
  · exact (List.forall_iff_forall_mem.mp hostOps1_8_args) op hop
  · exact (List.forall_iff_forall_mem.mp hostOps1_9_args) op hop
  · exact (List.forall_iff_forall_mem.mp hostOps1_10_args) op hop
  · exact (List.forall_iff_forall_mem.mp hostOps1_11_args) op hop

/-- No host operation after the region writes argument 0, and no window stages it: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (fun op hop => by
        obtain ⟨ops, hops, hop'⟩ := List.mem_flatten.mp hop
        exact (tail_args ops hops op hop').1),
    Pipeline.withArrays_of_ne _ c (V0 m c) _ main_arg0 (by exact (by decide : ∀ w, Pipeline.arrRef spec0 w ≠ main_arg0))]
  exact V_main_arg0 m c
/-- No host operation after the region writes argument 1, and no window stages it: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (fun op hop => by
        obtain ⟨ops, hops, hop'⟩ := List.mem_flatten.mp hop
        exact (tail_args ops hops op hop').2.1),
    Pipeline.withArrays_of_ne _ c (V0 m c) _ main_arg1 (by exact (by decide : ∀ w, Pipeline.arrRef spec0 w ≠ main_arg1))]
  exact V_main_arg1 m c
/-- No host operation after the region writes argument 2, and no window stages it: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (fun op hop => by
        obtain ⟨ops, hops, hop'⟩ := List.mem_flatten.mp hop
        exact (tail_args ops hops op hop').2.2.1),
    Pipeline.withArrays_of_ne _ c (V0 m c) _ main_arg2 (by exact (by decide : ∀ w, Pipeline.arrRef spec0 w ≠ main_arg2))]
  exact V_main_arg2 m c
/-- No host operation after the region writes argument 3, and no window stages it: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (fun op hop => by
        obtain ⟨ops, hops, hop'⟩ := List.mem_flatten.mp hop
        exact (tail_args ops hops op hop').2.2.2.1),
    Pipeline.withArrays_of_ne _ c (V0 m c) _ main_arg3 (by exact (by decide : ∀ w, Pipeline.arrRef spec0 w ≠ main_arg3))]
  exact V_main_arg3 m c
/-- No host operation after the region writes argument 4, and no window stages it: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (fun op hop => by
        obtain ⟨ops, hops, hop'⟩ := List.mem_flatten.mp hop
        exact (tail_args ops hops op hop').2.2.2.2),
    Pipeline.withArrays_of_ne _ c (V0 m c) _ main_arg4 (by exact (by decide : ∀ w, Pipeline.arrRef spec0 w ≠ main_arg4))]
  exact V_main_arg4 m c

/-! ## The windows' blocks -/

/-- Window w's block at tile t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every tile, fetched there or not, for any proof data whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every tile, fetched there or not, for any proof data whose
    array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every tile, fetched there or not, for any proof data whose
    array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every tile, fetched there or not, for any proof data whose
    array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## From the run's final state to the unchanged arguments -/

/-- At one final state: every array of the pipeline at what the proof data say and every other unscoped buffer as the
    stretches after the region leave it, so the six argument arrays as launched. -/
theorem post_args (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F))
    (hr : Pipeline.FramePost cfgs dats 0 (Pipeline.afterTail₀ cfgs dats 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((hr c).2 main_arg0 (Pipeline.mem_restRefs_of main_arg0 (by decide) (by decide))).trans (W_main_arg0 m dats c),
   ((hr c).2 main_arg1 (Pipeline.mem_restRefs_of main_arg1 (by decide) (by decide))).trans (W_main_arg1 m dats c),
   ((hr c).2 main_arg2 (Pipeline.mem_restRefs_of main_arg2 (by decide) (by decide))).trans (W_main_arg2 m dats c),
   ((hr c).2 main_arg3 (Pipeline.mem_restRefs_of main_arg3 (by decide) (by decide))).trans (W_main_arg3 m dats c),
   ((hr c).2 main_arg4 (Pipeline.mem_restRefs_of main_arg4 (by decide) (by decide))).trans (W_main_arg4 m dats c),
   ((hr c).1 3).trans (((dats 0 c).arrAt_in 3 rfl _).trans ((hA c 3).trans (V_main_arg5 m c)))⟩

/-- For any proof data whose arrays are the region-entry contents, a run that ends with every array of the pipeline at what
    the proof data say and every other unscoped buffer as the stretches after the region leave it, ends with the six
    argument arrays as launched: the bias (the one argument a window stages) because an input window's array is never
    written, the others because no host operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hr c => post_args m dats hA r hr c) h

end Cert.Kernel.KF

end
-- ==== Proof.KBodyDefsBits.lean ====
/-
  What the kernel body computes at one grid point, as a term: it loads the tile's block of codes, its block of
  scales, the whole of `x` (rounded to bf16 on the host) and the tile's slice of the bias, each through a rectangle that
  is its whole staging buffer; selects each code's level, multiplies by the block's scale, multiplies `x` by the
  transposed tile on the matrix unit, adds the bias along the rows, and stores the 64 × 256 result over its whole
  output buffer. Also the six argument arrays of a core gathered into the specification's record.
-/
import proofs.«430974_j78323023610033_1_alg».proof.Proof.Gen.Kernel.Skeleton
import proofs.«430974_j78323023610033_1_alg».proof.Proof.Spec
import Idealize.ShloMosaic.Lib.Pipeline.FrameBody

set_option maxRecDepth 16384

noncomputable section

namespace Cert.Kernel.KF

open Idealize.ShloMosaic Idealize.ShloMosaic.TcCoe Cert.Kernel Cert.Kernel.Gen

variable {F : FTy → Type} [FloatOps F]

/-- The rectangles the body loads and stores through: each the whole of its buffer. -/
abbrev r0 : Rect S256x4096 := Rect.unit (s := S256x4096) ![0, 0] S256x4096.size inb_S256x4096_S256x4096_0_0
abbrev r1 : Rect S256x64 := Rect.unit (s := S256x64) ![0, 0] S256x64.size inb_S256x64_S256x64_0_0
abbrev r2 : Rect S64x4096 := Rect.unit (s := S64x4096) ![0, 0] S64x4096.size inb_S64x4096_S64x4096_0_0
abbrev r3 : Rect S256 := Rect.unit (s := S256) ![0] S256.size inb_S256_S256_0
abbrev r4 : Rect S64x256 := Rect.unit (s := S64x256) ![0, 0] S64x256.size inb_S64x256_S64x256_0_0

/-- The value the body stores, from the four input blocks: codes `x0`, scales `x1`, `x` in bf16 `x2`, bias `x3`. -/
def body (x0 : Vec F S256x4096 .i32) (x1 : Vec F S256x64 .f32) (x2 : Vec F S64x4096 .bf16) (x3 : Vec F S256 .f32) :
    FVec F S64x256 .f32 :=
  k0_pay1 (k0_pay5 (k0_pay2 (View.ld x0 r0)) (k0_pay3 (View.ld x1 r1)) (k0_pay4 (View.ld x0 r0)) 8#32 (View.ld x2 r2))
    (View.ld x3 r3)

/-- The output window's staging buffer after the body: its one store, over the whole buffer. -/
def out0_4 (x0 : Vec F S256x4096 .i32) (x1 : Vec F S256x64 .f32) (x2 : Vec F S64x4096 .bf16) (x3 : Vec F S256 .f32) :
    Vec F S64x256 .f32 :=
  View.canon [⟨r4, body x0 x1 x2 x3⟩]

/-- The one store covers the buffer. -/
theorem cover0_4 (p0 : Vec F S64x256 .f32) (y : S64x256.Idx) :
    ∃ pc ∈ ([⟨r4, p0⟩] : List (View.Piece (Elt F) S64x256 .f32)), y ∈ pc.1.set :=
  View.cover_of_tiled [⟨r4, p0⟩] S64x256.size (by rfl) y

/-- Core `c`'s six argument arrays, at the ideal instance, as the specification's record. -/
def args (m : (ℓ : Loc nD τ sig) → Buf (Elt Ideal) ℓ) (c : Dev nD) : Cert.QSpec.Args :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5)⟩

end Cert.Kernel.KF

end
-- ==== Proof.KFrameBodyBits.lean ====
/-
  The body side of the kernel program's run. At one tile the body reads four staging buffers whole (the tile's codes, its
  scales, the input in bf16, its slice of the bias), also reads the output buffer without using what it finds there, and
  overwrites the output buffer whole with the 64 × 256 product-plus-bias block. Here: that statement as a separation-logic
  triple over any contents of the inputs (the output buffer held at unknown contents before, at the canonical contents of
  the one covering store after); the per-tile record of what each window's buffer holds after the body (inputs: their block
  of the array, unchanged; output: the stored block computed from the four input blocks); each input buffer holding its
  block when the body is entered at any tile; the obligation "entered with the five buffers so, the body returns them so"
  at every tile; and from it the run of the whole program and the statement that the six argument arrays end as launched.
  Everything is at an arbitrary float instance.
-/
import proofs.«430974_j78323023610033_1_alg».proof.Proof.KFrameHostBits
import proofs.«430974_j78323023610033_1_alg».proof.Proof.KBodyDefsBits
import Idealize.ShloMosaic.Lib.Ring
import Idealize.ShloMosaic.Lib.Tactic

-- membership in a rectangle of these extents is decided by a structural recursion once per coordinate of the long axis
set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 1000000 in
/-- The body on five whole staging buffers — the four inputs at contents that read `x0 … x3`, the output at anything — runs
    to its continuation with the inputs as they were and the output reading `out0_4 x0 x1 x2 x3`: the four loads read the
    inputs whole, the load of the output buffer is dead, and the one store covers the output buffer, so what it leaves
    does not depend on what was there. -/
theorem sound_kernel (c : Dev nD) (E : Set ℕ) (i : grid0.Coords)
    (arg1 : Memref sig .tc .vmem S256x4096 .i32) (harg1 : arg1.IsWhole)
    (arg2 : Memref sig .tc .vmem S256x64 .f32) (harg2 : arg2.IsWhole)
    (arg3 : Memref sig .tc .vmem S64x4096 .bf16) (harg3 : arg3.IsWhole)
    (arg4 : Memref sig .tc .vmem S256 .f32) (harg4 : arg4.IsWhole)
    (arg5 : Memref sig .tc .vmem S64x256 .f32) (harg5 : arg5.IsWhole)
    (x0 : Vec F S256x4096 .i32) (x1 : Vec F S256x64 .f32) (x2 : Vec F S64x4096 .bf16) (x3 : Vec F S256 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E
          (cc0__dequant_matmul_kernel i arg1 harg1 arg2 harg2 arg3 harg3 arg4 harg4 arg5 harg5) K := by
  simp only [cc0__dequant_matmul_kernel_eq_skeleton]; unfold cc0__dequant_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The record of the one pipeline on core `c`: each array as the region finds it; after the body at tile `t` each input's
    buffer at its block of the array and the output's at the block the body stores, computed from the four input blocks;
    the invariant that of a region that touches nothing else; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

/-- The record's arrays are the region-entry contents (the record projected, the host prefix never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

/-- Each input's current staging buffer holds its block of the array when the body is entered, at every tile (the input in
    bf16 is brought in at the first tile only and stays, its block being the whole array at every tile). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic tile -/

/-- What the body is entered with at tile `t`: the invariant, what the core owes, and the five current staging buffers,
    each at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns: the same, each buffer at what the record says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any tile: the inputs' buffers hold their blocks, so the triple applies at those blocks; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _
    (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation the pipeline's run asks of the body, at every tile. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of the program on
    the TensorCores terminates, and every final state has every array of the pipeline at what the record computes and every
    other unscoped buffer as the twelve stretches after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: every run of the program ends with the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.KF

end
-- ==== Proof.BodyPayload.lean ====
/-
  The kernel body's arithmetic read at one index, on the extended reals. A code word below sixteen picks, through the
  body's sixteen nested selects, its level of the table; the block's scales, laid out by reshape, broadcast and reshape,
  give column `k` of a row the scale of its group `k / 64`; rounding to bf16 changes nothing here; the matrix unit,
  fed the transposed tile and a zero accumulator, returns the plain sum over the 4096 columns; the bias is added along
  the rows. So the stored 64 × 256 block is, at row `r` and feature `p` of the tile,
  `∑ k, x r k · (level (code p k) · scale p (k / 64)) + bias p`.
-/
import proofs.«430974_j78323023610033_1_alg».proof.Proof.KBodyDefs
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KF

open Idealize.ShloMosaic Idealize.ShloMosaic.ValueIdx Cert.KernelIdeal Cert.KernelIdeal.Gen Cert.QSpec

/-! ## The sixteen selects -/

/-- A select on an equality test of two words is a choice on their equality. -/
theorem select_cmpi_eq {α : Type} (w c : BitVec 32) (a b : α) :
    Scalar.select (IntOp.cmpi .eq w c) a b = if w = c then a else b := by
  unfold Scalar.select IntOp.cmpi
  by_cases h : w = c
  · subst h; simp
  · have hb : (w == c) = false := beq_eq_false_iff_ne.mpr h
    simp [h, hb]

/-- An integer comparison of two arrays, at an index. -/
theorem cmpi_apply {s : Shape} {w : Nat} (p : CmpIPredicate) (x y : IVec s w) (i : s.Idx) :
    cmpi p x y i = IntOp.cmpi p (x i) (y i) := rfl

/-- The body's choice of a level: the code compared with fifteen down to zero, zero if it is none of them. -/
def levelSel (w : BitVec 32) : EReal :=
  if w = 15#32 then Ideal.ofBits .f32 0x3F800000#32 else
  if w = 14#32 then Ideal.ofBits .f32 0x3F391687#32 else
  if w = 13#32 then Ideal.ofBits .f32 0x3F10068E#32 else
  if w = 12#32 then Ideal.ofBits .f32 0x3EE1A36E#32 else
  if w = 11#32 then Ideal.ofBits .f32 0x3EAD013B#32 else
  if w = 10#32 then Ideal.ofBits .f32 0x3E7C01A3#32 else
  if w = 9#32 then Ideal.ofBits .f32 0x3E24C2F8#32 else
  if w = 8#32 then Ideal.ofBits .f32 0x3DA30553#32 else
  if w = 7#32 then Ideal.ofBits .f32 0x00000000#32 else
  if w = 6#32 then Ideal.ofBits .f32 0xBDBA92A3#32 else
  if w = 5#32 then Ideal.ofBits .f32 0xBE3D3C36#32 else
  if w = 4#32 then Ideal.ofBits .f32 0xBE919CE0#32 else
  if w = 3#32 then Ideal.ofBits .f32 0xBECA3055#32 else
  if w = 2#32 then Ideal.ofBits .f32 0xBF066CF4#32 else
  if w = 1#32 then Ideal.ofBits .f32 0xBF323A2A#32 else
  if w = 0#32 then Ideal.ofBits .f32 0xBF800000#32 else
  Ideal.ofBits .f32 0x00000000#32

/-- On a code below sixteen the choice is the table's level. -/
theorem levelSel_eq (w : BitVec 32) (h : w.toNat < 16) : levelSel w = level w := by
  have key : ∀ n : Fin 16, levelSel (BitVec.ofNat 32 n.val) = level (BitVec.ofNat 32 n.val) := by
    intro n
    fin_cases n <;> rfl
  have e := key ⟨w.toNat, h⟩
  simpa using e

/-! ## The scales laid out along the columns -/

/-- The block's scales reshaped to [256, 64, 1], repeated 64 times along the last axis and reshaped to [256, 4096]: column
    `k` of row `p` holds the scale of the row's group `k / 64`. -/
theorem scale_layout (v3 : FVec Ideal S256x64 .f32) (p : Fin 256) (k : Fin 4096) :
    shapeCast S256x4096
        (broadcastTo S256x64x64
          (shapeCast S256x64x1 (shapeCast S256x64x1 v3 shapeCasts_S256x64_S256x64x1) shapeCasts_S256x64x1_S256x64x1)
          broadcasts_S256x64x1_S256x64x64)
        shapeCasts_S256x64x64_S256x4096 (ix2 p k)
      = v3 (ix2 p (⟨k.val / 64, by have := k.isLt; omega⟩ : Fin 64)) := by
  have hk := k.isLt
  have hp := p.isLt
  rw [shapeCast_self]
  refine (shapeCast_apply _ _ (ix2 p k)
    (ix3 p (⟨k.val / 64, by omega⟩ : Fin 64) (⟨k.val % 64, Nat.mod_lt _ (by decide)⟩ : Fin 64)) (by
      rw [Shape.rowMajor_val_three, Shape.rowMajor_val_two]
      show (p.val * 64 + k.val / 64) * 64 + k.val % 64 = p.val * 4096 + k.val
      omega)).trans ?_
  refine (broadcastTo_apply _ _ _ (ix3 p (⟨k.val / 64, by omega⟩ : Fin 64) (0 : Fin 1)) (fun a => by
      match a with
      | ⟨0, _⟩ => rfl
      | ⟨1, _⟩ => rfl
      | ⟨2, _⟩ => rfl)).trans ?_
  exact shapeCast_apply _ _ _ (ix2 p (⟨k.val / 64, by omega⟩ : Fin 64)) (by
    rw [Shape.rowMajor_val_three, Shape.rowMajor_val_two]
    show p.val * 64 + k.val / 64 = (p.val * 64 + k.val / 64) * 1 + 0
    omega)

/-! ## The payloads -/

/-- A reshape to the same shape: the codes as they are. -/
theorem pay2_eq (v0 : Vec Ideal S256x4096 .i32) : k0_pay2 (F := Ideal) v0 = v0 := shapeCast_self _ _

/-- A reshape to the same shape: the scales as they are. -/
theorem pay3_eq (v2 : Vec Ideal S256x64 .f32) : k0_pay3 (F := Ideal) v2 = v2 := shapeCast_self _ _

/-- The bias added along the rows. -/
theorem pay1_apply (v78 : FVec Ideal S64x256 .f32) (v79 : Vec Ideal S256 .f32) (r : Fin 64) (p : Fin 256) :
    k0_pay1 v78 v79 (ix2 r p) = v78 (ix2 r p) + v79 (ix1 p) := by
  unfold k0_pay1
  show addf v78 (broadcastTo S64x256 (shapeCast S1x256 v79 shapeCasts_S256_S1x256) broadcasts_S1x256_S64x256) (ix2 r p) = _
  rw [addf_apply, broadcastTo_1b_ab_apply, shapeCast_a_1a_apply]

/-- The record of the matrix product: the left operand's index at result `(r, p)` and column `k`. -/
theorem lhs_dot_0 (j : S64x256.Idx) (q : dot_S64x4096_S4096x256_S64x256_1_0_0_1_n_n.contr.Idx) :
    (dot_S64x4096_S4096x256_S64x256_1_0_0_1_n_n.lhsIdx j q (0 : Fin 2)).val = (j 0).val := by
  simp [DotDims.lhsIdx, dot_S64x4096_S4096x256_S64x256_1_0_0_1_n_n]; rfl
theorem lhs_dot_1 (j : S64x256.Idx) (q : dot_S64x4096_S4096x256_S64x256_1_0_0_1_n_n.contr.Idx) :
    (dot_S64x4096_S4096x256_S64x256_1_0_0_1_n_n.lhsIdx j q (1 : Fin 2)).val = (q ⟨0, by decide⟩).val :=
  DotDims.lhsIdx_val_of_single _ rfl j q
theorem rhs_dot_0 (j : S64x256.Idx) (q : dot_S64x4096_S4096x256_S64x256_1_0_0_1_n_n.contr.Idx) :
    (dot_S64x4096_S4096x256_S64x256_1_0_0_1_n_n.rhsIdx j q (0 : Fin 2)).val = (q ⟨0, by decide⟩).val :=
  DotDims.rhsIdx_val_of_single _ rfl j q
theorem rhs_dot_1 (j : S64x256.Idx) (q : dot_S64x4096_S4096x256_S64x256_1_0_0_1_n_n.contr.Idx) :
    (dot_S64x4096_S4096x256_S64x256_1_0_0_1_n_n.rhsIdx j q (1 : Fin 2)).val = (j 1).val := by
  simp [DotDims.rhsIdx, dot_S64x4096_S4096x256_S64x256_1_0_0_1_n_n]; rfl

/-- The product on the matrix unit: the rounded `x` against the transposed tile of dequantized weights, from zero. -/
theorem pay5_apply (v0 : Vec Ideal S256x4096 .i32) (v3 : FVec Ideal S256x64 .f32) (v75 : Vec Ideal S64x4096 .bf16)
    (r : Fin 64) (p : Fin 256) :
    k0_pay5 (k0_pay2 v0) v3 (k0_pay4 v0) 8#32 v75 (ix2 r p)
      = ∑ k : Fin 4096, v75 (ix2 r k)
          * (levelSel (v0 (ix2 p k)) * v3 (ix2 p (⟨k.val / 64, by have := k.isLt; omega⟩ : Fin 64))) := by
  unfold k0_pay5
  dsimp only
  simp only [matmul]
  rw [Ideal.matmul_constant_zero_apply, ← Equiv.sum_comp (contrEquiv1 dot_S64x4096_S4096x256_S64x256_1_0_0_1_n_n 4096 rfl rfl).symm]
  refine Finset.sum_congr rfl fun k _ => ?_
  have ck := contrEquiv1_symm_val dot_S64x4096_S4096x256_S64x256_1_0_0_1_n_n 4096 rfl rfl k
  have l : dot_S64x4096_S4096x256_S64x256_1_0_0_1_n_n.lhsIdx (ix2 r p) ((contrEquiv1 dot_S64x4096_S4096x256_S64x256_1_0_0_1_n_n 4096 rfl rfl).symm k) = ix2 r k := by
    funext a; apply Fin.ext
    match a with
    | ⟨0, _⟩ => exact lhs_dot_0 _ _
    | ⟨1, _⟩ => exact (lhs_dot_1 _ _).trans ck
  have rr : dot_S64x4096_S4096x256_S64x256_1_0_0_1_n_n.rhsIdx (ix2 r p) ((contrEquiv1 dot_S64x4096_S4096x256_S64x256_1_0_0_1_n_n 4096 rfl rfl).symm k) = ix2 k p := by
    funext a; apply Fin.ext
    match a with
    | ⟨0, _⟩ => exact (rhs_dot_0 _ _).trans ck
    | ⟨1, _⟩ => exact rhs_dot_1 _ _
  rw [l, rr, shapeCast_self, transpose_ix2_apply, truncf_apply, mulf_apply, scale_layout]
  congr 2
  simp only [select_apply, cmpi_apply, broadcast_apply, k0_pay4, pay2_eq, select_cmpi_eq]
  rfl

/-- The zero offsets of a rank-2 and of a rank-1 rectangle, as constant functions. -/
theorem off2_zero : (![0, 0] : Fin 2 → Nat) = fun _ => 0 := by funext a; fin_cases a <;> rfl
theorem off1_zero : (![0] : Fin 1 → Nat) = fun _ => 0 := by funext a; fin_cases a; rfl

/-! ## The stored block at an index -/

/-- THE BODY AT AN INDEX: row `r`, feature `p` of the tile, for codes below sixteen in that feature's row of codes. -/
theorem body_apply (x0 : Vec Ideal S256x4096 .i32) (x1 : Vec Ideal S256x64 .f32) (x2 : Vec Ideal S64x4096 .bf16)
    (x3 : Vec Ideal S256 .f32) (r : Fin 64) (p : Fin 256) (hx0 : ∀ k : Fin 4096, (x0 (ix2 p k)).toNat < 16) :
    body x0 x1 x2 x3 (ix2 r p)
      = (∑ k : Fin 4096, x2 (ix2 r k)
          * (Cert.QSpec.level (x0 (ix2 p k)) * x1 (ix2 p (⟨k.val / 64, by have := k.isLt; omega⟩ : Fin 64))))
        + x3 (ix1 p) := by
  unfold body
  simp only [View.ld_unit_zero (S := S256x4096) off2_zero, View.ld_unit_zero (S := S256x64) off2_zero,
    View.ld_unit_zero (S := S64x4096) off2_zero, View.ld_unit_zero (S := S256) off1_zero]
  rw [pay1_apply, pay3_eq, pay5_apply]
  congr 1
  refine Finset.sum_congr rfl fun k _ => ?_
  rw [levelSel_eq _ (hx0 k)]

end Cert.KernelIdeal.KF

end
-- ==== Proof.BodyValue.lean ====
/-
  From the tiles to the whole array. The region runs over 43 tiles of 256 output features; at tile `t` it stages rows
  `256·t … 256·t + 255` of the codes (one row of 4096 codes per feature) and of the scales (one row of 64 scales per
  feature), the whole input, and entries `256·t … 256·t + 255` of the bias, and writes back columns `256·t … 256·t + 255`
  of the 64 × 11008 result. The code of feature `o`, column `k` sits at block `o·64 + k/64`, place `k mod 64` of the code
  array, which is flat position `o·4096 + k` split by 64; its scale is the block's. So what tile `t` writes back at row `r`,
  column `p` is the specification's product with the dequantized weights plus the bias at feature `256·t + p`; feature `o`
  is written by tile `o / 256`; hence the result array after the region is that function everywhere.
-/
import proofs.«430974_j78323023610033_1_alg».proof.Proof.KFrameBody
import proofs.«430974_j78323023610033_1_alg».proof.Proof.BodyPayload
import proofs.«430974_j78323023610033_1_alg».proof.Proof.Spec
import Idealize.ShloMosaic.Lib.ValueIdx
import Idealize.ShloMosaic.Lib.Pipeline.Value

set_option maxRecDepth 16384

noncomputable section

open scoped BigOperators

namespace Cert.KernelIdeal.KF

open Idealize.ShloMosaic Idealize.ShloMosaic.TcCoe Idealize.ShloMosaic.ValueIdx Idealize.SL.Sem
open Idealize.ShloMosaic.Pipeline (Dat)
open Cert.KernelIdeal Cert.KernelIdeal.Gen Cert.QSpec

variable (m : (ℓ : Loc nD τ sig) → Buf (Elt Ideal) ℓ)

theorem zero_offsets2 : (![0, 0] : Fin 2 → Nat) = fun _ => 0 := funext fun a => by fin_cases a <;> rfl

/-! ## Where each window's block sits at tile `t` -/

/-- The block indices, decided over the 43 tiles: codes, scales and bias move down by one block per tile, the input stays,
    the result moves right by one block per tile. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = t.val
    ∧ win0_4.index t (0 : Fin 2) = 0 ∧ win0_4.index t (1 : Fin 2) = t.val :=
  (by decide +kernel : ∀ t : Fin grid0.N, _)

/-! ## The per-tile arithmetic, over any four blocks that hold the right entries of the arguments -/

/-- If the four blocks hold, entry by entry, rows `256·t + ·` of the codes and scales, the input, and entries `256·t + ·` of
    the bias, then the stored block at row `r`, column `p` is the specification's base value at feature `256·t + p`. -/
theorem body_point (a : Args) (hok : a.Ok) (t : ℕ) (ht : t < 43)
    (x0 : Vec Ideal S256x4096 .i32) (x1 : Vec Ideal S256x64 .f32) (x2 : Vec Ideal S64x4096 .bf16) (x3 : Vec Ideal S256 .f32)
    (h0 : ∀ (y : S256x4096.Idx) (i : SI.Idx), (i 0).val = (256 * t + (y 0).val) * 64 + (y 1).val / 64 →
      (i 1).val = (y 1).val % 64 → x0 y = a.idx i)
    (h1 : ∀ (y : S256x64.Idx) (i : SS.Idx), (i 0).val = (256 * t + (y 0).val) * 64 + (y 1).val → x1 y = a.sc i)
    (h2 : ∀ y : S64x4096.Idx, x2 y = a.x y)
    (h3 : ∀ (y : S256.Idx) (i : SB.Idx), (i 0).val = 256 * t + (y 0).val → x3 y = a.bias i)
    (r : Fin 64) (p : Fin 256) (r' : Fin 64) (o : Fin 11008) (hr : r'.val = r.val) (ho : o.val = 256 * t + p.val) :
    body x0 x1 x2 x3 (ix2 r p) = baseAt a r' o := by
  rw [show r' = r from Fin.ext hr]
  have hp := p.isLt
  rw [body_apply x0 x1 x2 x3 r p (fun k => by
    have hk := k.isLt
    rw [h0 (ix2 p k) (ix2 (⟨(256 * t + p.val) * 64 + k.val / 64, by omega⟩ : Fin 704512) (⟨k.val % 64, by omega⟩ : Fin 64)) rfl rfl]
    exact hok.idx_lt _)]
  unfold baseAt
  congr 1
  · refine Finset.sum_congr rfl fun k _ => ?_
    have hk := k.isLt
    rw [h2]
    congr 1
    unfold wbase flat
    rw [dif_pos (by omega)]
    refine congrArg₂ (fun u v => level u * v) (h0 (ix2 p k) _ ?_ ?_) (h1 (ix2 p (⟨k.val / 64, by omega⟩ : Fin 64)) _ ?_)
    · show (o.val * 4096 + k.val) / 64 = (256 * t + p.val) * 64 + k.val / 64
      omega
    · show (o.val * 4096 + k.val) % 64 = k.val % 64
      omega
    · show (o.val * 4096 + k.val) / 64 = (256 * t + p.val) * 64 + k.val / 64
      omega
  · exact h3 (ix1 p) (ix1 o) ho

/-! ## Each staged block, entry by entry, in the argument arrays -/

/-- The codes' block at tile `t`: row `y₀`, column `y₁` is the code at block `(256·t + y₀)·64 + y₁/64`, place `y₁ mod 64`. -/
theorem codes_block (c : Dev nD) (t : Fin cfg0.N) (y : S256x4096.Idx) (i : SI.Idx)
    (hi0 : (i 0).val = (256 * t.val + (y 0).val) * 64 + (y 1).val / 64) (hi1 : (i 1).val = (y 1).val % 64) :
    (iblk m c 0 t : Vec Ideal S256x4096 .i32) y = (args m c).idx i := by
  obtain ⟨e0, e1, -⟩ := block_indices t
  have hy0 := (y 0).isLt
  have hy1 : (y 1).val < 4096 := (y 1).isLt
  unfold iblk
  rw [View.read_apply]
  show V m c main_v0 (((cfg0.win 0).blk t).view.emb y) = _
  rw [V_main_v0]
  refine shapeCast_apply _ _ _ i ?_
  rw [Shape.rowMajor_val_two, Shape.rowMajor_val_two]
  show (i 0).val * 64 + (i 1).val = (win0_0.index t (0 : Fin 2) * 256 + 1 * (y 0).val) * 4096 + (win0_0.index t (1 : Fin 2) * 4096 + 1 * (y 1).val)
  rw [e0, e1, hi0, hi1]
  omega

/-- The scales' block at tile `t`: row `y₀`, column `y₁` is the scale of block `(256·t + y₀)·64 + y₁`. -/
theorem scales_block (c : Dev nD) (t : Fin cfg0.N) (y : S256x64.Idx) (i : SS.Idx)
    (hi : (i 0).val = (256 * t.val + (y 0).val) * 64 + (y 1).val) :
    (iblk m c 1 t : Vec Ideal S256x64 .f32) y = (args m c).sc i := by
  obtain ⟨-, -, e0, e1, -⟩ := block_indices t
  have hy1 : (y 1).val < 64 := (y 1).isLt
  unfold iblk
  rw [View.read_apply]
  show V m c main_v1 (((cfg0.win 1).blk t).view.emb y) = _
  rw [V_main_v1]
  refine shapeCast_apply _ _ _ i ?_
  rw [Shape.rowMajor_val_one, Shape.rowMajor_val_two]
  show (i 0).val = (win0_1.index t (0 : Fin 2) * 256 + 1 * (y 0).val) * 64 + (win0_1.index t (1 : Fin 2) * 64 + 1 * (y 1).val)
  rw [e0, e1, hi]
  omega

/-- The input's block at every tile is the input itself (rounding to bf16 is the identity on the extended reals). -/
theorem input_block (c : Dev nD) (t : Fin cfg0.N) (y : S64x4096.Idx) :
    (iblk m c 2 t : Vec Ideal S64x4096 .bf16) y = (args m c).x y := by
  obtain ⟨-, -, -, -, e0, e1, -⟩ := block_indices t
  unfold iblk
  rw [View.read_apply]
  show V m c main_v2 (((cfg0.win 2).blk t).view.emb y) = _
  rw [V_main_v2]
  show (args m c).x (((cfg0.win 2).blk t).view.emb y) = (args m c).x y
  congr 1
  funext a
  apply Fin.ext
  match a with
  | ⟨0, _⟩ => show win0_2.index t (0 : Fin 2) * 64 + 1 * (y 0).val = (y 0).val; rw [e0]; omega
  | ⟨1, _⟩ => show win0_2.index t (1 : Fin 2) * 4096 + 1 * (y 1).val = (y 1).val; rw [e1]; omega

/-- The bias' block at tile `t`: entry `y₀` is the bias of feature `256·t + y₀`. -/
theorem bias_block (c : Dev nD) (t : Fin cfg0.N) (y : S256.Idx) (i : SB.Idx) (hi : (i 0).val = 256 * t.val + (y 0).val) :
    (iblk m c 3 t : Vec Ideal S256 .f32) y = (args m c).bias i := by
  obtain ⟨-, -, -, -, -, -, e0, -⟩ := block_indices t
  unfold iblk
  rw [View.read_apply]
  show V m c main_arg5 (((cfg0.win 3).blk t).view.emb y) = _
  rw [V_main_arg5]
  show (args m c).bias (((cfg0.win 3).blk t).view.emb y) = (args m c).bias i
  congr 1
  funext a
  apply Fin.ext
  match a with
  | ⟨0, _⟩ => show win0_3.index t (0 : Fin 1) * 256 + 1 * (y 0).val = (i 0).val; rw [e0, hi]; omega

/-! ## What each tile writes back, and the array after the region -/

/-- The specification's base value as a 64 × 11008 array. -/
abbrev baseArr (a : Args) : Vec Ideal S64x11008 .f32 :=
  fun j => baseAt a ⟨(j 0).val, idx2_lt0 j⟩ ⟨(j 1).val, idx2_lt1 j⟩

/-- What tile `t` writes back is its block of the base array. -/
theorem flushed_eq (c : Dev nD) (h : (args m c).Ok) (t : Fin cfg0.N) :
    (dats m 0 c).flushed 4 t = ((cfg0.win 4).blk t).view.read (Elt Ideal) (baseArr (args m c)) := by
  obtain ⟨-, -, -, -, -, -, -, e0, e1⟩ := block_indices t
  have ht : t.val < 43 := lt_of_lt_of_eq t.isLt N_0
  show (cfg0.win 4).cut (grid0.coords t) ((dats m 0 c).after 4 t) = _
  rw [after0_4]
  unfold out0_4
  rw [View.canon_unit_zero zero_offsets2]
  funext j
  rw [View.read_apply]
  obtain ⟨r, p, rfl⟩ : ∃ (r : Fin 64) (p : Fin 256), j = ix2 r p := ⟨j 0, j 1, eq_ix2 j⟩
  show body (iblk m c 0 t) (iblk m c 1 t) (iblk m c 2 t) (iblk m c 3 t) (ix2 r p)
    = baseArr (args m c) (((cfg0.win 4).blk t).view.emb (ix2 r p))
  have hp := p.isLt
  refine body_point (args m c) h t.val ht _ _ _ _ (codes_block m c t) (scales_block m c t) (input_block m c t)
    (bias_block m c t) r p _ _ ?_ ?_
  · show win0_4.index t (0 : Fin 2) * 64 + 1 * r.val = r.val
    rw [e0]; omega
  · show win0_4.index t (1 : Fin 2) * 256 + 1 * p.val = 256 * t.val + p.val
    rw [e1]; omega

/-- An index of the result array lies in tile `t`'s block iff each coordinate is in the block's range on its axis. -/
theorem mem_blk (t : Fin cfg0.N) (i : S64x11008.Idx) :
    i ∈ ((cfg0.win 4).blk t).view.set ↔ ∀ a : Fin 2, win0_4.index t a * S64x256.size a ≤ (i a).val
      ∧ (i a).val < win0_4.index t a * S64x256.size a + S64x256.size a := by
  show i ∈ ((View.whole main_v3).slice (win0_4.rect t)).set ↔ _
  rw [View.set_slice_whole, Rect.mem_set_unit]
  exact Iff.rfl

/-- Every index of the result array is written back by some tile: feature `o` by tile `o / 256`. -/
theorem covered (i : S64x11008.Idx) :
    ∃ t : Fin cfg0.N, (cfg0.win 4).flush t = true ∧ i ∈ ((cfg0.win 4).blk t).view.set := by
  have hi0 : (i 0).val < 64 := (i 0).isLt
  have hi1 : (i 1).val < 11008 := (i 1).isLt
  have hN : cfg0.N = 43 := N_0
  have hq : (i 1).val / 256 < cfg0.N := by rw [hN]; omega
  obtain ⟨-, -, -, -, -, -, -, e0, e1⟩ := block_indices ⟨(i 1).val / 256, hq⟩
  refine ⟨⟨(i 1).val / 256, hq⟩, flush0_4 _, ?_⟩
  rw [mem_blk]
  intro a
  match a with
  | ⟨0, _⟩ =>
    show win0_4.index ⟨(i 1).val / 256, hq⟩ (0 : Fin 2) * 64 ≤ (i 0).val
      ∧ (i 0).val < win0_4.index ⟨(i 1).val / 256, hq⟩ (0 : Fin 2) * 64 + 64
    rw [e0]; omega
  | ⟨1, _⟩ =>
    show win0_4.index ⟨(i 1).val / 256, hq⟩ (1 : Fin 2) * 256 ≤ (i 1).val
      ∧ (i 1).val < win0_4.index ⟨(i 1).val / 256, hq⟩ (1 : Fin 2) * 256 + 256
    rw [e1]
    show (i 1).val / 256 * 256 ≤ (i 1).val ∧ (i 1).val < (i 1).val / 256 * 256 + 256
    omega

/-- THE RESULT ARRAY AFTER THE REGION: the product with the dequantized weights plus the bias, at every row and feature. -/
theorem base_final (c : Dev nD) (h : (args m c).Ok) :
    (dats m 0 c).arrAt 4 cfg0.N
      = fun j => baseAt (args m c) ⟨(j 0).val, idx2_lt0 j⟩ ⟨(j 1).val, idx2_lt1 j⟩ :=
  (dats m 0 c).arrAt_eq_of_cover 4 (baseArr (args m c)) (fun t _ => flushed_eq m c h t) covered

end Cert.KernelIdeal.KF

end
-- ==== Proof.TailTerm.lean ====
/-
  The kernel program's host operations after its region, composed into one term: from the argument arrays and the
  region's result `B` (the product with the dequantized weights, plus the bias) to the program's result. In order: the
  argsort of the outlier positions; the sorted positions and values; the mask of sorted places that close a run of equal
  positions; each sorted position's block and place in the block, its code, scale and level; the correction of each sorted
  place (value − level · scale under the mask, zero elsewhere); the inverse permutation, built by scattering 0, 1, 2, … to
  the argsort's entries; the corrections back in list order; each outlier's output feature and input column; the columns of
  `x` gathered, times the corrections; their scatter-add by output feature; and the sum with `B`.
  In the index arithmetic a negative index is wrapped by the extent (`wrap`), and quotients and remainders are the floored ones.
-/
import proofs.«430974_j78323023610033_1_alg».proof.KernelIdeal

noncomputable section

namespace Cert.KernelIdeal.Tail

open Idealize.ShloMosaic Cert.KernelIdeal Cert.KernelIdeal.Facts₀ Cert.KernelIdeal.Facts

variable {F : FTy → Type} [FloatOps F] [Cert.KernelIdeal.Facts]

/-- A word repeated along the list of outliers. -/
abbrev splat (n : BitVec 32) : IVec S45088 32 := broadcastInDim S45088 ![] bcast_S_S45088 (constantI S_ 32 n)

/-- A negative index read from the end: `x + n` where `x < 0`. -/
abbrev wrap (n : BitVec 32) (x : IVec S45088 32) : IVec S45088 32 :=
  select (cmpi .slt x (splat 0#32)) (addi x (splat n)) x

/-- A list of indices as a one-column index array. -/
abbrev col (x : IVec S45088 32) : IVec S45088x1 32 := broadcastInDim S45088x1 ![0] bcast_S45088_S45088x1_0 x

/-- `t[i]` for a list `t` as long as the outlier list. -/
abbrev take {α : Type} (t : S45088.Idx → α) (i : IVec S45088 32) : S45088.Idx → α :=
  Host.gather gather_S45088_S45088x1_S45088_n_0_n_n_0_1_1 t (col (wrap 45088#32 i))

/-- The floored quotient by the constant `d`, spelt out: the truncated quotient, less one where the signs differ
    and the remainder is not zero. -/
abbrev floorDiv (d : BitVec 32) (x : IVec S45088 32) : IVec S45088 32 :=
  select
    (andi (cmpi .ne (signi x) (broadcastInDim S45088 ![] bcast_S_S45088 (signi (id (constantI S_ 32 d)))))
      (cmpi .ne (Host.remsi x (broadcastInDim S45088 ![] bcast_S_S45088 (id (constantI S_ 32 d)))) (splat 0#32)))
    (subi (Host.divsi x (broadcastInDim S45088 ![] bcast_S_S45088 (id (constantI S_ 32 d)))) (splat 1#32))
    (Host.divsi x (broadcastInDim S45088 ![] bcast_S_S45088 (id (constantI S_ 32 d))))

/-- The divisor the remainder is taken by: `d`, or one if `d` is zero. -/
abbrev safeDiv (d : BitVec 32) : IVec S_ 32 :=
  select (cmpi .eq (id (constantI S_ 32 d)) (constantI S_ 32 0#32)) (constantI S_ 32 1#32) (id (constantI S_ 32 d))

/-- The floored remainder by the constant `d`, spelt out: the truncated remainder, plus the divisor where it is
    not zero and its sign differs from the divisor's. -/
abbrev floorRem (d : BitVec 32) (x : IVec S45088 32) : IVec S45088 32 :=
  select
    (andi
      (cmpi .ne (cmpi .slt (Host.remsi x (broadcastInDim S45088 ![] bcast_S_S45088 (safeDiv d))) (splat 0#32))
        (broadcastInDim S45088 ![] bcast_S_S45088 (cmpi .slt (safeDiv d) (constantI S_ 32 0#32))))
      (cmpi .ne (Host.remsi x (broadcastInDim S45088 ![] bcast_S_S45088 (safeDiv d))) (splat 0#32)))
    (addi (Host.remsi x (broadcastInDim S45088 ![] bcast_S_S45088 (safeDiv d))) (broadcastInDim S45088 ![] bcast_S_S45088 (safeDiv d)))
    (Host.remsi x (broadcastInDim S45088 ![] bcast_S_S45088 (safeDiv d)))

/-- The argsort of the outlier positions (a stable sort carrying 0, 1, 2, …). -/
def sortIdx (P : IVec S45088 32) : IVec S45088 32 :=
  (Host.sort2 S45088 0 comparator_i32_i32_d0 P (iotaInDim S45088 32 0)).2

/-- The positions in sorted order. -/
def sortedP (P : IVec S45088 32) : IVec S45088 32 := take P (sortIdx P)

/-- The outlier values in that order. -/
def sortedVal (P : IVec S45088 32) (val : FVec F S45088 .f32) : FVec F S45088 .f32 := take val (sortIdx P)

/-- The sorted places that close a run of equal positions: the next position differs, or it is the last place. -/
def lastMask (P : IVec S45088 32) : IVec S45088 1 :=
  concatenate S45088 0
    [⟨S45087, cmpi .ne (extractStridedSlice S45087 ![1] (sortedP P) slices_S45088_S45087_1)
        (extractStridedSlice S45087 ![0] (sortedP P) slices_S45088_S45087_0)⟩,
     ⟨S1, constantI S1 1 1#1⟩] concatenates_S45087_S1_S45088_d0

/-- Each sorted position's block of 64 weights, and its place in the block. -/
def blockOf (P : IVec S45088 32) : IVec S45088 32 := floorDiv 64#32 (sortedP P)
def placeOf (P : IVec S45088 32) : IVec S45088 32 := floorRem 64#32 (sortedP P)

/-- The code stored at each sorted position. -/
def codeAt (idx : IVec S704512x64 32) (P : IVec S45088 32) : IVec S45088 32 :=
  Host.gather gather_S704512x64_S45088x2_S45088_n_01_n_n_01_1_11 idx
    (concatenate S45088x2 1 [⟨S45088x1, col (wrap 704512#32 (blockOf P))⟩, ⟨S45088x1, col (wrap 64#32 (placeOf P))⟩]
      concatenates_S45088x1_S45088x1_S45088x2_d1)

/-- The scale of each sorted position's block. -/
def scaleAt (sc : FVec F S704512 .f32) (P : IVec S45088 32) : FVec F S45088 .f32 :=
  Host.gather gather_S704512_S45088x1_S45088_n_0_n_n_0_1_1 sc (col (wrap 704512#32 (blockOf P)))

/-- The level each sorted position's code names. -/
def levelAt (idx : IVec S704512x64 32) (P : IVec S45088 32) : FVec F S45088 .f32 :=
  Host.gather gather_S16_S45088x1_S45088_n_0_n_n_0_1_1 (fun i => FloatOps.ofBits .f32 (lit0 (S16.rowMajor i)))
    (col (wrap 16#32 (codeAt idx P)))

/-- The correction of each sorted place: value − level · scale where the place closes its run, zero elsewhere. -/
def deltaSorted (idx : IVec S704512x64 32) (sc : FVec F S704512 .f32) (P : IVec S45088 32) (val : FVec F S45088 .f32) :
    FVec F S45088 .f32 :=
  select (lastMask P) (subf (sortedVal P val) (mulf (levelAt (F := F) idx P) (scaleAt sc P)))
    (broadcastInDim S45088 ![] bcast_S_S45088 (id (constant S_ .f32 0x00000000#32)))

/-- The inverse of the argsort: 0, 1, 2, … scattered to the argsort's entries. -/
def invPerm (P : IVec S45088 32) : IVec S45088 32 :=
  Host.scatter scatter_S45088_S45088x1_S45088_n_0_0_1 (fun _ b => b) (splat 0#32) (col (wrap 45088#32 (sortIdx P)))
    (iotaInDim S45088 32 0)

/-- The corrections back in list order. -/
def deltaOrig (idx : IVec S704512x64 32) (sc : FVec F S704512 .f32) (P : IVec S45088 32) (val : FVec F S45088 .f32) :
    FVec F S45088 .f32 :=
  take (deltaSorted idx sc P val) (invPerm P)

/-- Each outlier's output feature and input column. -/
def featOf (P : IVec S45088 32) : IVec S45088 32 := floorDiv 4096#32 P
def colOf (P : IVec S45088 32) : IVec S45088 32 := floorRem 4096#32 P

/-- The columns of `x` the outliers sit in. -/
def xCols (x : FVec F S64x4096 .f32) (P : IVec S45088 32) : FVec F S64x45088 .f32 :=
  Host.gather gather_S64x4096_S45088x1_S64x45088_0_1_n_n_1_1_641 x (col (wrap 4096#32 (colOf P)))

/-- Each outlier's contribution to every row of the result: its column of `x` times its correction. -/
def contrib (x : FVec F S64x4096 .f32) (idx : IVec S704512x64 32) (sc : FVec F S704512 .f32) (P : IVec S45088 32)
    (val : FVec F S45088 .f32) : FVec F S64x45088 .f32 :=
  mulf (xCols x P)
    (broadcastInDim S64x45088 ![0, 1] bcast_S1x45088_S64x45088_0_1
      (broadcastInDim S1x45088 ![1] bcast_S45088_S1x45088_1 (deltaOrig idx sc P val)))

/-- The contributions added up by output feature. -/
def correction (x : FVec F S64x4096 .f32) (idx : IVec S704512x64 32) (sc : FVec F S704512 .f32) (P : IVec S45088 32)
    (val : FVec F S45088 .f32) : FVec F S64x11008 .f32 :=
  Host.scatterAdd scatter_S64x11008_S45088x1_S64x45088_0_1_1_1
    (broadcastInDim S64x11008 ![] bcast_S_S64x11008 (constant S_ .f32 0x00000000#32))
    (col (wrap 11008#32 (featOf P))) (contrib x idx sc P val)

/-- THE PROGRAM'S RESULT from the region's result `B`. -/
def tailTerm (x : FVec F S64x4096 .f32) (idx : IVec S704512x64 32) (sc : FVec F S704512 .f32) (P : IVec S45088 32)
    (val : FVec F S45088 .f32) (B : FVec F S64x11008 .f32) : FVec F S64x11008 .f32 :=
  addf B (correction x idx sc P val)

end Cert.KernelIdeal.Tail

end
-- ==== Proof.TailGlue.lean ====
/-
  The twelve stretches of host operations after the region, run in order from ANY contents of the buffers in which the
  one-element mask holds one and the table buffer holds the sixteen levels, leave in the result buffer the tail term of
  those contents' argument arrays and region result: every operation's result is read off the one before it, the two
  concatenations read as functions of their two pieces. Hence, from the region's exit contents (the pipeline's arrays as
  the region leaves them, every other buffer as the region found it), the program's result is the tail term of the
  launched arguments and the region's output array.
-/
import proofs.«430974_j78323023610033_1_alg».proof.Proof.KFrameHost
import proofs.«430974_j78323023610033_1_alg».proof.Proof.TailTerm

set_option maxRecDepth 16384

noncomputable section

namespace Cert.KernelIdeal.KF

open Idealize.ShloMosaic Idealize.ShloMosaic.TcCoe Idealize.SL.Sem Idealize.ShloMosaic.StableHlo
open Idealize.ShloMosaic.Pipeline (Dat)
open Cert.KernelIdeal Cert.KernelIdeal.Gen

variable {F : FTy → Type} [FloatOps F]

/-- The run-end mask's concatenation as a function of its two pieces. -/
def cat1 (a : IVec S45087 1) (b : IVec S1 1) : IVec S45088 1 :=
  concatenate S45088 0 [⟨S45087, a⟩, ⟨S1, b⟩] concatenates_S45087_S1_S45088_d0
/-- The two index columns side by side. -/
def cat2 (a b : IVec S45088x1 32) : IVec S45088x2 32 :=
  concatenate S45088x2 1 [⟨S45088x1, a⟩, ⟨S45088x1, b⟩] concatenates_S45088x1_S45088x1_S45088x2_d1

abbrev catOp1 : HloOp τ sig (Elt F) :=
  StableHlo.binary main_v21 main_c main_v22 (cat1 : (⟨S45087, .i1⟩ : BufTy).Contents (Elt F) → (⟨S1, .i1⟩ : BufTy).Contents (Elt F) → (⟨S45088, .i1⟩ : BufTy).Contents (Elt F))
abbrev catOp2 : HloOp τ sig (Elt F) :=
  StableHlo.binary main_v35 main_v36 main_v37 (cat2 : (⟨S45088x1, .i32⟩ : BufTy).Contents (Elt F) → (⟨S45088x1, .i32⟩ : BufTy).Contents (Elt F) → (⟨S45088x2, .i32⟩ : BufTy).Contents (Elt F))

/-- The stretches laid end to end, the two concatenations named. -/
theorem tail_flat : (tailOps : List (List (HloOp τ sig (Elt F)))).flatten
    = hostOps1 ++ (List.take 21 hostOps1_1 ++ (catOp1 :: (List.drop 22 hostOps1_1 ++ (hostOps1_2 ++ (hostOps1_3 ++ (hostOps1_4 ++ (List.take 16 hostOps1_5 ++ (catOp2 :: (List.drop 17 hostOps1_5 ++ (hostOps1_6 ++ (hostOps1_7 ++ (hostOps1_8 ++ (hostOps1_9 ++ (hostOps1_10 ++ hostOps1_11)))))))))))))) := rfl

set_option maxHeartbeats 4000000 in
/-- The result buffer after the stretches, from any contents. -/
theorem tail_after (W : Valuation τ sig (Elt F))
    (hc : W (Proc.devRef .tc main_c) = constantI S1 1 1#1)
    (hcst : W (Proc.devRef .tc main_cst) = fun i => FloatOps.ofBits .f32 (lit0 (S16.rowMajor i))) :
    StableHlo.after (tailOps : List (List (HloOp τ sig (Elt F)))).flatten W (Proc.devRef .tc main_v92)
      = Tail.tailTerm (W (Proc.devRef .tc main_arg0)) (W (Proc.devRef .tc main_arg1)) (W (Proc.devRef .tc main_arg2))
          (W (Proc.devRef .tc main_arg3)) (W (Proc.devRef .tc main_arg4)) (W (Proc.devRef .tc main_v3)) := by
  rw [tail_flat]
  simp (disch := decide) only [StableHlo.after_append, List.take_succ_cons, List.take_zero, List.drop_succ_cons, List.drop_zero,
      after_cons, after_nil,
      nullary_result', unary_result', binary_result', ternary_result', quaternary_result', reshape_result',
      nullary_result_ne', unary_result_ne', binary_result_ne', ternary_result_ne', quaternary_result_ne', reshape_result_ne']
  simp only [hc, hcst]
  rfl

variable (m : (ℓ : Loc nD τ sig) → Buf (Elt F) ℓ)

/-- THE PROGRAM'S RESULT after the region. -/
theorem tail_value (dats : (p : Fin 1) → (c : Dev nD) → Dat τ (Elt F) Unit ℕ (UR sig nD τ) ℕ (cfgs p) c) (c : Dev nD) :
    Pipeline.afterTail₀ cfgs dats 0 (V0 m) tailOps c main_v92
      = Tail.tailTerm (m ((c : Thread nD τ).loc main_arg0)) (m ((c : Thread nD τ).loc main_arg1))
          (m ((c : Thread nD τ).loc main_arg2)) (m ((c : Thread nD τ).loc main_arg3)) (m ((c : Thread nD τ).loc main_arg4))
          ((dats 0 c).arrAt 4 cfg0.N) := by
  have r0 : Pipeline.withArrays (cfgs 0).spec c (V0 m c) (fun w => (dats 0 c).arrAt w (cfgs 0).N) (Proc.devRef .tc main_arg0)
      = m ((c : Thread nD τ).loc main_arg0) :=
    (Pipeline.withArrays_of_ne (cfgs 0).spec c _ _ main_arg0 (by decide)).trans (V_main_arg0 m c)
  have r1 : Pipeline.withArrays (cfgs 0).spec c (V0 m c) (fun w => (dats 0 c).arrAt w (cfgs 0).N) (Proc.devRef .tc main_arg1)
      = m ((c : Thread nD τ).loc main_arg1) :=
    (Pipeline.withArrays_of_ne (cfgs 0).spec c _ _ main_arg1 (by decide)).trans (V_main_arg1 m c)
  have r2 : Pipeline.withArrays (cfgs 0).spec c (V0 m c) (fun w => (dats 0 c).arrAt w (cfgs 0).N) (Proc.devRef .tc main_arg2)
      = m ((c : Thread nD τ).loc main_arg2) :=
    (Pipeline.withArrays_of_ne (cfgs 0).spec c _ _ main_arg2 (by decide)).trans (V_main_arg2 m c)
  have r3 : Pipeline.withArrays (cfgs 0).spec c (V0 m c) (fun w => (dats 0 c).arrAt w (cfgs 0).N) (Proc.devRef .tc main_arg3)
      = m ((c : Thread nD τ).loc main_arg3) :=
    (Pipeline.withArrays_of_ne (cfgs 0).spec c _ _ main_arg3 (by decide)).trans (V_main_arg3 m c)
  have r4 : Pipeline.withArrays (cfgs 0).spec c (V0 m c) (fun w => (dats 0 c).arrAt w (cfgs 0).N) (Proc.devRef .tc main_arg4)
      = m ((c : Thread nD τ).loc main_arg4) :=
    (Pipeline.withArrays_of_ne (cfgs 0).spec c _ _ main_arg4 (by decide)).trans (V_main_arg4 m c)
  have rc : Pipeline.withArrays (cfgs 0).spec c (V0 m c) (fun w => (dats 0 c).arrAt w (cfgs 0).N) (Proc.devRef .tc main_c)
      = constantI S1 1 1#1 :=
    (Pipeline.withArrays_of_ne (cfgs 0).spec c _ _ main_c (by decide)).trans (V_main_c m c)
  have rt : Pipeline.withArrays (cfgs 0).spec c (V0 m c) (fun w => (dats 0 c).arrAt w (cfgs 0).N) (Proc.devRef .tc main_cst)
      = fun i => FloatOps.ofBits .f32 (lit0 (S16.rowMajor i)) :=
    (Pipeline.withArrays_of_ne (cfgs 0).spec c _ _ main_cst (by decide)).trans (V_main_cst m c)
  have rB : Pipeline.withArrays (cfgs 0).spec c (V0 m c) (fun w => (dats 0 c).arrAt w (cfgs 0).N) (Proc.devRef .tc main_v3)
      = (dats 0 c).arrAt 4 cfg0.N :=
    Pipeline.withArrays_arr (cfgs 0).spec launch0.win.arr_inj c _ _ 4
  have key := tail_after (Pipeline.withArrays (cfgs 0).spec c (V0 m c) fun w => (dats 0 c).arrAt w (cfgs 0).N) rc rt
  rw [r0, r1, r2, r3, r4, rB] at key
  exact key

end Cert.KernelIdeal.KF

end
-- ==== Proof.FloorDiv.lean ====
/-
  The index arithmetic of the host operations, read at one list entry whose word is nonnegative as a signed number:
  the wrap of a negative index by the extent does nothing there, and the floored quotient and remainder by a positive constant are the
  natural-number quotient and remainder of the word's value.
-/
import proofs.«430974_j78323023610033_1_alg».proof.Proof.TailTerm
import Idealize.ShloMosaic.Lib.ValueIdx
import Idealize.ShloMosaic.Lib.StableHlo.Predicate

noncomputable section

open scoped BigOperators

namespace Cert.KernelIdeal.Tail

open Idealize.ShloMosaic Idealize.ShloMosaic.ValueIdx Cert.KernelIdeal Cert.KernelIdeal.Facts₀ Cert.KernelIdeal.Facts

/-! ### Words: the signed operations on a nonnegative dividend and a positive divisor -/

namespace FloorDiv

/-- A word below 2³¹ has a clear sign bit. -/
theorem msb_false_of_lt {x : BitVec 32} (hx : x.toNat < 2 ^ 31) : x.msb = false := by
  rw [BitVec.msb_eq_false_iff_two_mul_lt]; omega

theorem ne_zero_of_pos {d : BitVec 32} (hd : 0 < d.toNat) : d ≠ 0 := by
  rintro rfl; simp at hd

/-- Neither corner of the signed division is met: the divisor is not zero and the dividend is not the least word. -/
theorem not_corner (x d : BitVec 32) (hx : x.toNat < 2 ^ 31) (hd : 0 < d.toNat) : ¬ IntOp.SDivCorner x d := by
  rintro (h | ⟨h, -⟩)
  · exact ne_zero_of_pos hd h
  · subst h; revert hx; decide

/-- The truncated signed quotient of a nonnegative word by a positive one is the quotient of their values. -/
theorem divsi_nonneg (x d : BitVec 32) (hx : x.toNat < 2 ^ 31) (hd : 0 < d.toNat) (hd' : d.toNat < 2 ^ 31) :
    IntOp.divsi .host x d = BitVec.ofNat 32 (x.toNat / d.toNat) := by
  unfold IntOp.divsi
  rw [if_neg (not_corner x d hx hd), BitVec.sdiv_eq, msb_false_of_lt hx, msb_false_of_lt hd']
  apply BitVec.eq_of_toNat_eq
  have : x.toNat / d.toNat ≤ x.toNat := Nat.div_le_self _ _
  simp only [BitVec.udiv_eq, BitVec.toNat_udiv, BitVec.toNat_ofNat]
  exact (Nat.mod_eq_of_lt (lt_of_le_of_lt this (by omega))).symm

/-- The truncated signed remainder of a nonnegative word by a positive one is the remainder of their values. -/
theorem remsi_nonneg (x d : BitVec 32) (hx : x.toNat < 2 ^ 31) (hd : 0 < d.toNat) (hd' : d.toNat < 2 ^ 31) :
    IntOp.remsi .host x d = BitVec.ofNat 32 (x.toNat % d.toNat) := by
  unfold IntOp.remsi
  rw [if_neg (not_corner x d hx hd), BitVec.srem_eq, msb_false_of_lt hx, msb_false_of_lt hd']
  apply BitVec.eq_of_toNat_eq
  have : x.toNat % d.toNat < d.toNat := Nat.mod_lt _ hd
  simp only [BitVec.umod_eq, BitVec.toNat_umod, BitVec.toNat_ofNat]
  omega

/-- The sign of a word: zero, minus one or one. -/
def sgn (x : BitVec 32) : BitVec 32 := if x = 0 then 0 else if x.msb then -1 else 1

/-- A nonnegative word is not below zero as a signed number. -/
theorem cmpi_slt_zero {x : BitVec 32} (hx : x.toNat < 2 ^ 31) : IntOp.cmpi .slt x 0#32 = 0#1 := by
  show BitVec.ofBool (x.slt 0#32) = 0#1
  rw [BitVec.slt_zero_eq_msb, msb_false_of_lt hx]; rfl

/-- The sign of a nonnegative word: zero at zero, one elsewhere. -/
theorem sgn_of_pos {x : BitVec 32} (hx : x.toNat < 2 ^ 31) (h0 : x ≠ 0) : sgn x = 1#32 := by
  unfold sgn; rw [if_neg h0, msb_false_of_lt hx]; rfl

/-- The divisor the remainder is taken by is the divisor itself when it is not zero. -/
theorem safe_eq {d : BitVec 32} (hd : 0 < d.toNat) : Scalar.select (IntOp.cmpi .eq d 0#32) 1#32 d = d := by
  have : IntOp.cmpi .eq d 0#32 = 0#1 := by
    show BitVec.ofBool (d == 0#32) = 0#1
    have hb : (d == 0#32) = false := by
      rw [beq_eq_false_iff_ne]; exact ne_zero_of_pos hd
    rw [hb]; rfl
  rw [this, select_zero]

end FloorDiv

variable [Cert.KernelIdeal.Facts]

/-! ### The three operations read at one index -/

namespace FloorDiv

/-- The wrap read at one index. -/
theorem wrap_read (n : BitVec 32) (x : IVec S45088 32) (i : S45088.Idx) :
    wrap n x i = Scalar.select (IntOp.cmpi .slt (x i) 0#32) (IntOp.addi (x i) n) (x i) := rfl

/-- The floored quotient read at one index. -/
theorem floorDiv_read (d : BitVec 32) (x : IVec S45088 32) (i : S45088.Idx) :
    floorDiv d x i =
      Scalar.select
        (IntOp.andi (IntOp.cmpi .ne (sgn (x i)) (sgn d)) (IntOp.cmpi .ne (IntOp.remsi .host (x i) d) 0#32))
        (IntOp.subi (IntOp.divsi .host (x i) d) 1#32) (IntOp.divsi .host (x i) d) := rfl

/-- The floored remainder read at one index. -/
theorem floorRem_read (d : BitVec 32) (x : IVec S45088 32) (i : S45088.Idx) :
    floorRem d x i =
      Scalar.select
        (IntOp.andi
          (IntOp.cmpi .ne (IntOp.cmpi .slt (IntOp.remsi .host (x i) (Scalar.select (IntOp.cmpi .eq d 0#32) 1#32 d)) 0#32)
            (IntOp.cmpi .slt (Scalar.select (IntOp.cmpi .eq d 0#32) 1#32 d) 0#32))
          (IntOp.cmpi .ne (IntOp.remsi .host (x i) (Scalar.select (IntOp.cmpi .eq d 0#32) 1#32 d)) 0#32))
        (IntOp.addi (IntOp.remsi .host (x i) (Scalar.select (IntOp.cmpi .eq d 0#32) 1#32 d))
          (Scalar.select (IntOp.cmpi .eq d 0#32) 1#32 d))
        (IntOp.remsi .host (x i) (Scalar.select (IntOp.cmpi .eq d 0#32) 1#32 d)) := rfl

end FloorDiv

open FloorDiv

/-- A nonnegative index is left alone by the wrap. -/
theorem wrap_apply_of_nonneg (n : BitVec 32) (x : IVec S45088 32) (i : S45088.Idx) (hx : (x i).toNat < 2 ^ 31) :
    wrap n x i = x i := by
  rw [wrap_read, cmpi_slt_zero hx, select_zero]

/-- The floored quotient of a nonnegative word by a positive constant. -/
theorem floorDiv_apply (d : BitVec 32) (hd : 0 < d.toNat) (hd' : d.toNat < 2 ^ 31) (x : IVec S45088 32) (i : S45088.Idx)
    (hx : (x i).toNat < 2 ^ 31) : floorDiv d x i = BitVec.ofNat 32 ((x i).toNat / d.toNat) := by
  rw [floorDiv_read]
  have hcond : IntOp.andi (IntOp.cmpi .ne (sgn (x i)) (sgn d)) (IntOp.cmpi .ne (IntOp.remsi .host (x i) d) 0#32) = 0#1 := by
    by_cases h0 : x i = 0
    · -- at zero the remainder is zero
      have hr : IntOp.remsi .host (x i) d = 0#32 := by rw [remsi_nonneg _ _ hx hd hd', h0]; simp
      rw [hr]
      show (IntOp.cmpi .ne (sgn (x i)) (sgn d)) &&& BitVec.ofBool (0#32 != 0#32) = 0#1
      simp
    · -- elsewhere both signs are one
      rw [sgn_of_pos hx h0, sgn_of_pos hd' (ne_zero_of_pos hd)]
      show BitVec.ofBool (1#32 != 1#32) &&& _ = 0#1
      simp
  rw [hcond, select_zero, divsi_nonneg _ _ hx hd hd']

/-- The floored remainder of a nonnegative word by a positive constant. -/
theorem floorRem_apply (d : BitVec 32) (hd : 0 < d.toNat) (hd' : d.toNat < 2 ^ 31) (x : IVec S45088 32) (i : S45088.Idx)
    (hx : (x i).toNat < 2 ^ 31) : floorRem d x i = BitVec.ofNat 32 ((x i).toNat % d.toNat) := by
  rw [floorRem_read, safe_eq hd, remsi_nonneg _ _ hx hd hd']
  have hr : (BitVec.ofNat 32 ((x i).toNat % d.toNat)).toNat < 2 ^ 31 := by
    have : (x i).toNat % d.toNat < d.toNat := Nat.mod_lt _ hd
    rw [BitVec.toNat_ofNat]; omega
  rw [cmpi_slt_zero hr, cmpi_slt_zero hd']
  have hcond : ∀ c : BitVec 1, IntOp.andi (IntOp.cmpi .ne 0#1 0#1) c = 0#1 := by
    intro c
    show BitVec.ofBool (0#1 != 0#1) &&& c = 0#1
    simp
  rw [hcond, select_zero]

end Cert.KernelIdeal.Tail

end
-- ==== Proof.TailReads.lean ====
/-
  The mask "the next entry differs, or this is the last entry" built from two shifted slices of a list and a final one,
  read at an explicit index, for any list.
-/
import proofs.«430974_j78323023610033_1_alg».proof.Proof.TailTerm
import Idealize.ShloMosaic.Lib.ValueIdx
import Idealize.ShloMosaic.Lib.StableHlo.Predicate
import Idealize.ShloMosaic.Lib.Pipeline.Value

noncomputable section

open scoped BigOperators

namespace Cert.KernelIdeal.Tail

open Idealize.ShloMosaic Idealize.ShloMosaic.ValueIdx Cert.KernelIdeal Cert.KernelIdeal.Facts₀ Cert.KernelIdeal.Facts

namespace TailReads

/-- The comparison "differs" answers one exactly when the two words differ. -/
theorem cmpi_ne_iff {x y : BitVec 32} : IntOp.cmpi .ne x y = 1#1 ↔ x ≠ y := by
  show BitVec.ofBool (x != y) = 1#1 ↔ x ≠ y
  by_cases h : x = y
  · subst h
    have hb : (x != x) = false := by simp
    rw [hb]; exact ⟨fun hc => absurd hc (by decide), fun hc => absurd rfl hc⟩
  · have hb : (x != y) = true := bne_iff_ne.mpr h
    rw [hb]; exact ⟨fun _ => h, fun _ => rfl⟩

end TailReads

variable [Cert.KernelIdeal.Facts]

open TailReads

/-- The run-end mask of a list `sp`: one at entry `s` exactly when `s` is the last entry or the next entry differs. -/
theorem runEnd_read (sp : IVec S45088 32) (s : Fin 45088) :
    concatenate S45088 0
        [⟨S45087, cmpi .ne (extractStridedSlice S45087 ![1] sp slices_S45088_S45087_1)
            (extractStridedSlice S45087 ![0] sp slices_S45088_S45087_0)⟩,
         ⟨S1, constantI S1 1 1#1⟩] concatenates_S45087_S1_S45088_d0 (ix1 s) = 1#1
      ↔ ∀ h : s.val + 1 < 45088, sp (ix1 (⟨s.val + 1, h⟩ : Fin 45088)) ≠ sp (ix1 s) := by
  by_cases hs : s.val + 1 < 45088
  · -- below the last entry the mask is the comparison of entry s + 1 with entry s
    have hlt : s.val < 45087 := by omega
    rw [concatenate_pair_apply_left (0 : Fin S45088.rank) _ _ concatenates_S45087_S1_S45088_d0 (ix1 s) rfl
      (ix1 (⟨s.val, hlt⟩ : Fin 45087)) (fun b => by match b with | ⟨0, _⟩ => rfl)]
    have e1 : extractStridedSlice S45087 ![1] sp slices_S45088_S45087_1 (ix1 (⟨s.val, hlt⟩ : Fin 45087))
        = sp (ix1 (⟨s.val + 1, hs⟩ : Fin 45088)) := by
      unfold extractStridedSlice
      congr 1; funext a
      match a with
      | ⟨0, _⟩ => apply Fin.ext; show 1 + s.val = s.val + 1; omega
    have e0 : extractStridedSlice S45087 ![0] sp slices_S45088_S45087_0 (ix1 (⟨s.val, hlt⟩ : Fin 45087)) = sp (ix1 s) := by
      unfold extractStridedSlice
      congr 1; funext a
      match a with
      | ⟨0, _⟩ => apply Fin.ext; show 0 + s.val = s.val; omega
    show IntOp.cmpi .ne (extractStridedSlice S45087 ![1] sp slices_S45088_S45087_1 (ix1 (⟨s.val, hlt⟩ : Fin 45087)))
      (extractStridedSlice S45087 ![0] sp slices_S45088_S45087_0 (ix1 (⟨s.val, hlt⟩ : Fin 45087))) = 1#1 ↔ _
    rw [e1, e0, cmpi_ne_iff]
    exact ⟨fun h _ => h, fun h => h hs⟩
  · -- the last entry reads the final one
    have hv : s.val = 45087 := by have := s.isLt; omega
    rw [concatenate_pair_apply_right (0 : Fin S45088.rank) _ _ concatenates_S45087_S1_S45088_d0 (ix1 s) rfl rfl
      (ix1 (0 : Fin 1)) (fun b hb => absurd (Subsingleton.elim _ _) hb) (by show 0 + 45087 = s.val; omega)]
    exact ⟨fun _ h => absurd h hs, fun _ => rfl⟩

end Cert.KernelIdeal.Tail

end
-- ==== Proof.LibSortLast.lean ====
/-
  A stable sort of `n` signed 32-bit keys, read as the permutation it applies: it is a bijection of the positions, the keys
  never decrease along it, entries with equal keys keep their original order, and hence a sorted position closes its run
  of equal keys exactly when the entry there is the largest-numbered one carrying that key. General: any `n`, any keys.
-/
import Idealize.ShloMosaic.Lib.SortFacts

noncomputable section

namespace Cert.LibSortLast

open Idealize.ShloMosaic

variable {n : Nat} (key : Fin n → BitVec 32)

/-- The order sorted by: position `k` goes before `k'` when its key is strictly smaller as a signed word. -/
def before (k k' : Fin n) : Bool := IntOp.cmpi .slt (key k) (key k') == 1#1

/-- `perm key s`: the original position of the entry the stable sort puts at sorted position `s`. -/
def perm : Fin n → Fin n := sortedFrom (before key)

theorem perm_injective : Function.Injective (perm key) := sortedFrom_injective _

theorem perm_surjective : Function.Surjective (perm key) := sortedFrom_surjective _

/-- `before` is the strict comparison of the keys as signed integers. -/
theorem before_iff (a b : Fin n) : before key a b = true ↔ (key a).toInt < (key b).toInt := by
  unfold before IntOp.cmpi
  rw [← BitVec.slt_iff_toInt_lt]
  cases (key a).slt (key b) <;> simp

/-- The strict lexicographic order on the pair (signed key, position): the order the stable sort realizes. -/
def lexLt (a b : Fin n) : Prop :=
  (key a).toInt < (key b).toInt ∨ ((key a).toInt = (key b).toInt ∧ a < b)

theorem lexLt_trans {a b c : Fin n} (h₁ : lexLt key a b) (h₂ : lexLt key b c) : lexLt key a c := by
  unfold lexLt at *
  omega

/-- Inserting a position smaller than every position of a lexicographically ordered list keeps it ordered: the new
    entry passes exactly the entries of strictly smaller key, and stops in front of the first entry whose key is at
    least its own, which it precedes in the lexicographic order because its position is smaller. -/
theorem pairwise_insert (a : Fin n) (l : List (Fin n)) (hl : l.Pairwise (lexLt key)) (ha : ∀ b ∈ l, a < b) :
    (insertBefore (before key) a l).Pairwise (lexLt key) := by
  induction l with
  | nil => exact List.pairwise_singleton _ _
  | cons b l ih =>
    rw [List.pairwise_cons] at hl
    unfold insertBefore
    split
    · rename_i h
      have hba := (before_iff key b a).mp h
      refine List.pairwise_cons.mpr ⟨fun c hc => ?_, ih hl.2 fun c hc => ha c (List.mem_cons_of_mem b hc)⟩
      rcases List.mem_cons.mp ((perm_insertBefore (before key) a l).mem_iff.mp hc) with hca | hc'
      · rw [hca]; exact Or.inl hba
      · exact hl.1 c hc'
    · rename_i h
      have hab : lexLt key a b := by
        have h' : ¬ (key b).toInt < (key a).toInt := fun e => h ((before_iff key b a).mpr e)
        have hlt : a < b := ha b List.mem_cons_self
        unfold lexLt
        omega
      refine List.pairwise_cons.mpr ⟨fun c hc => ?_, List.pairwise_cons.mpr hl⟩
      rcases List.mem_cons.mp hc with hcb | hc'
      · rw [hcb]; exact hab
      · exact lexLt_trans key hab (hl.1 c hc')

/-- The stable sort of a list of increasing positions is lexicographically ordered. -/
theorem pairwise_stableSort_lex (l : List (Fin n)) (hl : l.Pairwise (· < ·)) :
    (stableSort (before key) l).Pairwise (lexLt key) := by
  induction l with
  | nil => exact List.Pairwise.nil
  | cons a l ih =>
    rw [List.pairwise_cons] at hl
    unfold stableSort
    exact pairwise_insert key a _ (ih hl.2) fun b hb => hl.1 b ((perm_stableSort _ l).mem_iff.mp hb)

/-- Along the sorted order the pairs (key, original position) strictly increase. -/
theorem perm_lex (s s' : Fin n) (h : s < s') : lexLt key (perm key s) (perm key s') := by
  have hp : ∀ a b : Fin (sortPositions n (before key)).length, a < b →
      lexLt key ((sortPositions n (before key)).get a) ((sortPositions n (before key)).get b) :=
    List.pairwise_iff_get.mp
      (pairwise_stableSort_lex key (List.finRange n) (List.sortedLT_finRange n).pairwise)
  unfold perm sortedFrom
  exact hp _ _ (by simp only [Fin.lt_def, Fin.val_cast]; exact h)

/-- Along the sorted order the keys never decrease (as signed words). -/
theorem key_mono (s s' : Fin n) (h : s ≤ s') : (key (perm key s)).toInt ≤ (key (perm key s')).toInt := by
  rcases lt_or_eq_of_le h with h' | h'
  · rcases perm_lex key s s' h' with h1 | ⟨h1, _⟩
    · exact le_of_lt h1
    · exact le_of_eq h1
  · rw [h']

/-- Entries with equal keys keep their original order. -/
theorem stable (s s' : Fin n) (h : s < s') (he : key (perm key s) = key (perm key s')) : perm key s < perm key s' := by
  rcases perm_lex key s s' h with h1 | ⟨_, h2⟩
  · rw [he] at h1
    exact absurd h1 (lt_irrefl _)
  · exact h2

/-- Sorted position `s` is the end of its run of equal keys (it is the last position, or the next key differs) exactly
    when the entry there is the largest-numbered entry carrying its key. -/
theorem last_iff (s : Fin n) :
    (∀ h : s.val + 1 < n, key (perm key ⟨s.val + 1, h⟩) ≠ key (perm key s))
      ↔ ∀ k : Fin n, key k = key (perm key s) → k ≤ perm key s := by
  constructor
  · intro hL k hk
    obtain ⟨t, rfl⟩ := perm_surjective key k
    rcases lt_trichotomy t s with hts | hts | hst
    · exact le_of_lt (stable key t s hts hk)
    · rw [hts]
    · -- a later sorted position with the same key forces the very next position to carry it too
      exfalso
      have hst' : s.val < t.val := Fin.lt_def.mp hst
      have hn : s.val + 1 < n := lt_of_le_of_lt (Nat.succ_le_of_lt hst') t.isLt
      have h1 := key_mono key s ⟨s.val + 1, hn⟩ (Fin.le_def.mpr (Nat.le_succ _))
      have h2 := key_mono key ⟨s.val + 1, hn⟩ t (Fin.le_def.mpr (Nat.succ_le_of_lt hst'))
      rw [hk] at h2
      exact hL hn (BitVec.eq_of_toInt_eq (le_antisymm h2 h1))
  · intro hR hn he
    have h1 := hR _ he
    have h2 := stable key s ⟨s.val + 1, hn⟩ (Fin.lt_def.mpr (Nat.lt_succ_self _)) he.symm
    exact absurd h1 (not_le_of_gt h2)

end Cert.LibSortLast

end
-- ==== Proof.TailA.lean ====
/-
  The sorted half of the host computation, read at a sorted place `s`: the argsort's entry there is the stable sort's
  permutation of the positions, and the correction computed for the place is the specification's correction of the
  outlier the sort put there (value − dequantized weight if that outlier is the last naming its position, zero if not):
  a place closes its run of equal positions exactly when its outlier is the largest-numbered one with that position.
-/
import proofs.«430974_j78323023610033_1_alg».proof.Proof.TailTerm
import proofs.«430974_j78323023610033_1_alg».proof.Proof.FloorDiv
import proofs.«430974_j78323023610033_1_alg».proof.Proof.TailReads
import proofs.«430974_j78323023610033_1_alg».proof.Proof.LibSortLast
import proofs.«430974_j78323023610033_1_alg».proof.Proof.Spec
import Idealize.ShloMosaic.Lib.ValueIdx
import Idealize.ShloMosaic.PureOps.Ideal.Laws
import Idealize.ShloMosaic.Lib.StableHlo.Predicate
import Idealize.ShloMosaic.Lib.Pipeline.Value

noncomputable section

open scoped BigOperators

namespace Cert.KernelIdeal.Tail

open Idealize.ShloMosaic Idealize.ShloMosaic.ValueIdx Cert.KernelIdeal Cert.KernelIdeal.Facts₀ Cert.KernelIdeal.Facts

variable [Cert.KernelIdeal.Facts]

open Cert.LibSortLast Cert.QSpec

/-- The outlier positions as the sort's keys. -/
def keys (P : IVec S45088 32) : Fin 45088 → BitVec 32 := fun k => P (ix1 k)

/-- The rank-1 index at a coordinate, in its two spellings. -/
theorem ofFin_eq_ix1 {n : Nat} (k : Fin n) : Shape.Idx.ofFin k = ix1 k := by
  funext d; match d with | ⟨0, _⟩ => rfl

/-- The position along the one axis of a list replaces the index. -/
theorem along_ix1 (j : S45088.Idx) (h : 0 < S45088.rank) (k : Fin (S45088.size ⟨0, h⟩)) :
    j.along ⟨0, h⟩ k = ix1 (n := 45088) k := by
  funext d
  match d with
  | ⟨0, _⟩ => unfold Shape.Idx.along; exact Function.update_self ..

/-- The argsort's entry at sorted place `s` is the original number of the outlier sorted there. -/
theorem sortIdx_apply (P : IVec S45088 32) (s : Fin 45088) :
    sortIdx P (ix1 s) = BitVec.ofNat 32 (perm (keys P) s).val := by
  unfold sortIdx Host.sort2
  rw [dif_pos (show 0 < S45088.rank from Nat.one_pos)]
  simp only [along_ix1]
  have hb : (fun k k' : Fin 45088 => comparator_i32_i32_d0 (P (ix1 k), iotaInDim S45088 32 0 (ix1 k))
      (P (ix1 k'), iotaInDim S45088 32 0 (ix1 k')) == 1#1) = before (keys P) := by
    funext k k'; rfl
  exact congrArg (fun f => BitVec.ofNat 32 (sortedFrom f s).val) hb

/-- A take-shaped gather through a one-column index array whose word at row `s` is the small natural `m`. -/
theorem gather_col_apply {α : Type} {N : Nat} (d : GatherDims (⟨1, ![N]⟩ : Shape) S45088x1 S45088)
    (hcoll : d.collapsedSliceDims = [0]) (hob : d.operandBatchingDims = [])
    (hsim : d.startIndexMap = [0]) (hivd : d.indexVectorDim = 1)
    (t : (⟨1, ![N]⟩ : Shape).Idx → α) (x : IVec S45088 32) (s : Fin 45088) (m : Fin N) (hN : N ≤ 2 ^ 31)
    (hx : x (ix1 s) = BitVec.ofNat 32 m.val) :
    Host.gather d t (col x) (ix1 s) = t (ix1 m) := by
  have h := StableHlo.Predicate.gather_take d hcoll hob hsim hivd t (col x) s (Nat.lt_of_le_of_lt (Nat.zero_le _) m.isLt)
  rw [ofFin_eq_ix1] at h
  rw [h, ofFin_eq_ix1]
  congr 2
  apply Fin.ext
  show min ((col x) (StableHlo.Predicate.ixP s)).toInt.toNat (N - 1) = m.val
  rw [show col x (StableHlo.Predicate.ixP s) = x (ix1 s) from
    (StableHlo.Predicate.bcast_col1 _ x s).trans (by rw [ofFin_eq_ix1]), hx,
    StableHlo.Predicate.toInt_ofNat_small _ (by have := m.isLt; omega)]
  have := m.isLt
  simp only [Int.toNat_natCast]
  omega

/-- `t[i]` at a place where the index word is the small natural `m` is `t` at `m`. -/
theorem take_apply {α : Type} (t : S45088.Idx → α) (i : IVec S45088 32) (s m : Fin 45088)
    (hi : i (ix1 s) = BitVec.ofNat 32 m.val) : take t i (ix1 s) = t (ix1 m) := by
  refine gather_col_apply gather_S45088_S45088x1_S45088_n_0_n_n_0_1_1 rfl rfl rfl rfl t _ s m (by norm_num) ?_
  rw [wrap_apply_of_nonneg _ _ _ (by rw [hi, BitVec.toNat_ofNat]; have := m.isLt; omega), hi]

/-- The sorted positions at place `s`: the position of the outlier sorted there. -/
theorem sortedP_apply (P : IVec S45088 32) (s : Fin 45088) : sortedP P (ix1 s) = P (ix1 (perm (keys P) s)) :=
  take_apply P (sortIdx P) s _ (sortIdx_apply P s)

/-- The sorted values at place `s`: the value of the outlier sorted there. -/
theorem sortedVal_apply {F : FTy → Type} [FloatOps F] (P : IVec S45088 32) (val : FVec F S45088 .f32) (s : Fin 45088) :
    sortedVal P val (ix1 s) = val (ix1 (perm (keys P) s)) :=
  take_apply val (sortIdx P) s _ (sortIdx_apply P s)

/-- A gather that collapses both axes of a table, through a two-column index array: row `p` reads the table at
    the two start indices, each read signed and clamped into its axis. -/
theorem gather_pair {α : Type} {N M n w : Nat} (d : GatherDims (⟨2, ![N, M]⟩ : Shape) (⟨2, ![n, 2]⟩ : Shape) (⟨1, ![n]⟩ : Shape))
    (hcoll : d.collapsedSliceDims = [0, 1]) (hob : d.operandBatchingDims = [])
    (hsim : d.startIndexMap = [0, 1]) (hivd : d.indexVectorDim = 1)
    (x : (⟨2, ![N, M]⟩ : Shape).Idx → α) (idx : IVec (⟨2, ![n, 2]⟩ : Shape) w) (p : Fin n) (hN : 0 < N) (hM : 0 < M) :
    Host.gather d x idx (ix1 p)
      = x (ix2 (⟨min (idx (ix2 p (0 : Fin 2))).toInt.toNat (N - 1), by omega⟩ : Fin N)
            (⟨min (idx (ix2 p (1 : Fin 2))).toInt.toNat (M - 1), by omega⟩ : Fin M)) := by
  unfold Host.gather
  congr 1
  funext a
  have hb : ∀ a : Fin 2, a ∉ d.operandBatchingDims := by intro a; rw [hob]; exact List.not_mem_nil
  have hk : ∀ a : Fin 2, a ∉ d.sKept := by
    intro a; rw [GatherDims.mem_sKept, hcoll]
    match a with
    | ⟨0, _⟩ => simp
    | ⟨1, _⟩ => simp
  have hm : ∀ a : Fin 2, a ∈ d.startIndexMap := by
    intro a; rw [hsim]
    match a with
    | ⟨0, _⟩ => simp
    | ⟨1, _⟩ => simp
  have hsl : ∀ a : Fin 2, d.sliceSizes a = 1 := fun a => d.slice_collapsed a (by
    rw [hcoll]
    match a with
    | ⟨0, _⟩ => simp
    | ⟨1, _⟩ => simp)
  have hsi : ∀ (c : Fin d.startIndexMap.length) (q : Fin 2), c.val = q.val → d.siIdx (ix1 p) c = ix2 p q := by
    intro c q hcq
    funext b
    match b with
    | ⟨0, _⟩ =>
      unfold GatherDims.siIdx
      rw [dif_neg (by rw [hivd]; simp)]
      unfold GatherDims.siCoord
      apply Fin.ext
      simp only [Fin.val_cast]
      have e : ∀ X : Fin 1, ((ix1 p : (⟨1, ![n]⟩ : Shape).Idx) X).val = p.val := fun X => by
        have hX : X = 0 := Subsingleton.elim _ _
        subst hX; rfl
      exact e _
    | ⟨1, _⟩ =>
      unfold GatherDims.siIdx
      rw [dif_pos (by rw [hivd])]
      apply Fin.ext
      exact hcq
  apply Fin.ext
  simp only [GatherDims.operandIdx, GatherDims.batchCoord_eq_zero _ _ _ (hb a), GatherDims.offCoord_eq_zero _ _ _ (hk a),
    Nat.add_zero, GatherDims.start, dif_pos (hm a)]
  rw [hsl a]
  match a with
  | ⟨0, _⟩ =>
    rw [hsi _ (0 : Fin 2) (by show List.idxOf (0 : Fin 2) d.startIndexMap = 0; rw [hsim]; simp)]
    rfl
  | ⟨1, _⟩ =>
    rw [hsi _ (1 : Fin 2) (by show List.idxOf (1 : Fin 2) d.startIndexMap = 1; rw [hsim]; simp)]
    rfl

/-- The two-column index array at row `s`, column 0: the first column's entry. -/
theorem cat_col0 (a b : IVec S45088x1 32) (s : Fin 45088) :
    concatenate S45088x2 1 [⟨S45088x1, a⟩, ⟨S45088x1, b⟩] concatenates_S45088x1_S45088x1_S45088x2_d1 (ix2 s (0 : Fin 2))
      = a (StableHlo.Predicate.ixP s) := by
  refine concatenate_pair_apply_left (t := S45088x2) (s₁ := S45088x1) (s₂ := S45088x1) (1 : Fin 2) a b _ _ rfl _ ?_
  intro c
  match c with
  | ⟨0, _⟩ => rfl
  | ⟨1, _⟩ => rfl

/-- … and column 1: the second column's entry. -/
theorem cat_col1 (a b : IVec S45088x1 32) (s : Fin 45088) :
    concatenate S45088x2 1 [⟨S45088x1, a⟩, ⟨S45088x1, b⟩] concatenates_S45088x1_S45088x1_S45088x2_d1 (ix2 s (1 : Fin 2))
      = b (StableHlo.Predicate.ixP s) := by
  refine concatenate_pair_apply_right (t := S45088x2) (s₁ := S45088x1) (s₂ := S45088x1) (1 : Fin 2) a b _ _ rfl rfl _ ?_ ?_
  · intro c hc
    match c with
    | ⟨0, _⟩ => rfl
    | ⟨1, _⟩ => exact absurd rfl hc
  · rfl

/-- A list kept as a one-column array reads, at row `s`, the list at `s`. -/
theorem col_apply (x : IVec S45088 32) (s : Fin 45088) : col x (StableHlo.Predicate.ixP s) = x (ix1 s) :=
  (StableHlo.Predicate.bcast_col1 _ x s).trans (by rw [ofFin_eq_ix1])

/-- Two rank-2 indices with the same coordinates are equal. -/
theorem ix2_congr {n0 n1 : Nat} {a a' : Fin n0} {b b' : Fin n1} (ha : a.val = a'.val) (hb : b.val = b'.val) :
    ix2 a b = ix2 a' b' := by
  rw [Fin.ext ha, Fin.ext hb]

/-- A small natural's word, read signed and clamped into an extent that holds it, is the natural. -/
theorem clampIdx (v N : Nat) (hv : v < N) (hN : N ≤ 2 ^ 31) : min (BitVec.ofNat 32 v).toInt.toNat (N - 1) = v := by
  rw [StableHlo.Predicate.toInt_ofNat_small _ (by omega)]
  simp only [Int.toNat_natCast]
  omega

/-- The block of the position sorted at `s`: the position divided by 64. -/
theorem blockOf_apply (P : IVec S45088 32) (s : Fin 45088) (hP : (P (ix1 (perm (keys P) s))).toNat < 2 ^ 31) :
    blockOf P (ix1 s) = BitVec.ofNat 32 ((P (ix1 (perm (keys P) s))).toNat / 64) := by
  unfold blockOf
  rw [floorDiv_apply 64#32 (by decide) (by decide) _ _ (by rw [sortedP_apply]; exact hP), sortedP_apply]
  rfl

/-- Its place in the block: the position modulo 64. -/
theorem placeOf_apply (P : IVec S45088 32) (s : Fin 45088) (hP : (P (ix1 (perm (keys P) s))).toNat < 2 ^ 31) :
    placeOf P (ix1 s) = BitVec.ofNat 32 ((P (ix1 (perm (keys P) s))).toNat % 64) := by
  unfold placeOf
  rw [floorRem_apply 64#32 (by decide) (by decide) _ _ (by rw [sortedP_apply]; exact hP), sortedP_apply]
  rfl

/-- The scale read for sorted place `s` is the scale of its position's block. -/
theorem scaleAt_apply {F : FTy → Type} [FloatOps F] (sc : FVec F S704512 .f32) (P : IVec S45088 32) (s : Fin 45088)
    (hP : (P (ix1 (perm (keys P) s))).toNat < 45088768) :
    scaleAt sc P (ix1 s) = sc (ix1 (⟨(P (ix1 (perm (keys P) s))).toNat / 64, by omega⟩ : Fin 704512)) := by
  unfold scaleAt
  have hb := blockOf_apply P s (by omega)
  refine gather_col_apply gather_S704512_S45088x1_S45088_n_0_n_n_0_1_1 rfl rfl rfl rfl sc _ s ⟨_, _⟩ (by norm_num) ?_
  rw [wrap_apply_of_nonneg _ _ _ (by rw [hb, BitVec.toNat_ofNat]; omega), hb]

/-- The code read for sorted place `s` is the code stored at its position. -/
theorem codeAt_apply (idx : IVec S704512x64 32) (P : IVec S45088 32) (s : Fin 45088)
    (hP : (P (ix1 (perm (keys P) s))).toNat < 45088768) :
    codeAt idx P (ix1 s) = idx (ix2 (⟨(P (ix1 (perm (keys P) s))).toNat / 64, by omega⟩ : Fin 704512)
      (⟨(P (ix1 (perm (keys P) s))).toNat % 64, Nat.mod_lt _ (by decide)⟩ : Fin 64)) := by
  unfold codeAt
  have hb := blockOf_apply P s (by omega)
  have hp := placeOf_apply P s (by omega)
  rw [gather_pair _ rfl rfl rfl rfl idx _ s (by norm_num) (by norm_num)]
  refine congrArg idx (ix2_congr ?_ ?_)
  · show min (_ : BitVec 32).toInt.toNat (704512 - 1) = _
    rw [cat_col0, col_apply, wrap_apply_of_nonneg _ _ _ (by rw [hb, BitVec.toNat_ofNat]; omega), hb]
    exact clampIdx _ _ (by omega) (by norm_num)
  · show min (_ : BitVec 32).toInt.toNat (64 - 1) = _
    rw [cat_col1, col_apply, wrap_apply_of_nonneg _ _ _ (by rw [hp, BitVec.toNat_ofNat]; omega), hp]
    exact clampIdx _ _ (Nat.mod_lt _ (by decide)) (by norm_num)

/-- The program's table of levels is the specification's. -/
theorem lit0_eq (k : Fin 16) : lit0 k = lvlWord k := rfl

/-- The level read for sorted place `s` is the level its position's code names. -/
theorem levelAt_apply (idx : IVec S704512x64 32) (P : IVec S45088 32) (s : Fin 45088)
    (hP : (P (ix1 (perm (keys P) s))).toNat < 45088768) (hc : ∀ i, (idx i).toNat < 16) :
    levelAt (F := Ideal) idx P (ix1 s)
      = level (idx (ix2 (⟨(P (ix1 (perm (keys P) s))).toNat / 64, by omega⟩ : Fin 704512)
          (⟨(P (ix1 (perm (keys P) s))).toNat % 64, Nat.mod_lt _ (by decide)⟩ : Fin 64))) := by
  unfold levelAt
  have hcd := codeAt_apply idx P s hP
  generalize idx (ix2 (⟨(P (ix1 (perm (keys P) s))).toNat / 64, by omega⟩ : Fin 704512)
      (⟨(P (ix1 (perm (keys P) s))).toNat % 64, Nat.mod_lt _ (by decide)⟩ : Fin 64)) = c at hcd ⊢
  have hlt : c.toNat < 16 := by rw [← hcd]; exact hc _
  have hx : wrap 16#32 (codeAt idx P) (ix1 s) = BitVec.ofNat 32 (⟨c.toNat, hlt⟩ : Fin 16).val := by
    rw [wrap_apply_of_nonneg _ _ _ (by rw [hcd]; omega), hcd]
    apply BitVec.eq_of_toNat_eq
    rw [BitVec.toNat_ofNat]
    exact (Nat.mod_eq_of_lt c.isLt).symm
  rw [gather_col_apply gather_S16_S45088x1_S45088_n_0_n_n_0_1_1 rfl rfl rfl rfl _ _ s ⟨c.toNat, hlt⟩ (by norm_num) hx]
  have hk : (S16.rowMajor (ix1 (⟨c.toNat, hlt⟩ : Fin 16)) : Fin 16) = ⟨c.toNat % 16, Nat.mod_lt _ (by decide)⟩ :=
    Fin.ext (by
      show (S16.rowMajor (ix1 (⟨c.toNat, hlt⟩ : Fin 16))).val = c.toNat % 16
      rw [Shape.rowMajor_val_one]
      show c.toNat = c.toNat % 16
      omega)
  exact congrArg (fun k : Fin 16 => Ideal.ofBits .f32 (lvlWord k)) hk

/-- The mask at sorted place `s` is set exactly when the outlier sorted there is the last naming its position. -/
theorem lastMask_iff (a : Args) (s : Fin 45088) :
    lastMask a.P (ix1 s) = 1#1 ↔ a.isLast (perm (keys a.P) s) := by
  unfold lastMask
  rw [runEnd_read (sortedP a.P) s]
  have h1 : (∀ h : s.val + 1 < 45088, sortedP a.P (ix1 (⟨s.val + 1, h⟩ : Fin 45088)) ≠ sortedP a.P (ix1 s))
      ↔ ∀ h : s.val + 1 < 45088, keys a.P (perm (keys a.P) ⟨s.val + 1, h⟩) ≠ keys a.P (perm (keys a.P) s) := by
    simp only [sortedP_apply]
    rfl
  rw [h1, last_iff (keys a.P) s]
  unfold Args.isLast Args.pos
  constructor
  · intro h n' hn'
    exact h n' (BitVec.eq_of_toNat_eq hn')
  · intro h k hk
    exact h k (congrArg BitVec.toNat hk)

/-- The correction computed at sorted place `s` is the specification's correction of the outlier sorted there. -/
theorem deltaSorted_apply (a : Args) (h : a.Ok) (s : Fin 45088) :
    deltaSorted (F := Ideal) a.idx a.sc a.P a.val (ix1 s) = delta a (perm (keys a.P) s) := by
  have hP : (a.P (ix1 (perm (keys a.P) s))).toNat < 45088768 := h.P_lt _
  unfold deltaSorted delta
  rw [select_apply]
  by_cases hl : a.isLast (perm (keys a.P) s)
  · rw [(lastMask_iff a s).mpr hl, select_one, if_pos hl, subf_apply, mulf_apply, sortedVal_apply,
      levelAt_apply a.idx a.P s hP h.idx_lt, scaleAt_apply a.sc a.P s hP]
    unfold wbase Args.pos
    rw [dif_pos hP]
  · rw [eq_zero_of_ne_one (fun e => hl ((lastMask_iff a s).mp e)), select_zero, if_neg hl]
    show Ideal.ofBits .f32 0x00000000#32 = 0
    exact Ideal.ofBits_zero_f32

end Cert.KernelIdeal.Tail

end
-- ==== Proof.LibScatterSet.lean ====
/-
  A rank-1 overwriting scatter (`operand.at[indices].set(updates)`, one index per update, the operand's one axis
  inserted) read at an index: the element at `i` is the update of the LAST list entry whose index, read as a signed word,
  is `i`, and the operand's own element where no entry names `i` (an entry whose index is negative or past the end names
  nothing). General: any lengths, any element type.
-/
import Idealize.ShloMosaic.PureOps.ShapeOps
import Idealize.ShloMosaic.Lib.ValueIdx
import Idealize.ShloMosaic.Lib.StableHlo.Predicate

noncomputable section

namespace Cert.LibScatterSet

open Idealize.ShloMosaic Idealize.ShloMosaic.ValueIdx

/-! ## A left fold of overwriting steps, read at one index

A step either leaves the element at `i` alone (a miss) or sets it to the step's own value (a hit). After a fold the
element at `i` is the value of the last hit, or the starting element when every step misses. -/

/-- A fold of steps that all miss `i` leaves the element at `i` as it was. -/
theorem foldl_miss {β ι α : Type} (g : (ι → α) → β → (ι → α)) (i : ι) (hit : β → Prop)
    (hmiss : ∀ r n, ¬ hit n → g r n i = r i) :
    ∀ (l : List β) (x : ι → α), (∀ n ∈ l, ¬ hit n) → l.foldl g x i = x i
  | [], _, _ => rfl
  | a :: l, x, h => by
      rw [List.foldl_cons, foldl_miss g i hit hmiss l (g x a) (fun n hn => h n (List.mem_cons_of_mem _ hn)),
        hmiss x a (h a List.mem_cons_self)]

/-- A fold whose last hit of `i` is the step `k` (every later step misses) ends with `k`'s value at `i`. -/
theorem foldl_last_hit {β ι α : Type} (g : (ι → α) → β → (ι → α)) (i : ι) (hit : β → Prop) (val : β → α)
    (hmiss : ∀ r n, ¬ hit n → g r n i = r i) (hhit : ∀ r n, hit n → g r n i = val n)
    (l₁ l₂ : List β) (k : β) (hk : hit k) (h₂ : ∀ n ∈ l₂, ¬ hit n) (x : ι → α) :
    (l₁ ++ k :: l₂).foldl g x i = val k := by
  rw [List.foldl_append, List.foldl_cons, foldl_miss g i hit hmiss l₂ _ h₂, hhit _ _ hk]

/-! ## Where one update lands -/

/-- Update `j` of the rank-1 scatter lands on operand index `i` exactly when its index word, read signed, is `i`. -/
theorem resultIdx?_eq_some_iff {N n : Nat}
    (d : ScatterDims (⟨1, ![N]⟩ : Shape) (⟨2, ![n, 1]⟩ : Shape) (⟨1, ![n]⟩ : Shape))
    (hu : d.updateWindowDims = []) (hi : d.insertedWindowDims = [0]) (hs : d.scatterDimsToOperandDims = [0])
    (hv : d.indexVectorDim = 1) (idx : IVec (⟨2, ![n, 1]⟩ : Shape) 32) (j : (⟨1, ![n]⟩ : Shape).Idx) (i : Fin N) :
    d.resultIdx? j idx = some (ix1 i) ↔ (idx (StableHlo.Predicate.ixP (j 0))).toInt = (i.val : ℤ) := by
  have hm : (0 : Fin 1) ∈ d.scatterDimsToOperandDims := by rw [hs]; exact List.mem_singleton.mpr rfl
  have hk : (0 : Fin 1) ∉ d.sKept := by
    simp [ScatterDims.sKept, Shape.kept, hi]
  -- the scatter-indices index an update reads: its own row, column 0
  have hsi : ∀ c, d.siIdx j c = StableHlo.Predicate.ixP (j 0) := by
    intro c
    funext b
    match b with
    | ⟨0, _⟩ =>
      unfold ScatterDims.siIdx
      rw [dif_neg (by rw [hv]; simp)]
      unfold ScatterDims.siCoord
      apply Fin.ext
      simp only [Fin.val_cast]
      have e : ∀ X : Fin 1, (j X).val = (j 0).val := fun X => by
        have hX : X = 0 := Subsingleton.elim _ _
        subst hX; rfl
      exact e _
    | ⟨1, _⟩ =>
      unfold ScatterDims.siIdx
      rw [dif_pos (by rw [hv])]
      apply Fin.ext
      have hc := c.isLt
      simp only [hs, List.length_singleton] at hc
      show c.val = 0
      omega
  have hstart : d.start j idx 0 = (idx (StableHlo.Predicate.ixP (j 0))).toInt := by
    unfold ScatterDims.start
    rw [dif_pos hm, hsi]
    rfl
  have hwin : d.window j 0 = 0 := by
    unfold ScatterDims.window
    rw [dif_neg hk]
  have hall : ∀ a : Fin 1, a = 0 := fun a => Subsingleton.elim _ _
  unfold ScatterDims.resultIdx?
  split
  · next h =>
    have h0 := h 0
    rw [hstart, hwin] at h0
    constructor
    · intro e
      have e' := congrFun (Option.some.inj e) 0
      have e'' := congrArg Fin.val e'
      simp only [hstart, hwin] at e''
      change ((idx (StableHlo.Predicate.ixP (j 0))).toInt + ((0 : Nat) : ℤ)).toNat = i.val at e''
      omega
    · intro e
      congr 1
      funext a
      rw [hall a]
      apply Fin.ext
      show (d.start j idx 0 + (d.window j 0 : ℤ)).toNat = i.val
      rw [hstart, hwin]
      omega
  · next h =>
    constructor
    · intro e; exact absurd e (by simp)
    · intro e
      exfalso
      apply h
      intro a
      rw [hall a, hstart, hwin]
      have := i.isLt
      show 0 ≤ _ + ((0 : Nat) : ℤ) ∧ _ + ((0 : Nat) : ℤ) < ((N : Nat) : ℤ)
      omega

open Classical in
/-- The overwriting scatter at index `i`. `StableHlo.Predicate.ixP k` is row `k` of the `[n, 1]` index array. -/
theorem scatter_set_apply {α : Type} {N n : Nat}
    (d : ScatterDims (⟨1, ![N]⟩ : Shape) (⟨2, ![n, 1]⟩ : Shape) (⟨1, ![n]⟩ : Shape))
    (hu : d.updateWindowDims = []) (hi : d.insertedWindowDims = [0]) (hs : d.scatterDimsToOperandDims = [0])
    (hv : d.indexVectorDim = 1)
    (x : (⟨1, ![N]⟩ : Shape).Idx → α) (idx : IVec (⟨2, ![n, 1]⟩ : Shape) 32) (upd : (⟨1, ![n]⟩ : Shape).Idx → α) (i : Fin N) :
    Host.scatter d (fun _ b => b) x idx upd (ix1 i)
      = if h : ∃ k : Fin n, (idx (StableHlo.Predicate.ixP k)).toInt = (i.val : ℤ)
            ∧ ∀ k' : Fin n, (idx (StableHlo.Predicate.ixP k')).toInt = (i.val : ℤ) → k' ≤ k
        then upd (ix1 h.choose) else x (ix1 i) := by
  classical
  -- the update numbers that land on `i`
  let hit : Fin (⟨1, ![n]⟩ : Shape).numel → Prop := fun m =>
    d.resultIdx? ((⟨1, ![n]⟩ : Shape).rowMajor.symm m) idx = some (ix1 i)
  have hhitiff : ∀ m, hit m ↔
      (idx (StableHlo.Predicate.ixP ((⟨1, ![n]⟩ : Shape).rowMajor.symm m 0))).toInt = (i.val : ℤ) := fun m =>
    resultIdx?_eq_some_iff d hu hi hs hv idx _ i
  -- an update number is its index's one coordinate
  have hval : ∀ m : Fin (⟨1, ![n]⟩ : Shape).numel, ((⟨1, ![n]⟩ : Shape).rowMajor.symm m 0).val = m.val := fun m => by
    have e := Shape.rowMajor_val_one ((⟨1, ![n]⟩ : Shape).rowMajor.symm m)
    rw [Equiv.apply_symm_apply] at e
    exact e.symm
  -- the scatter is a fold of steps, each a miss or a hit at `i`
  obtain ⟨g, hg, hmiss, hhit⟩ : ∃ g : ((⟨1, ![N]⟩ : Shape).Idx → α) → Fin (⟨1, ![n]⟩ : Shape).numel → ((⟨1, ![N]⟩ : Shape).Idx → α),
      Host.scatter d (fun _ b => b) x idx upd = (List.finRange (⟨1, ![n]⟩ : Shape).numel).foldl g x
      ∧ (∀ r m, ¬ hit m → g r m (ix1 i) = r (ix1 i))
      ∧ (∀ r m, hit m → g r m (ix1 i) = upd ((⟨1, ![n]⟩ : Shape).rowMajor.symm m)) := by
    refine ⟨_, rfl, ?_, ?_⟩
    · intro r m hm
      have hm' : ¬ d.resultIdx? ((⟨1, ![n]⟩ : Shape).rowMajor.symm m) idx = some (ix1 i) := hm
      generalize d.resultIdx? ((⟨1, ![n]⟩ : Shape).rowMajor.symm m) idx = o at hm' ⊢
      cases o with
      | none => rfl
      | some i0 =>
        have hne : ¬ (ix1 i = i0) := fun e => hm' (congrArg some e.symm)
        exact if_neg hne
    · intro r m hm
      have hm' : d.resultIdx? ((⟨1, ![n]⟩ : Shape).rowMajor.symm m) idx = some (ix1 i) := hm
      generalize d.resultIdx? ((⟨1, ![n]⟩ : Shape).rowMajor.symm m) idx = o at hm' ⊢
      subst hm'
      exact if_pos rfl
  rw [hg]
  by_cases h : ∃ k : Fin n, (idx (StableHlo.Predicate.ixP k)).toInt = (i.val : ℤ)
      ∧ ∀ k' : Fin n, (idx (StableHlo.Predicate.ixP k')).toInt = (i.val : ℤ) → k' ≤ k
  · rw [dif_pos h]
    obtain ⟨hk1, hk2⟩ := h.choose_spec
    generalize h.choose = k at hk1 hk2
    -- the update number of `k`, and the list of update numbers split at it
    have hkm : (⟨1, ![n]⟩ : Shape).rowMajor.symm ((⟨1, ![n]⟩ : Shape).rowMajor (ix1 k)) = ix1 k :=
      Equiv.symm_apply_apply _ _
    have hkhit : hit ((⟨1, ![n]⟩ : Shape).rowMajor (ix1 k)) := by
      rw [hhitiff, hkm]; exact hk1
    obtain ⟨l₁, l₂, hsplit⟩ := List.append_of_mem (List.mem_finRange ((⟨1, ![n]⟩ : Shape).rowMajor (ix1 k)))
    have hpw : (l₁ ++ (⟨1, ![n]⟩ : Shape).rowMajor (ix1 k) :: l₂).Pairwise (· < ·) :=
      hsplit ▸ List.pairwise_lt_finRange _
    have hlater : ∀ m ∈ l₂, ¬ hit m := by
      intro m hm hmhit
      have hlt : (⟨1, ![n]⟩ : Shape).rowMajor (ix1 k) < m :=
        List.rel_of_pairwise_cons (List.pairwise_append.1 hpw).2.1 hm
      have hle := hk2 _ ((hhitiff m).1 hmhit)
      have h1 : ((⟨1, ![n]⟩ : Shape).rowMajor (ix1 k)).val = k.val := Shape.rowMajor_val_one _
      have h2 := hval m
      have h3 : ((⟨1, ![n]⟩ : Shape).rowMajor.symm m 0).val ≤ k.val := hle
      have h4 : ((⟨1, ![n]⟩ : Shape).rowMajor (ix1 k)).val < m.val := hlt
      omega
    rw [hsplit, foldl_last_hit g (ix1 i) hit _ hmiss hhit l₁ l₂ _ hkhit hlater x, hkm]
  · rw [dif_neg h]
    -- no entry names `i`: a nonempty set of such entries would have a greatest member
    have hnone : ∀ k : Fin n, (idx (StableHlo.Predicate.ixP k)).toInt ≠ (i.val : ℤ) := by
      intro k hk
      let S : Finset (Fin n) := Finset.univ.filter fun k => (idx (StableHlo.Predicate.ixP k)).toInt = (i.val : ℤ)
      have hne : S.Nonempty := ⟨k, Finset.mem_filter.2 ⟨Finset.mem_univ _, hk⟩⟩
      exact h ⟨S.max' hne, (Finset.mem_filter.1 (S.max'_mem hne)).2,
        fun k' hk' => S.le_max' k' (Finset.mem_filter.2 ⟨Finset.mem_univ _, hk'⟩)⟩
    exact foldl_miss g (ix1 i) hit hmiss _ x fun m _ hmhit => hnone _ ((hhitiff m).1 hmhit)

end Cert.LibScatterSet

end
-- ==== Proof.TailB.lean ====
/-
  The list-order half of the host computation: the scatter of 0, 1, 2, … to the argsort's entries inverts the sort's
  permutation, so the corrections gathered through it are the specification's corrections in list order; each outlier's
  output feature and input column are the quotient and remainder of its position by 4096; and the scatter-add of
  (column of x) · correction by output feature, added to the region's result, is that result plus the specification's
  correction term.
-/
import proofs.«430974_j78323023610033_1_alg».proof.Proof.TailTerm
import proofs.«430974_j78323023610033_1_alg».proof.Proof.TailA
import proofs.«430974_j78323023610033_1_alg».proof.Proof.FloorDiv
import proofs.«430974_j78323023610033_1_alg».proof.Proof.LibSortLast
import proofs.«430974_j78323023610033_1_alg».proof.Proof.LibScatterSet
import proofs.«430974_j78323023610033_1_alg».proof.Proof.Spec
import Idealize.ShloMosaic.Lib.ValueIdx
import Idealize.ShloMosaic.PureOps.Ideal.Laws
import Idealize.ShloMosaic.Lib.StableHlo.Predicate

noncomputable section

open scoped BigOperators

namespace Cert.KernelIdeal.Tail

open Idealize.ShloMosaic Idealize.ShloMosaic.ValueIdx Cert.KernelIdeal Cert.KernelIdeal.Facts₀ Cert.KernelIdeal.Facts

variable [Cert.KernelIdeal.Facts]

open Cert.LibSortLast Cert.QSpec
open Idealize.ShloMosaic.StableHlo.Predicate (ixP i1q ij)

/-! ## Reading a list at an index, and a take through an index list -/

/-- The two ways of writing the rank-1 index at coordinate `k` agree. -/
theorem ofFin_eq_ix1B {n : Nat} (k : Fin n) : Shape.Idx.ofFin k = ix1 k := by
  funext d; match d with | ⟨0, _⟩ => rfl

/-- A list of nonnegative index words, wrapped and laid as a column, reads at row `k` the list's word at `k`. -/
theorem col_wrap_apply (m : BitVec 32) (x : IVec S45088 32) (k : Fin 45088) (hx : (x (ix1 k)).toNat < 2 ^ 31) :
    col (wrap m x) (ixP k) = x (ix1 k) := by
  show broadcastInDim S45088x1 ![0] bcast_S45088_S45088x1_0 (wrap m x) (ixP k) = _
  rw [StableHlo.Predicate.bcast_col1, ofFin_eq_ix1B, wrap_apply_of_nonneg m x (ix1 k) hx]

/-- `t[i]` at entry `n`, when the index word there is the in-range number `m`: the table at `m`. -/
theorem take_applyB {α : Type} (t : S45088.Idx → α) (i : IVec S45088 32) (n m : Fin 45088)
    (hi : i (ix1 n) = BitVec.ofNat 32 m.val) : take t i (ix1 n) = t (ix1 m) := by
  have hm := m.isLt
  have hw : col (wrap 45088#32 i) (ixP n) = BitVec.ofNat 32 m.val := by
    rw [col_wrap_apply _ _ _ (by rw [hi, BitVec.toNat_ofNat]; omega), hi]
  show Host.gather gather_S45088_S45088x1_S45088_n_0_n_n_0_1_1 t (col (wrap 45088#32 i)) (ix1 n) = _
  rw [← ofFin_eq_ix1B, StableHlo.Predicate.gather_take _ rfl rfl rfl rfl t _ n (by decide)]
  congr 1
  funext d
  match d with
  | ⟨0, _⟩ =>
    apply Fin.ext
    show min (col (wrap 45088#32 i) (ixP n)).toInt.toNat (45088 - 1) = m.val
    rw [hw, StableHlo.Predicate.toInt_ofNat_small _ (by omega), Int.toNat_natCast]
    omega

/-! ## The inverse permutation -/

/-- The index word the scatter reads at row `k`: the number of the outlier sorted to place `k`. -/
theorem sortCol_apply (P : IVec S45088 32) (k : Fin 45088) :
    col (wrap 45088#32 (sortIdx P)) (ixP k) = BitVec.ofNat 32 (perm (keys P) k).val := by
  have hk := (perm (keys P) k).isLt
  rw [col_wrap_apply _ _ _ (by rw [sortIdx_apply, BitVec.toNat_ofNat]; omega), sortIdx_apply]

/-- The scattered list inverts the sort's permutation. -/
theorem invPerm_apply (P : IVec S45088 32) (s : Fin 45088) :
    invPerm P (ix1 (perm (keys P) s)) = BitVec.ofNat 32 s.val := by
  -- the rows whose index word is `perm s` are exactly the row `s`
  have key : ∀ k : Fin 45088, (col (wrap 45088#32 (sortIdx P)) (ixP k)).toInt = ((perm (keys P) s).val : ℤ) ↔ k = s := by
    intro k
    have hk := (perm (keys P) k).isLt
    rw [sortCol_apply, StableHlo.Predicate.toInt_ofNat_small _ (by omega)]
    constructor
    · intro h
      exact perm_injective (keys P) (Fin.ext (by exact_mod_cast h))
    · rintro rfl; rfl
  have hex : ∃ k : Fin 45088, (col (wrap 45088#32 (sortIdx P)) (ixP k)).toInt = ((perm (keys P) s).val : ℤ) ∧
      ∀ k' : Fin 45088, (col (wrap 45088#32 (sortIdx P)) (ixP k')).toInt = ((perm (keys P) s).val : ℤ) → k' ≤ k :=
    ⟨s, (key s).2 rfl, fun k' hk' => le_of_eq ((key k').1 hk')⟩
  unfold invPerm
  rw [Cert.LibScatterSet.scatter_set_apply scatter_S45088_S45088x1_S45088_n_0_0_1 rfl rfl rfl rfl, dif_pos hex,
    (key _).1 hex.choose_spec.1]
  rfl

/-- The corrections in list order are the specification's. -/
theorem deltaOrig_apply (a : Args) (h : a.Ok) (n : Fin 45088) :
    deltaOrig (F := Ideal) a.idx a.sc a.P a.val (ix1 n) = delta a n := by
  obtain ⟨s, rfl⟩ := perm_surjective (keys a.P) n
  unfold deltaOrig
  rw [take_applyB _ _ _ s (invPerm_apply a.P s), deltaSorted_apply a h s]

/-! ## Where the two-axis gather and scatter read and land

Both are stated over any extents, with the printed dimension numbers as hypotheses. -/

/-- The one entry of a one-entry list. -/
theorem getElem_of_eq_singleton {α : Type} {l : List α} {a : α} (h : l = [a]) (i : Nat) (hi : i < l.length) :
    l[i] = a := by
  subst h
  have h0 : i = 0 := by simpa using hi
  subst h0
  rfl

theorem fin2_zero_ne_one : (0 : Fin 2) ≠ 1 := by decide
theorem fin2_one_ne_zero : (1 : Fin 2) ≠ 0 := by decide

/-- Of a rank-2 shape's two axes, the ones other than axis 0, and other than axis 1. -/
theorem kept2_zero {n0 n1 : Nat} : Shape.kept (⟨2, ![n0, n1]⟩ : Shape) [0] = [1] := by rfl
theorem kept2_one {n0 n1 : Nat} : Shape.kept (⟨2, ![n0, n1]⟩ : Shape) [1] = [0] := by rfl

/-- A gather of whole columns: the result at (row `r`, entry `k`) is the operand at (`r`, column `c`) when entry `k`'s
    index word, read signed, is the in-range column `c`. -/
theorem gather_cols_apply {α : Type} {R C n : Nat}
    (d : GatherDims (⟨2, ![R, C]⟩ : Shape) (⟨2, ![n, 1]⟩ : Shape) (⟨2, ![R, n]⟩ : Shape))
    (hoff : d.offsetDims = [0]) (hcoll : d.collapsedSliceDims = [1]) (hob : d.operandBatchingDims = [])
    (hsim : d.startIndexMap = [1]) (hivd : d.indexVectorDim = 1)
    (x : (⟨2, ![R, C]⟩ : Shape).Idx → α) (idx : IVec (⟨2, ![n, 1]⟩ : Shape) 32) (r : Fin R) (k : Fin n) (c : Fin C)
    (hc : (idx (ixP k)).toInt = (c.val : ℤ)) :
    Host.gather d x idx (ix2 r k) = x (ix2 r c) := by
  have hb : ∀ a : Fin 2, a ∉ d.operandBatchingDims := fun a => by rw [hob]; exact List.not_mem_nil
  have hm1 : (1 : Fin 2) ∈ d.startIndexMap := by rw [hsim]; exact List.mem_singleton.mpr rfl
  have hm0 : (0 : Fin 2) ∉ d.startIndexMap := by rw [hsim]; exact List.mem_singleton.not.mpr fin2_zero_ne_one
  have hk0 : (0 : Fin 2) ∈ d.sKept := by
    rw [GatherDims.mem_sKept, hcoll, hob]
    exact ⟨List.mem_singleton.not.mpr fin2_zero_ne_one, List.not_mem_nil⟩
  have hk1 : (1 : Fin 2) ∉ d.sKept := by rw [GatherDims.mem_sKept, hcoll]; simp
  have hbd : d.batchDims = [1] := by
    show Shape.kept _ d.offsetDims = _
    rw [hoff]; exact kept2_zero
  have hsl : d.sliceSizes 1 = 1 := d.slice_collapsed 1 (by rw [hcoll]; exact List.mem_singleton.mpr rfl)
  have hsi : ∀ c', d.siIdx (ix2 r k) c' = ixP k := by
    intro c'
    funext b
    match b with
    | ⟨0, _⟩ =>
      unfold GatherDims.siIdx
      rw [dif_neg (by rw [hivd]; simp)]
      unfold GatherDims.siCoord
      apply Fin.ext
      simp only [Fin.val_cast]
      rw [getElem_of_eq_singleton hbd]
      rfl
    | ⟨1, _⟩ =>
      unfold GatherDims.siIdx
      rw [dif_pos (by rw [hivd])]
      apply Fin.ext
      have hc' := c'.isLt
      simp only [hsim, List.length_singleton] at hc'
      show c'.val = 0
      omega
  unfold Host.gather
  congr 1
  funext a
  match a with
  | ⟨0, _⟩ =>
    apply Fin.ext
    show d.start (ix2 r k) idx 0 + d.batchCoord (ix2 r k) 0 + d.offCoord (ix2 r k) 0 = r.val
    rw [GatherDims.batchCoord_eq_zero _ _ _ (hb 0)]
    unfold GatherDims.start GatherDims.offCoord
    rw [dif_neg hm0, dif_pos hk0]
    rw [getElem_of_eq_singleton hoff]
    show 0 + 0 + r.val = r.val
    omega
  | ⟨1, _⟩ =>
    apply Fin.ext
    show d.start (ix2 r k) idx 1 + d.batchCoord (ix2 r k) 1 + d.offCoord (ix2 r k) 1 = c.val
    rw [GatherDims.batchCoord_eq_zero _ _ _ (hb 1), GatherDims.offCoord_eq_zero _ _ _ hk1]
    unfold GatherDims.start
    rw [dif_pos hm1, hsi, hc, hsl, Int.toNat_natCast]
    have := c.isLt
    show min c.val (C - 1) + 0 + 0 = c.val
    omega

/-- Where an update of the row-keeping scatter lands: update (row `r'`, entry `k`) lands at (`r`, `o`) exactly when
    `r' = r` and entry `k`'s index word, read signed, is `o`. -/
theorem resultIdx?_rows_iff {R N n : Nat}
    (d : ScatterDims (⟨2, ![R, N]⟩ : Shape) (⟨2, ![n, 1]⟩ : Shape) (⟨2, ![R, n]⟩ : Shape))
    (hu : d.updateWindowDims = [0]) (hi : d.insertedWindowDims = [1]) (hs : d.scatterDimsToOperandDims = [1])
    (hv : d.indexVectorDim = 1) (idx : IVec (⟨2, ![n, 1]⟩ : Shape) 32) (r' : Fin R) (k : Fin n) (r : Fin R) (o : Fin N) :
    d.resultIdx? (ix2 r' k) idx = some (ix2 r o) ↔ r' = r ∧ (idx (ixP k)).toInt = (o.val : ℤ) := by
  have hm1 : (1 : Fin 2) ∈ d.scatterDimsToOperandDims := by rw [hs]; exact List.mem_singleton.mpr rfl
  have hm0 : (0 : Fin 2) ∉ d.scatterDimsToOperandDims := by rw [hs]; exact List.mem_singleton.not.mpr fin2_zero_ne_one
  have hsk : d.sKept = [0] := by
    show Shape.kept _ d.insertedWindowDims = _
    rw [hi]; exact kept2_one
  have hk0 : (0 : Fin 2) ∈ d.sKept := by rw [hsk]; exact List.mem_singleton.mpr rfl
  have hk1 : (1 : Fin 2) ∉ d.sKept := by rw [hsk]; exact List.mem_singleton.not.mpr fin2_one_ne_zero
  have hus : d.uScatter = [1] := by
    show Shape.kept _ d.updateWindowDims = _
    rw [hu]; exact kept2_zero
  have hsi : ∀ c, d.siIdx (ix2 r' k) c = ixP k := by
    intro c
    funext b
    match b with
    | ⟨0, _⟩ =>
      unfold ScatterDims.siIdx
      rw [dif_neg (by rw [hv]; simp)]
      unfold ScatterDims.siCoord
      apply Fin.ext
      simp only [Fin.val_cast]
      rw [getElem_of_eq_singleton hus]
      rfl
    | ⟨1, _⟩ =>
      unfold ScatterDims.siIdx
      rw [dif_pos (by rw [hv])]
      apply Fin.ext
      have hc := c.isLt
      simp only [hs, List.length_singleton] at hc
      show c.val = 0
      omega
  have hstart1 : d.start (ix2 r' k) idx 1 = (idx (ixP k)).toInt := by
    unfold ScatterDims.start
    rw [dif_pos hm1, hsi]
  have hstart0 : d.start (ix2 r' k) idx 0 = 0 := by
    unfold ScatterDims.start
    rw [dif_neg hm0]
  have hwin0 : d.window (ix2 r' k) 0 = r'.val := by
    unfold ScatterDims.window
    rw [dif_pos hk0]
    rw [getElem_of_eq_singleton hu]
    rfl
  have hwin1 : d.window (ix2 r' k) 1 = 0 := by
    unfold ScatterDims.window
    rw [dif_neg hk1]
  have hr' := r'.isLt
  have ho := o.isLt
  unfold ScatterDims.resultIdx?
  split
  · next h =>
    have h1 := h 1
    rw [hstart1, hwin1] at h1
    constructor
    · intro e
      have e0 := congrArg Fin.val (congrFun (Option.some.inj e) 0)
      have e1 := congrArg Fin.val (congrFun (Option.some.inj e) 1)
      simp only [hstart0, hstart1, hwin0, hwin1] at e0 e1
      change ((0 : ℤ) + ((r'.val : ℕ) : ℤ)).toNat = r.val at e0
      change ((idx (ixP k)).toInt + ((0 : ℕ) : ℤ)).toNat = o.val at e1
      exact ⟨Fin.ext (by omega), by omega⟩
    · rintro ⟨rfl, e⟩
      congr 1
      funext a
      match a with
      | ⟨0, _⟩ =>
        apply Fin.ext
        show (d.start (ix2 r' k) idx 0 + (d.window (ix2 r' k) 0 : ℤ)).toNat = r'.val
        rw [hstart0, hwin0]; omega
      | ⟨1, _⟩ =>
        apply Fin.ext
        show (d.start (ix2 r' k) idx 1 + (d.window (ix2 r' k) 1 : ℤ)).toNat = o.val
        rw [hstart1, hwin1]; omega
  · next h =>
    constructor
    · intro e; exact absurd e (by simp)
    · rintro ⟨rfl, e⟩
      exfalso
      apply h
      intro a
      match a with
      | ⟨0, _⟩ =>
        show 0 ≤ d.start (ix2 r' k) idx 0 + (d.window (ix2 r' k) 0 : ℤ)
          ∧ d.start (ix2 r' k) idx 0 + (d.window (ix2 r' k) 0 : ℤ) < ((R : ℕ) : ℤ)
        rw [hstart0, hwin0]; omega
      | ⟨1, _⟩ =>
        show 0 ≤ d.start (ix2 r' k) idx 1 + (d.window (ix2 r' k) 1 : ℤ)
          ∧ d.start (ix2 r' k) idx 1 + (d.window (ix2 r' k) 1 : ℤ) < ((N : ℕ) : ℤ)
        rw [hstart1, hwin1]; omega

/-! ## Each outlier's output feature and input column -/

/-- An outlier's position word is nonnegative as a signed word. -/
theorem P_nonneg (a : Args) (h : a.Ok) (n : Fin 45088) : (a.P (ix1 n)).toNat < 2 ^ 31 := by
  have := h.P_lt (ix1 n)
  omega

/-- Outlier `n`'s output feature: its position divided by 4096. -/
theorem featOf_apply (a : Args) (h : a.Ok) (n : Fin 45088) :
    featOf a.P (ix1 n) = BitVec.ofNat 32 (a.pos n / 4096) := by
  unfold featOf
  rw [floorDiv_apply 4096#32 (by decide) (by decide) a.P (ix1 n) (P_nonneg a h n)]
  rfl

/-- Outlier `n`'s input column: its position modulo 4096. -/
theorem colOf_apply (a : Args) (h : a.Ok) (n : Fin 45088) :
    colOf a.P (ix1 n) = BitVec.ofNat 32 (a.pos n % 4096) := by
  unfold colOf
  rw [floorRem_apply 4096#32 (by decide) (by decide) a.P (ix1 n) (P_nonneg a h n)]
  rfl

/-- The output feature is below 11008. -/
theorem feat_lt (a : Args) (h : a.Ok) (n : Fin 45088) : a.pos n / 4096 < 11008 := by
  have : a.pos n < 45088768 := h.P_lt (ix1 n)
  omega

/-- The index word the scatter-add reads at entry `n`, as a signed number: the output feature. -/
theorem featCol_toInt (a : Args) (h : a.Ok) (n : Fin 45088) :
    (col (wrap 11008#32 (featOf a.P)) (ixP n)).toInt = ((a.pos n / 4096 : ℕ) : ℤ) := by
  have hf := feat_lt a h n
  rw [col_wrap_apply _ _ _ (by rw [featOf_apply a h, BitVec.toNat_ofNat]; omega), featOf_apply a h,
    StableHlo.Predicate.toInt_ofNat_small _ (by omega)]

/-- The index word the column gather reads at entry `n`, as a signed number: the input column. -/
theorem colCol_toInt (a : Args) (h : a.Ok) (n : Fin 45088) :
    (col (wrap 4096#32 (colOf a.P)) (ixP n)).toInt = ((a.pos n % 4096 : ℕ) : ℤ) := by
  have hc : a.pos n % 4096 < 4096 := Nat.mod_lt _ (by decide)
  rw [col_wrap_apply _ _ _ (by rw [colOf_apply a h, BitVec.toNat_ofNat]; omega), colOf_apply a h,
    StableHlo.Predicate.toInt_ofNat_small _ (by omega)]

/-! ## The contributions and their sum by output feature -/

/-- The gathered column of `x` for outlier `n`, at row `r`. -/
theorem xCols_apply (a : Args) (h : a.Ok) (r : Fin 64) (n : Fin 45088) :
    xCols (F := Ideal) a.x a.P (ix2 r n) = a.x (ix2 r (⟨a.pos n % 4096, Nat.mod_lt _ (by decide)⟩ : Fin 4096)) := by
  unfold xCols
  exact gather_cols_apply gather_S64x4096_S45088x1_S64x45088_0_1_n_n_1_1_641 rfl rfl rfl rfl rfl a.x _ r n
    ⟨a.pos n % 4096, Nat.mod_lt _ (by decide)⟩ (colCol_toInt a h n)

theorem ij_eq_ix2 {n m : Nat} (p : Fin n) (q : Fin m) : ij p q = ix2 p q := by
  funext d; match d with | ⟨0, _⟩ => rfl | ⟨1, _⟩ => rfl

/-- Outlier `n`'s contribution to row `r`: the entry of `x` in its column times its correction. -/
theorem contrib_apply (a : Args) (h : a.Ok) (r : Fin 64) (n : Fin 45088) :
    contrib (F := Ideal) a.x a.idx a.sc a.P a.val (ix2 r n)
      = a.x (ix2 r (⟨a.pos n % 4096, Nat.mod_lt _ (by decide)⟩ : Fin 4096)) * delta a n := by
  unfold contrib
  rw [mulf_apply, xCols_apply a h, ← ij_eq_ix2 r n,
    StableHlo.Predicate.bcast_cols bcast_S45088_S1x45088_1 bcast_S1x45088_S64x45088_0_1, ofFin_eq_ix1B,
    deltaOrig_apply a h]

/-- The contributions added up by output feature are the specification's correction term. -/
theorem correction_apply (a : Args) (h : a.Ok) (r : Fin 64) (o : Fin 11008) :
    correction (F := Ideal) a.x a.idx a.sc a.P a.val (ix2 r o) = corrAt a r o := by
  have hiff : ∀ (r' : Fin 64) (n : Fin 45088),
      scatter_S64x11008_S45088x1_S64x45088_0_1_1_1.resultIdx? (ix2 r' n) (col (wrap 11008#32 (featOf a.P)))
        = some (ix2 r o) ↔ r' = r ∧ a.pos n / 4096 = o.val := by
    intro r' n
    rw [resultIdx?_rows_iff scatter_S64x11008_S45088x1_S64x45088_0_1_1_1 rfl rfl rfl rfl, featCol_toInt a h n]
    constructor
    · rintro ⟨e, e'⟩; exact ⟨e, by exact_mod_cast e'⟩
    · rintro ⟨e, e'⟩; exact ⟨e, by exact_mod_cast e'⟩
  unfold correction
  show Ideal.hostScatterAdd scatter_S64x11008_S45088x1_S64x45088_0_1_1_1 _ _ _ (ix2 r o) = _
  unfold Ideal.hostScatterAdd
  rw [StableHlo.Predicate.bcast_scalar bcast_S_S64x11008 (by decide), constant_apply, Ideal.ofBits_zero_f32, zero_add,
    Finset.sum_filter, sum_idx2, Finset.sum_eq_single r]
  · unfold corrAt
    apply Finset.sum_congr rfl
    intro n _
    by_cases hc : a.pos n / 4096 = o.val
    · rw [if_pos hc, if_pos ((hiff r n).2 ⟨rfl, hc⟩), contrib_apply a h]
    · rw [if_neg hc, if_neg (fun e => hc ((hiff r n).1 e).2)]
  · intro r' _ hne
    apply Finset.sum_eq_zero
    intro n _
    rw [if_neg (fun e => hne ((hiff r' n).1 e).1)]
  · intro hr
    exact absurd (Finset.mem_univ r) hr

/-- THE HOST TAIL'S VALUE: the region's result plus the specification's correction term. -/
theorem tailTerm_eq (a : Args) (h : a.Ok) (B : FVec Ideal S64x11008 .f32) :
    tailTerm (F := Ideal) a.x a.idx a.sc a.P a.val B
      = fun j => B j + corrAt a ⟨(j 0).val, idx2_lt0 j⟩ ⟨(j 1).val, idx2_lt1 j⟩ := by
  funext j
  show B j + correction (F := Ideal) a.x a.idx a.sc a.P a.val j = _
  rw [← correction_apply a h]
  exact congrArg (fun i => B j + correction (F := Ideal) a.x a.idx a.sc a.P a.val i) (eq_ix2 j)

end Cert.KernelIdeal.Tail

end
-- ==== Proof.Algebra.lean ====
/-
  The two arrangements of the result agree: multiplying x by the FINAL weights is multiplying it by the dequantized
  weights and adding, per outlier that is the last to name its position, x's entry in that column times (value − dequantized
  weight). The step is distributivity and cancellation, which hold because every number involved is a real number.
-/
import proofs.«430974_j78323023610033_1_alg».proof.Proof.Spec

noncomputable section

open scoped BigOperators

namespace Cert.QSpec

open Idealize.ShloMosaic Idealize.ShloMosaic.ValueIdx

/-! ## Every number involved is real -/

/-- A 32-bit pattern whose exponent field is not all ones denotes a real number. -/
theorem f32_real (b : BitVec 32) (hb : (b.extractLsb' 23 8).toNat ≠ 2 ^ 8 - 1) :
    ∃ r : ℝ, Ideal.ofBits .f32 b = (r : EReal) := by
  show ∃ r : ℝ, Ideal.ieee 8 23 b = (r : EReal)
  unfold Ideal.ieee
  dsimp only
  rw [if_neg hb]
  split_ifs <;> exact ⟨_, rfl⟩

/-- None of the sixteen level words has an all-ones exponent field. -/
theorem lvl_exp : ∀ i : Fin 16, ((lvlWord i).extractLsb' 23 8).toNat ≠ 2 ^ 8 - 1 := by decide

/-- Every level is a real number. -/
theorem level_real (w : BitVec 32) : ∃ r : ℝ, level w = (r : EReal) := f32_real _ (lvl_exp _)

/-- Every dequantized weight is a real number. -/
theorem wbase_real (a : Args) (h : a.Ok) (q : ℕ) : ∃ r : ℝ, wbase a q = (r : EReal) := by
  unfold wbase
  split_ifs with hq
  · obtain ⟨l, hl⟩ := level_real (a.idx (ix2 (⟨q / 64, by omega⟩ : Fin 704512) (⟨q % 64, Nat.mod_lt _ (by decide)⟩ : Fin 64)))
    obtain ⟨s, hs⟩ := h.sc_fin (ix1 (⟨q / 64, by omega⟩ : Fin 704512))
    exact ⟨l * s, by rw [hl, hs, EReal.coe_mul]⟩
  · exact ⟨0, rfl⟩

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem coe_ite (c : Prop) [Decidable c] (x : ℝ) :
    ((if c then x else 0 : ℝ) : EReal) = if c then (x : EReal) else 0 := by
  split_ifs <;> simp

/-! ## The identity over the reals -/

/-- Regrouping the corrections by column: an outlier position lies in row o exactly when it is flat o k
    for the one column k = position mod 4096. -/
theorem regroup (pos : Fin 45088 → ℕ) (o : Fin 11008) (X : Fin 4096 → ℝ) (D : Fin 45088 → ℝ) :
    ∑ k : Fin 4096, X k * ∑ n : Fin 45088, (if pos n = flat o k then D n else 0)
      = ∑ n : Fin 45088, if pos n / 4096 = o.val then
          X (⟨pos n % 4096, Nat.mod_lt _ (by decide)⟩ : Fin 4096) * D n else 0 := by
  simp_rw [Finset.mul_sum]
  rw [Finset.sum_comm]
  refine Finset.sum_congr rfl fun n _ => ?_
  by_cases hc : pos n / 4096 = o.val
  · rw [if_pos hc, Finset.sum_eq_single (⟨pos n % 4096, Nat.mod_lt _ (by decide)⟩ : Fin 4096)]
    · rw [if_pos]
      unfold flat
      dsimp only
      omega
    · intro k _ hk
      rw [if_neg, mul_zero]
      intro heq
      apply hk
      apply Fin.ext
      unfold flat at heq
      have := k.isLt
      dsimp only
      omega
    · intro hn
      exact absurd (Finset.mem_univ _) hn
  · rw [if_neg hc]
    refine Finset.sum_eq_zero fun k _ => ?_
    rw [if_neg, mul_zero]
    intro heq
    apply hc
    unfold flat at heq
    have := k.isLt
    omega

/-! ## The theorem -/

theorem kout_eq_out (a : Args) (h : a.Ok) (r : Fin 64) (o : Fin 11008) :
    baseAt a r o + corrAt a r o = outAt a r o := by
  classical
  choose X hX using h.x_fin
  choose V hV using h.val_fin
  choose B hB using h.bias_fin
  choose WB hWB using wbase_real a h
  -- each outlier's correction, as a real
  have hD : ∀ n, delta a n = ((if a.isLast n then V (ix1 n) - WB (a.pos n) else 0 : ℝ) : EReal) := by
    intro n
    unfold delta
    split_ifs with hl
    · rw [hV, hWB, EReal.coe_sub]
    · rfl
  -- the final weight at a position: the dequantized one plus the corrections naming that position
  have hWF : ∀ q, wfin a q = ((WB q + ∑ n : Fin 45088,
      (if a.pos n = q then (if a.isLast n then V (ix1 n) - WB (a.pos n) else 0) else 0) : ℝ) : EReal) := by
    intro q
    unfold wfin
    by_cases hex : ∃ n : Fin 45088, a.pos n = q ∧ a.isLast n
    · rw [dif_pos hex, hV]
      have hs := hex.choose_spec
      congr 1
      rw [Finset.sum_eq_single hex.choose]
      · rw [if_pos hs.1, if_pos hs.2, hs.1]; ring
      · intro n _ hn
        by_cases hp : a.pos n = q
        · rw [if_pos hp, if_neg]
          intro hl
          exact hn (le_antisymm (hs.2 n (hp.trans hs.1.symm)) (hl _ (hs.1.trans hp.symm)))
        · rw [if_neg hp]
      · intro hn
        exact absurd (Finset.mem_univ _) hn
    · rw [dif_neg hex, hWB]
      congr 1
      rw [Finset.sum_eq_zero, add_zero]
      intro n _
      by_cases hp : a.pos n = q
      · rw [if_pos hp, if_neg]
        intro hl
        exact hex ⟨n, hp, hl⟩
      · rw [if_neg hp]
  have hbase : baseAt a r o = ((∑ k : Fin 4096, X (ix2 r k) * WB (flat o k)) + B (ix1 o) : ℝ) := by
    simp only [baseAt, hX, hWB, hB, EReal.coe_add, coe_sum, EReal.coe_mul]
  have hcorr : corrAt a r o = ((∑ n : Fin 45088, if a.pos n / 4096 = o.val then
      X (ix2 r (⟨a.pos n % 4096, Nat.mod_lt _ (by decide)⟩ : Fin 4096))
        * (if a.isLast n then V (ix1 n) - WB (a.pos n) else 0) else 0 : ℝ) : EReal) := by
    simp only [corrAt, hX, hD, coe_sum, coe_ite, EReal.coe_mul]
  have hout : outAt a r o = ((∑ k : Fin 4096, X (ix2 r k) * (WB (flat o k) + ∑ n : Fin 45088,
      (if a.pos n = flat o k then (if a.isLast n then V (ix1 n) - WB (a.pos n) else 0) else 0)))
        + B (ix1 o) : ℝ) := by
    simp only [outAt, hX, hWF, hB, EReal.coe_add, coe_sum, EReal.coe_mul]
  rw [hbase, hcorr, hout, ← EReal.coe_add, EReal.coe_eq_coe_iff]
  have hre := regroup a.pos o (fun k => X (ix2 r k))
    (fun n => if a.isLast n then V (ix1 n) - WB (a.pos n) else 0)
  simp only [mul_add, Finset.sum_add_distrib]
  rw [hre]
  ring

end Cert.QSpec

end
-- ==== Proof.PreDecode.lean ====
/-
  The precondition decoded: the printed predicate is a conjunction of six whole-array tests, and where it is all ones
  every float argument is a real number at every index, every code is below 16 and every outlier position below
  11008 · 4096 (as unsigned words, the signed tests `0 ≤ ·` and `· < bound` together).
-/
import Idealize.ShloMosaic.Lib.ReduceAll
import Idealize.ShloMosaic.Lib.StableHlo.Predicate
import proofs.«430974_j78323023610033_1_alg».proof.Pre_finite_inputs
import proofs.«430974_j78323023610033_1_alg».proof.Proof.Spec

noncomputable section

namespace Cert.PreDecode

open Idealize.ShloMosaic Idealize.ShloMosaic.ValueIdx

/-- The rank-0 shape has exactly one index. -/
instance : Subsingleton Cert.Pre_finite_inputs.S_.Idx := ⟨fun a b => funext fun d => d.elim0⟩

/-- The f32 word with all exponent bits set and a zero significand denotes +∞. -/
theorem inf_word : Ideal.ofBits .f32 0x7F800000#32 = (⊤ : EReal) := by
  simp [Ideal.ofBits, Ideal.ieee]

/-- An extended real whose absolute value `max x (-x)` lies strictly below +∞ is neither infinity: it is a real number. -/
theorem real_of_abs_lt (x : EReal)
    (h : Ideal.cmp .olt (max x (-x)) (Ideal.ofBits .f32 0x7F800000#32) = 1#1) : ∃ r : ℝ, x = (r : EReal) := by
  rw [inf_word] at h
  simp only [Ideal.cmp, StableHlo.Predicate.ofBool_eq_one_iff, decide_eq_true_eq] at h
  induction x using EReal.rec with
  | bot => simp at h
  | coe r => exact ⟨r, rfl⟩
  | top => simp at h

/-- A 32-bit word that is nonnegative as a signed number and signed-below a bound `n < 2³¹` has unsigned value below `n`:
    nonnegativity clears the sign bit, so the signed and unsigned readings agree. -/
theorem toNat_lt_of_signed (w : BitVec 32) (n : Nat) (hn : n < 2 ^ 31) (h0 : IntOp.cmpi .sge w (0#32) = 1#1)
    (hb : IntOp.cmpi .slt w (BitVec.ofNat 32 n) = 1#1) : w.toNat < n := by
  have hw : w.toNat < 2 ^ 31 := by
    unfold IntOp.cmpi at h0
    rw [StableHlo.Predicate.ofBool_eq_one_iff] at h0
    simp only [BitVec.sle, decide_eq_true_eq, BitVec.toInt_zero] at h0
    rw [BitVec.toInt_eq_toNat_cond] at h0
    have := w.isLt
    split at h0 <;> omega
  have hn' : (BitVec.ofNat 32 n).toNat = n := by
    rw [BitVec.toNat_ofNat]; exact Nat.mod_eq_of_lt (by omega)
  have := (StableHlo.Predicate.slt_iff_toNat hw (by rw [hn']; exact hn)).1 hb
  rwa [hn'] at this

theorem ok_of_pre [Cert.Pre_finite_inputs.Facts] (a : Cert.QSpec.Args)
    (h : Cert.Pre_finite_inputs.fn (F := Ideal) a.x a.idx a.sc a.P a.val a.bias = fun _ => 1#1) : a.Ok := by
  have e := congrFun h ix0
  dsimp only [Cert.Pre_finite_inputs.fn, Cert.Pre_finite_inputs.fn_part1] at e
  -- the conjunction of the six whole-array tests, split into its parts
  have e' : IntOp.andi (IntOp.andi (IntOp.andi (IntOp.andi (IntOp.andi _ _) _) _) _) _ = 1#1 := e
  simp only [IntOp.andi_eq_one] at e'
  obtain ⟨⟨⟨⟨⟨hx, hsc⟩, hval⟩, hbias⟩, hidx⟩, hP⟩ := e'
  refine ⟨fun i => ?_, fun i => ?_, fun i => ?_, fun i => ?_, fun i => ?_, fun i => ?_⟩
  · exact real_of_abs_lt (a.x i) (Host.reduce_andi_all _ _ _ _ _ hx i)
  · exact real_of_abs_lt (a.sc i) (Host.reduce_andi_all _ _ _ _ _ hsc i)
  · exact real_of_abs_lt (a.val i) (Host.reduce_andi_all _ _ _ _ _ hval i)
  · exact real_of_abs_lt (a.bias i) (Host.reduce_andi_all _ _ _ _ _ hbias i)
  · -- at each index the two signed tests against 0 and 16 both hold
    have t : IntOp.andi (IntOp.cmpi .sge (a.idx i) 0#32) (IntOp.cmpi .slt (a.idx i) (BitVec.ofNat 32 16)) = 1#1 :=
      Host.reduce_andi_all _ _ _ _ _ hidx i
    obtain ⟨t0, t1⟩ := IntOp.andi_eq_one.1 t
    exact toNat_lt_of_signed _ 16 (by norm_num) t0 t1
  · -- likewise against 0 and 11008 · 4096
    have t : IntOp.andi (IntOp.cmpi .sge (a.P i) 0#32) (IntOp.cmpi .slt (a.P i) (BitVec.ofNat 32 45088768)) = 1#1 :=
      Host.reduce_andi_all _ _ _ _ _ hP i
    obtain ⟨t0, t1⟩ := IntOp.andi_eq_one.1 t
    exact toNat_lt_of_signed _ 45088768 (by norm_num) t0 t1

end Cert.PreDecode

end
-- ==== Proof.RefTerm.lean ====
/-
  The reference program's operations composed into one term, from the six argument arrays to its result: the codes
  (a negative one wrapped by 16) looked up in the table of levels, times each block's scale; the weights laid out flat;
  the outlier values written over them at the outlier positions (a negative one wrapped by the length; the later entry of
  the list wins; an entry outside the array writes nothing); the flat array as an 11008 × 4096 matrix, transposed; the
  product of `x` with it; plus the bias along the rows.
-/
import proofs.«430974_j78323023610033_1_alg».proof.ReferenceIdeal

noncomputable section

namespace Cert.ReferenceIdeal.Hand

open Idealize.ShloMosaic Cert.ReferenceIdeal Cert.ReferenceIdeal.Facts₀ Cert.ReferenceIdeal.Facts

variable {F : FTy → Type} [FloatOps F] [Cert.ReferenceIdeal.Facts]

/-- The codes, a negative one wrapped by 16 (a negative index is read from the end). -/
def codes (idx : IVec S704512x64 32) : IVec S704512x64 32 :=
  select (cmpi .slt idx (broadcastInDim S704512x64 ![] bcast_S_S704512x64 (constantI S_ 32 0#32)))
    (addi idx (broadcastInDim S704512x64 ![] bcast_S_S704512x64 (constantI S_ 32 16#32))) idx

/-- The level each code names. -/
def levels (idx : IVec S704512x64 32) : FVec F S704512x64 .f32 :=
  Host.gather gather_S16_S704512x64x1_S704512x64_n_0_n_n_0_2_1 (fun i => FloatOps.ofBits .f32 (lit0 (S16.rowMajor i)))
    (broadcastInDim S704512x64x1 ![0, 1] bcast_S704512x64_S704512x64x1_0_1 (codes idx))

/-- Level times the block's scale. -/
def dequant (idx : IVec S704512x64 32) (sc : FVec F S704512 .f32) : FVec F S704512x64 .f32 :=
  mulf (levels idx)
    (broadcastInDim S704512x64 ![0, 1] bcast_S704512x1_S704512x64_0_1 (broadcastInDim S704512x1 ![0] bcast_S704512_S704512x1_0 sc))

/-- The dequantized weights laid out flat. -/
def flatW (idx : IVec S704512x64 32) (sc : FVec F S704512 .f32) : FVec F S45088768 .f32 :=
  shapeCast S45088768 (dequant idx sc) shapeCasts_S704512x64_S45088768

/-- The outlier positions (a negative one wrapped by the length) as a one-column index array. -/
def positions (P : IVec S45088 32) : IVec S45088x1 32 :=
  broadcastInDim S45088x1 ![0] bcast_S45088_S45088x1_0
    (select (cmpi .slt P (broadcastInDim S45088 ![] bcast_S_S45088 (constantI S_ 32 0#32)))
      (addi P (broadcastInDim S45088 ![] bcast_S_S45088 (constantI S_ 32 45088768#32))) P)

/-- The flat weights with the outlier values written over them. -/
def patched (idx : IVec S704512x64 32) (sc : FVec F S704512 .f32) (P : IVec S45088 32) (val : FVec F S45088 .f32) :
    FVec F S45088768 .f32 :=
  Host.scatter scatter_S45088768_S45088x1_S45088_n_0_0_1 (fun _ b => b) (flatW idx sc) (positions P) val

/-- The weight matrix, transposed for the product. -/
def weightT (idx : IVec S704512x64 32) (sc : FVec F S704512 .f32) (P : IVec S45088 32) (val : FVec F S45088 .f32) :
    FVec F S4096x11008 .f32 :=
  transpose S4096x11008 [1, 0] (shapeCast S11008x4096 (patched idx sc P val) shapeCasts_S45088768_S11008x4096)
    transposes_S11008x4096_S4096x11008_1_0

/-- THE REFERENCE'S RESULT. -/
def refTerm (x : FVec F S64x4096 .f32) (idx : IVec S704512x64 32) (sc : FVec F S704512 .f32) (P : IVec S45088 32)
    (val : FVec F S45088 .f32) (bias : FVec F S11008 .f32) : FVec F S64x11008 .f32 :=
  addf (Host.dotGeneral dot_S64x4096_S4096x11008_S64x11008_1_0_0_1_n_n none x (weightT idx sc P val))
    (broadcastInDim S64x11008 ![0, 1] bcast_S1x11008_S64x11008_0_1 (broadcastInDim S1x11008 ![1] bcast_S11008_S1x11008_1 bias))

end Cert.ReferenceIdeal.Hand

end
-- ==== Proof.RefRun.lean ====
/-
  The reference program's run: @main is a straight line of host operations, so every weakly fair execution terminates
  without a fault, leaves the argument arrays as launched, and ends with the result at the operations' composed term
  of the arguments.
-/
import proofs.«430974_j78323023610033_1_alg».proof.Proof.Gen.ReferenceIdeal
import proofs.«430974_j78323023610033_1_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 29 operations, in order: the table of levels and the codes' wrap and lookup, the scales, the flat layout, the
    positions' wrap, the overwrite, the matrix and its transpose, the product, the bias. -/
abbrev ops : List (HloOp τ sig (Elt F)) :=
  [ StableHlo.nullary main_cst (fun i => FloatOps.ofBits .f32 (lit0 (S16.rowMajor i))),
    StableHlo.nullary main_c (constantI S_ 32 0#32),
    StableHlo.unary main_c main_v0 (broadcastInDim S704512x64 ![] bcast_S_S704512x64 : (⟨S_, .i32⟩ : BufTy).Contents (Elt F) → (⟨S704512x64, .i32⟩ : BufTy).Contents (Elt F)),
    StableHlo.binary main_arg1 main_v0 main_v1 (cmpi .slt : (⟨S704512x64, .i32⟩ : BufTy).Contents (Elt F) → (⟨S704512x64, .i32⟩ : BufTy).Contents (Elt F) → (⟨S704512x64, .i1⟩ : BufTy).Contents (Elt F)),
    StableHlo.nullary main_c_0 (constantI S_ 32 16#32),
    StableHlo.unary main_c_0 main_v2 (broadcastInDim S704512x64 ![] bcast_S_S704512x64 : (⟨S_, .i32⟩ : BufTy).Contents (Elt F) → (⟨S704512x64, .i32⟩ : BufTy).Contents (Elt F)),
    StableHlo.binary main_arg1 main_v2 main_v3 (addi : (⟨S704512x64, .i32⟩ : BufTy).Contents (Elt F) → (⟨S704512x64, .i32⟩ : BufTy).Contents (Elt F) → (⟨S704512x64, .i32⟩ : BufTy).Contents (Elt F)),
    StableHlo.ternary main_v1 main_v3 main_arg1 main_v4 (select : (⟨S704512x64, .i1⟩ : BufTy).Contents (Elt F) → (⟨S704512x64, .i32⟩ : BufTy).Contents (Elt F) → (⟨S704512x64, .i32⟩ : BufTy).Contents (Elt F) → (⟨S704512x64, .i32⟩ : BufTy).Contents (Elt F)),
    StableHlo.unary main_v4 main_v5 (broadcastInDim S704512x64x1 ![0, 1] bcast_S704512x64_S704512x64x1_0_1 : (⟨S704512x64, .i32⟩ : BufTy).Contents (Elt F) → (⟨S704512x64x1, .i32⟩ : BufTy).Contents (Elt F)),
    StableHlo.binary main_cst main_v5 main_v6 ((fun x i => Host.gather gather_S16_S704512x64x1_S704512x64_n_0_n_n_0_2_1 x i) : (⟨S16, .f32⟩ : BufTy).Contents (Elt F) → (⟨S704512x64x1, .i32⟩ : BufTy).Contents (Elt F) → (⟨S704512x64, .f32⟩ : BufTy).Contents (Elt F)),
    StableHlo.unary main_arg2 main_v7 (broadcastInDim S704512x1 ![0] bcast_S704512_S704512x1_0 : (⟨S704512, .f32⟩ : BufTy).Contents (Elt F) → (⟨S704512x1, .f32⟩ : BufTy).Contents (Elt F)),
    StableHlo.unary main_v7 main_v8 (broadcastInDim S704512x64 ![0, 1] bcast_S704512x1_S704512x64_0_1 : (⟨S704512x1, .f32⟩ : BufTy).Contents (Elt F) → (⟨S704512x64, .f32⟩ : BufTy).Contents (Elt F)),
    StableHlo.binary main_v6 main_v8 main_v9 (mulf : (⟨S704512x64, .f32⟩ : BufTy).Contents (Elt F) → (⟨S704512x64, .f32⟩ : BufTy).Contents (Elt F) → (⟨S704512x64, .f32⟩ : BufTy).Contents (Elt F)),
    StableHlo.reshape main_v9 main_v10 rfl shapeCasts_S704512x64_S45088768,
    StableHlo.nullary main_c_1 (constantI S_ 32 0#32),
    StableHlo.unary main_c_1 main_v11 (broadcastInDim S45088 ![] bcast_S_S45088 : (⟨S_, .i32⟩ : BufTy).Contents (Elt F) → (⟨S45088, .i32⟩ : BufTy).Contents (Elt F)),
    StableHlo.binary main_arg3 main_v11 main_v12 (cmpi .slt : (⟨S45088, .i32⟩ : BufTy).Contents (Elt F) → (⟨S45088, .i32⟩ : BufTy).Contents (Elt F) → (⟨S45088, .i1⟩ : BufTy).Contents (Elt F)),
    StableHlo.nullary main_c_2 (constantI S_ 32 45088768#32),
    StableHlo.unary main_c_2 main_v13 (broadcastInDim S45088 ![] bcast_S_S45088 : (⟨S_, .i32⟩ : BufTy).Contents (Elt F) → (⟨S45088, .i32⟩ : BufTy).Contents (Elt F)),
    StableHlo.binary main_arg3 main_v13 main_v14 (addi : (⟨S45088, .i32⟩ : BufTy).Contents (Elt F) → (⟨S45088, .i32⟩ : BufTy).Contents (Elt F) → (⟨S45088, .i32⟩ : BufTy).Contents (Elt F)),
    StableHlo.ternary main_v12 main_v14 main_arg3 main_v15 (select : (⟨S45088, .i1⟩ : BufTy).Contents (Elt F) → (⟨S45088, .i32⟩ : BufTy).Contents (Elt F) → (⟨S45088, .i32⟩ : BufTy).Contents (Elt F) → (⟨S45088, .i32⟩ : BufTy).Contents (Elt F)),
    StableHlo.unary main_v15 main_v16 (broadcastInDim S45088x1 ![0] bcast_S45088_S45088x1_0 : (⟨S45088, .i32⟩ : BufTy).Contents (Elt F) → (⟨S45088x1, .i32⟩ : BufTy).Contents (Elt F)),
    StableHlo.ternary main_v10 main_v16 main_arg4 main_v17 ((fun x i u => Host.scatter scatter_S45088768_S45088x1_S45088_n_0_0_1 (fun _ b => b) x i u) : (⟨S45088768, .f32⟩ : BufTy).Contents (Elt F) → (⟨S45088x1, .i32⟩ : BufTy).Contents (Elt F) → (⟨S45088, .f32⟩ : BufTy).Contents (Elt F) → (⟨S45088768, .f32⟩ : BufTy).Contents (Elt F)),
    StableHlo.reshape main_v17 main_v18 rfl shapeCasts_S45088768_S11008x4096,
    StableHlo.unary main_v18 main_v19 ((transpose S4096x11008 [1, 0] · transposes_S11008x4096_S4096x11008_1_0) : (⟨S11008x4096, .f32⟩ : BufTy).Contents (Elt F) → (⟨S4096x11008, .f32⟩ : BufTy).Contents (Elt F)),
    StableHlo.binary main_arg0 main_v19 main_v20 ((fun l r => Host.dotGeneral dot_S64x4096_S4096x11008_S64x11008_1_0_0_1_n_n none l r) : (⟨S64x4096, .f32⟩ : BufTy).Contents (Elt F) → (⟨S4096x11008, .f32⟩ : BufTy).Contents (Elt F) → (⟨S64x11008, .f32⟩ : BufTy).Contents (Elt F)),
    StableHlo.unary main_arg5 main_v21 (broadcastInDim S1x11008 ![1] bcast_S11008_S1x11008_1 : (⟨S11008, .f32⟩ : BufTy).Contents (Elt F) → (⟨S1x11008, .f32⟩ : BufTy).Contents (Elt F)),
    StableHlo.unary main_v21 main_v22 (broadcastInDim S64x11008 ![0, 1] bcast_S1x11008_S64x11008_0_1 : (⟨S1x11008, .f32⟩ : BufTy).Contents (Elt F) → (⟨S64x11008, .f32⟩ : BufTy).Contents (Elt F)),
    StableHlo.binary main_v20 main_v22 main_v23 (addf : (⟨S64x11008, .f32⟩ : BufTy).Contents (Elt F) → (⟨S64x11008, .f32⟩ : BufTy).Contents (Elt F) → (⟨S64x11008, .f32⟩ : BufTy).Contents (Elt F)) ]

/-- @main is the sequence of those operations. -/
theorem main_eq (c : Dev nD) : main (F := F) c = seq ops := rfl
/-- The program scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide
/-- Every operation touches only buffers of the program's signature. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., ternary_bufs_sub .., reshape_bufs_sub .., unary_bufs_sub .., binary_bufs_sub .., unary_bufs_sub .., unary_bufs_sub .., binary_bufs_sub ..⟩

/-- THE REFERENCE'S RUN. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23)
          = refTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v23).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp)⟩)
    (run_seq scopedRefs_eq scopedSems_eq defs main (fun _ => ops) main_eq (fun _ => ops_sub) m ρ)

end Cert.ReferenceIdeal.Hand

end
-- ==== Proof.RefValue.lean ====
/-
  The reference's result is the specification: read index by index, the gather of the level table at a code below 16 is
  that code's level; the flat layout puts block `b`, place `p` at position 64·b + p; the overwriting scatter leaves at a
  position the value of the last outlier naming it and the dequantized weight where none does; the reshape and transpose
  read the flat array at 4096·o + k; the product is the sum over the 4096 columns; the bias is added along the rows.
-/
import proofs.«430974_j78323023610033_1_alg».proof.Proof.RefTerm
import proofs.«430974_j78323023610033_1_alg».proof.Proof.LibScatterSet
import proofs.«430974_j78323023610033_1_alg».proof.Proof.Spec
import Idealize.ShloMosaic.Lib.ValueIdx
import Idealize.ShloMosaic.Lib.StableHlo.Predicate
import Idealize.ShloMosaic.Lib.Pipeline.Value
import Idealize.ShloMosaic.PureOps.Ideal.Laws

noncomputable section

open scoped BigOperators

namespace Cert.ReferenceIdeal.Hand

open Idealize.ShloMosaic Idealize.ShloMosaic.ValueIdx Cert.ReferenceIdeal Cert.ReferenceIdeal.Facts₀ Cert.ReferenceIdeal.Facts Cert.QSpec

variable [Cert.ReferenceIdeal.Facts]

/-! ## Words -/

/-- A word below 2³¹ is not negative as a signed word. -/
theorem not_neg_word {w : BitVec 32} (hw : w.toNat < 2 ^ 31) : IntOp.cmpi .slt w 0#32 = 0#1 := by
  apply eq_zero_of_ne_one
  intro h
  have h' := (StableHlo.Predicate.slt_iff_toNat hw (by decide)).mp h
  exact absurd h' (Nat.not_lt_zero _)

/-- The table of levels the program prints is the specification's. -/
theorem lit0_eq (k : Fin 16) : lit0 k = lvlWord k := rfl

/-! ## The codes and their levels -/

/-- A code below 16 is not wrapped. -/
theorem codes_apply (a : Args) (h : a.Ok) (i : S704512x64.Idx) : codes a.idx i = a.idx i := by
  have hw := h.idx_lt i
  show Scalar.select (IntOp.cmpi .slt (a.idx i) 0#32) _ (a.idx i) = a.idx i
  rw [not_neg_word (by omega), select_zero]

/-- The table read at a word below 16 (read signed, clamped into the table) is that word's level. -/
theorem table_read (w : BitVec 32) (hw : w.toNat < 16) (hm : min w.toInt.toNat (16 - 1) < 16) :
    (FloatOps.ofBits .f32 (lit0 (S16.rowMajor (ix1 (⟨min w.toInt.toNat (16 - 1), hm⟩ : Fin 16)))) : Ideal .f32) = level w := by
  have e : (S16.rowMajor (ix1 (⟨min w.toInt.toNat (16 - 1), hm⟩ : Fin 16))).val = min w.toInt.toNat (16 - 1) :=
    Shape.rowMajor_val_one _
  have e2 : min w.toInt.toNat (16 - 1) = w.toNat % 16 := by
    rw [StableHlo.Predicate.toInt_eq_toNat_of_lt (by omega), Int.toNat_natCast]
    omega
  unfold level
  exact congrArg (fun k : Fin 16 => Ideal.ofBits .f32 (lvlWord k)) (Fin.ext (e.trans e2))

/-- The level of the code at block `b`, place `p`. -/
theorem levels_apply (a : Args) (h : a.Ok) (b : Fin 704512) (p : Fin 64) :
    levels (F := Ideal) a.idx (ix2 b p) = level (a.idx (ix2 b p)) := by
  have hidx : broadcastInDim S704512x64x1 ![0, 1] bcast_S704512x64_S704512x64x1_0_1 (codes a.idx) (takeIdx (ix2 b p))
      = a.idx (ix2 b p) :=
    (broadcastInDim_apply (s := S704512x64) (t := S704512x64x1) ![0, 1] bcast_S704512x64_S704512x64x1_0_1 (codes a.idx)
      (takeIdx (ix2 b p)) (ix2 b p) (fun c => by match c with | ⟨0, _⟩ => rfl | ⟨1, _⟩ => rfl)).trans (codes_apply a h _)
  unfold levels
  rw [show gather_S16_S704512x64x1_S704512x64_n_0_n_n_0_2_1
      = takeDims 16 704512 64 gather_S16_S704512x64x1_S704512x64_n_0_n_n_0_2_1_wf from rfl,
    gather_take_apply (by decide)]
  simp only [hidx]
  exact table_read _ (h.idx_lt _) _

/-! ## The dequantized weights, flat -/

/-- The block's scale laid along its row of 64 places. -/
theorem scale_bcast_apply (sc : FVec Ideal S704512 .f32) (b : Fin 704512) (p : Fin 64) :
    broadcastInDim S704512x64 ![0, 1] bcast_S704512x1_S704512x64_0_1
        (broadcastInDim S704512x1 ![0] bcast_S704512_S704512x1_0 sc) (ix2 b p) = sc (ix1 b) :=
  (broadcastInDim_apply (s := S704512x1) (t := S704512x64) ![0, 1] bcast_S704512x1_S704512x64_0_1 _ (ix2 b p)
      (ix2 b (0 : Fin 1)) (fun c => by match c with | ⟨0, _⟩ => rfl | ⟨1, _⟩ => rfl)).trans
    (broadcastInDim_apply (s := S704512) (t := S704512x1) ![0] bcast_S704512_S704512x1_0 sc (ix2 b (0 : Fin 1)) (ix1 b)
      (fun c => by match c with | ⟨0, _⟩ => rfl))

/-- Level times scale at block `b`, place `p`. -/
theorem dequant_apply (a : Args) (h : a.Ok) (b : Fin 704512) (p : Fin 64) :
    dequant (F := Ideal) a.idx a.sc (ix2 b p) = level (a.idx (ix2 b p)) * a.sc (ix1 b) := by
  unfold dequant
  rw [mulf_apply, levels_apply a h, scale_bcast_apply]

/-- The flat layout: position `q` holds block `q / 64`, place `q % 64`. -/
theorem flatW_apply (a : Args) (h : a.Ok) (q : ℕ) (hq : q < 45088768) :
    flatW (F := Ideal) a.idx a.sc (ix1 (⟨q, hq⟩ : Fin 45088768)) = wbase a q := by
  unfold flatW wbase
  rw [dif_pos hq]
  refine (shapeCast_apply (s := S704512x64) (t := S45088768) _ shapeCasts_S704512x64_S45088768 _
    (ix2 (⟨q / 64, by omega⟩ : Fin 704512) (⟨q % 64, Nat.mod_lt _ (by decide)⟩ : Fin 64)) ?_).trans ?_
  · rw [Shape.rowMajor_val_two, Shape.rowMajor_val_one]
    show q / 64 * 64 + q % 64 = q
    omega
  · exact dequant_apply a h _ _

/-! ## The outliers written over them -/

/-- An outlier position below 2³¹ is not wrapped: row `k` of the index array is the position itself. -/
theorem positions_apply (a : Args) (h : a.Ok) (k : Fin 45088) :
    (positions a.P (StableHlo.Predicate.ixP k)).toInt = (a.pos k : ℤ) := by
  have hw := h.P_lt (ix1 k)
  have e : positions a.P (StableHlo.Predicate.ixP k) = a.P (ix1 k) := by
    unfold positions
    refine (broadcastInDim_apply (s := S45088) (t := S45088x1) ![0] bcast_S45088_S45088x1_0 _ (StableHlo.Predicate.ixP k) (ix1 k)
      (fun c => by match c with | ⟨0, _⟩ => rfl)).trans ?_
    show Scalar.select (IntOp.cmpi .slt (a.P (ix1 k)) 0#32) _ (a.P (ix1 k)) = a.P (ix1 k)
    rw [not_neg_word (by omega), select_zero]
  rw [e, StableHlo.Predicate.toInt_eq_toNat_of_lt (by omega)]
  rfl

/-- Two descriptions of one set of candidates pick the same element. -/
theorem dite_choose_congr {α β : Type} {P Q : α → Prop} (hPQ : ∀ x, P x ↔ Q x) (f : α → β) (e : β)
    (d₁ : Decidable (∃ x, P x)) (d₂ : Decidable (∃ x, Q x)) :
    @dite β (∃ x, P x) d₁ (fun h => f h.choose) (fun _ => e) = @dite β (∃ x, Q x) d₂ (fun h => f h.choose) (fun _ => e) := by
  have hPQ' : P = Q := funext fun x => propext (hPQ x)
  subst hPQ'
  rw [Subsingleton.elim d₁ d₂]

open Classical in
/-- The flat weights after the overwriting scatter: the weight finally in force. -/
theorem patched_apply (a : Args) (h : a.Ok) (q : ℕ) (hq : q < 45088768) :
    patched (F := Ideal) a.idx a.sc a.P a.val (ix1 (⟨q, hq⟩ : Fin 45088768)) = wfin a q := by
  unfold patched wfin
  rw [Cert.LibScatterSet.scatter_set_apply scatter_S45088768_S45088x1_S45088_n_0_0_1 rfl rfl rfl rfl, flatW_apply a h q hq]
  refine dite_choose_congr
    (P := fun k : Fin 45088 => (positions a.P (StableHlo.Predicate.ixP k)).toInt = (q : ℤ)
      ∧ ∀ k' : Fin 45088, (positions a.P (StableHlo.Predicate.ixP k')).toInt = (q : ℤ) → k' ≤ k)
    (Q := fun n : Fin 45088 => a.pos n = q ∧ a.isLast n) (fun k => ?_) (fun k => a.val (ix1 k)) (wbase a q) _ _
  simp only [positions_apply a h]
  show ((a.pos k : ℤ) = (q : ℤ) ∧ ∀ k' : Fin 45088, (a.pos k' : ℤ) = (q : ℤ) → k' ≤ k)
    ↔ (a.pos k = q ∧ ∀ n' : Fin 45088, a.pos n' = a.pos k → n' ≤ k)
  constructor
  · rintro ⟨h1, h2⟩
    have h1' : a.pos k = q := by exact_mod_cast h1
    exact ⟨h1', fun n' hn' => h2 n' (by rw [hn', h1'])⟩
  · rintro ⟨h1, h2⟩
    refine ⟨by rw [h1], fun k' hk' => h2 k' ?_⟩
    have : a.pos k' = q := by exact_mod_cast hk'
    rw [this, h1]

/-! ## The weight matrix, transposed -/

/-- Row `k`, column `o` of the transposed matrix is the flat array at `4096·o + k`. -/
theorem weightT_apply (a : Args) (h : a.Ok) (k : Fin 4096) (o : Fin 11008) :
    weightT (F := Ideal) a.idx a.sc a.P a.val (ix2 k o) = wfin a (flat o k) := by
  have hq : flat o k < 45088768 := by
    unfold flat
    have := o.isLt
    have := k.isLt
    omega
  unfold weightT
  refine (transpose_apply (s := S11008x4096) (t := S4096x11008) [1, 0] _ transposes_S11008x4096_S4096x11008_1_0 (ix2 k o)
    (ix2 o k) (fun b => by match b with | ⟨0, _⟩ => rfl | ⟨1, _⟩ => rfl)).trans ?_
  refine (shapeCast_apply (s := S45088768) (t := S11008x4096) _ shapeCasts_S45088768_S11008x4096 (ix2 o k)
    (ix1 (⟨flat o k, hq⟩ : Fin 45088768)) ?_).trans ?_
  · rw [Shape.rowMajor_val_two, Shape.rowMajor_val_one]
    rfl
  · exact patched_apply a h _ hq

/-! ## The product -/

/-- The left operand's index keeps the result's row … -/
theorem lhs_row (j : S64x11008.Idx) (kk : dot_S64x4096_S4096x11008_S64x11008_1_0_0_1_n_n.contr.Idx) :
    (dot_S64x4096_S4096x11008_S64x11008_1_0_0_1_n_n.lhsIdx j kk 0).val = (j 0).val := rfl
/-- … and runs along the contraction; -/
theorem lhs_col (j : S64x11008.Idx) (kk : dot_S64x4096_S4096x11008_S64x11008_1_0_0_1_n_n.contr.Idx) :
    (dot_S64x4096_S4096x11008_S64x11008_1_0_0_1_n_n.lhsIdx j kk 1).val = (kk ⟨0, Nat.one_pos⟩).val :=
  dot_S64x4096_S4096x11008_S64x11008_1_0_0_1_n_n.lhsIdx_val_of_single rfl j kk
/-- the right operand's runs along the contraction … -/
theorem rhs_row (j : S64x11008.Idx) (kk : dot_S64x4096_S4096x11008_S64x11008_1_0_0_1_n_n.contr.Idx) :
    (dot_S64x4096_S4096x11008_S64x11008_1_0_0_1_n_n.rhsIdx j kk 0).val = (kk ⟨0, Nat.one_pos⟩).val :=
  dot_S64x4096_S4096x11008_S64x11008_1_0_0_1_n_n.rhsIdx_val_of_single rfl j kk
/-- … and keeps the result's column. -/
theorem rhs_col (j : S64x11008.Idx) (kk : dot_S64x4096_S4096x11008_S64x11008_1_0_0_1_n_n.contr.Idx) :
    (dot_S64x4096_S4096x11008_S64x11008_1_0_0_1_n_n.rhsIdx j kk 1).val = (j 1).val := rfl

/-- The product at row `r`, column `o`: the sum over the 4096 columns of `x`. -/
theorem dot_apply (x : FVec Ideal S64x4096 .f32) (w : FVec Ideal S4096x11008 .f32) (r : Fin 64) (o : Fin 11008) :
    Host.dotGeneral dot_S64x4096_S4096x11008_S64x11008_1_0_0_1_n_n none x w (ix2 r o)
      = ∑ k : Fin 4096, x (ix2 r k) * w (ix2 k o) := by
  show FloatOps.dotGeneral dot_S64x4096_S4096x11008_S64x11008_1_0_0_1_n_n none .single x w (ix2 r o) = _
  rw [Ideal.dotGeneral_apply,
    ← Equiv.sum_comp (contrEquiv1 dot_S64x4096_S4096x11008_S64x11008_1_0_0_1_n_n 4096 rfl rfl).symm]
  refine Finset.sum_congr rfl fun k _ => ?_
  have hl : dot_S64x4096_S4096x11008_S64x11008_1_0_0_1_n_n.lhsIdx (ix2 r o)
      ((contrEquiv1 dot_S64x4096_S4096x11008_S64x11008_1_0_0_1_n_n 4096 rfl rfl).symm k) = ix2 r k := by
    funext c
    apply Fin.ext
    match c with
    | ⟨0, _⟩ => exact lhs_row _ _
    | ⟨1, _⟩ => exact (lhs_col _ _).trans (contrEquiv1_symm_val _ 4096 rfl rfl k)
  have hr : dot_S64x4096_S4096x11008_S64x11008_1_0_0_1_n_n.rhsIdx (ix2 r o)
      ((contrEquiv1 dot_S64x4096_S4096x11008_S64x11008_1_0_0_1_n_n 4096 rfl rfl).symm k) = ix2 k o := by
    funext c
    apply Fin.ext
    match c with
    | ⟨0, _⟩ => exact (rhs_row _ _).trans (contrEquiv1_symm_val _ 4096 rfl rfl k)
    | ⟨1, _⟩ => exact rhs_col _ _
  rw [hl, hr]

/-! ## The bias, and the whole -/

/-- The bias laid along the rows. -/
theorem bias_bcast_apply (bias : FVec Ideal S11008 .f32) (r : Fin 64) (o : Fin 11008) :
    broadcastInDim S64x11008 ![0, 1] bcast_S1x11008_S64x11008_0_1
        (broadcastInDim S1x11008 ![1] bcast_S11008_S1x11008_1 bias) (ix2 r o) = bias (ix1 o) :=
  (broadcastInDim_apply (s := S1x11008) (t := S64x11008) ![0, 1] bcast_S1x11008_S64x11008_0_1 _ (ix2 r o)
      (ix2 (0 : Fin 1) o) (fun c => by match c with | ⟨0, _⟩ => rfl | ⟨1, _⟩ => rfl)).trans
    (broadcastInDim_apply (s := S11008) (t := S1x11008) ![1] bcast_S11008_S1x11008_1 bias (ix2 (0 : Fin 1) o) (ix1 o)
      (fun c => by match c with | ⟨0, _⟩ => rfl))

/-- THE REFERENCE'S VALUE. -/
theorem refTerm_eq (a : Args) (h : a.Ok) :
    refTerm (F := Ideal) a.x a.idx a.sc a.P a.val a.bias = Cert.QSpec.out a := by
  funext j
  obtain ⟨r, o, rfl⟩ : ∃ (r : Fin 64) (o : Fin 11008), j = ix2 r o := ⟨j 0, j 1, eq_ix2 j⟩
  unfold refTerm
  rw [addf_apply, dot_apply, bias_bcast_apply]
  show _ = outAt a r o
  unfold outAt
  exact congrArg (· + a.bias (ix1 o)) (Finset.sum_congr rfl fun k _ => by rw [weightT_apply a h])

end Cert.ReferenceIdeal.Hand

end
-- ==== Proof.lean ====
/-
  The certificate's five claims. The three programs run to the end without a fault and leave their arguments as launched:
  for the two kernel programs because the region's body, run at each of the 43 tiles, only reads its input blocks and
  overwrites its output block, and the host lines around it write fresh buffers only; for the reference because it is a
  straight line of host operations. The idealization changed no operation, so there is nothing to preserve. And at the
  ideal instance both programs end at the same array: the reference multiplies `x` by the weight matrix with the outlier
  values written in (the later entry of the list winning), the kernel multiplies by the dequantized matrix and adds, per
  outlier that is the last to name its position, `x`'s column times (value − dequantized weight); under the precondition
  every number is real, and the two are equal by distributivity.
-/
import proofs.«430974_j78323023610033_1_alg».proof.Defs
import proofs.«430974_j78323023610033_1_alg».proof.Proof.Gen.Kernel
import proofs.«430974_j78323023610033_1_alg».proof.Proof.Gen.KernelIdeal
import proofs.«430974_j78323023610033_1_alg».proof.Proof.Gen.ReferenceIdeal
import proofs.«430974_j78323023610033_1_alg».proof.Proof.Gen.Pre_finite_inputs
import proofs.«430974_j78323023610033_1_alg».proof.Proof.KFrameBody
import proofs.«430974_j78323023610033_1_alg».proof.Proof.KFrameBodyBits
import proofs.«430974_j78323023610033_1_alg».proof.Proof.BodyValue
import proofs.«430974_j78323023610033_1_alg».proof.Proof.TailGlue
import proofs.«430974_j78323023610033_1_alg».proof.Proof.TailB
import proofs.«430974_j78323023610033_1_alg».proof.Proof.Algebra
import proofs.«430974_j78323023610033_1_alg».proof.Proof.PreDecode
import proofs.«430974_j78323023610033_1_alg».proof.Proof.RefRun
import proofs.«430974_j78323023610033_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program's frame. -/
theorem frame_k : Cert.frame_Kernel := fun m ρ _ => Cert.Kernel.KF.frame m ρ

/-- The idealized kernel program's frame. -/
theorem frame_ki : Cert.frame_KernelIdeal := fun m ρ _ => Cert.KernelIdeal.KF.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The idealization rewrote nothing. -/
theorem preserves : Cert.preserves_Kernel_KernelIdeal := trivial

/-- Both idealized programs end at the specification's array of the arguments. -/
theorem algebraic : Cert.algebraic_KernelIdeal_ReferenceIdeal := by
  intro m ρ m' ρ' hpre hagree
  have hok : ∀ c, (Cert.KernelIdeal.KF.args m c).Ok := fun c =>
    Cert.PreDecode.ok_of_pre (Cert.KernelIdeal.KF.args m c) (hpre c)
  refine ⟨fun c => Cert.QSpec.out (Cert.KernelIdeal.KF.args m c), ?_, ?_⟩
  · refine (θ_run Cert.KernelIdeal.defs _ _).mono (fun r hr c => ⟨?_,
      Cert.KernelIdeal.KF.post_args m (Cert.KernelIdeal.KF.dats m) (Cert.KernelIdeal.KF.A_eq m) r hr c⟩)
      (Cert.KernelIdeal.KF.run_main (F := Ideal) m ρ)
    refine ((hr c).2 Cert.KernelIdeal.main_v92
      (Pipeline.mem_restRefs_of Cert.KernelIdeal.main_v92 (by decide) (by decide))).trans ?_
    refine (Cert.KernelIdeal.KF.tail_value m (Cert.KernelIdeal.KF.dats m) c).trans ?_
    refine (Cert.KernelIdeal.Tail.tailTerm_eq (Cert.KernelIdeal.KF.args m c) (hok c) _).trans ?_
    funext j
    rw [Cert.KernelIdeal.KF.base_final m c (hok c)]
    exact Cert.QSpec.kout_eq_out (Cert.KernelIdeal.KF.args m c) (hok c) _ _
  · refine (θ_run Cert.ReferenceIdeal.defs _ _).mono (fun _ h c => ⟨(h c).1.trans ?_, (h c).2⟩)
      (Cert.ReferenceIdeal.Hand.run (F := Ideal) m' ρ')
    rw [(hagree c).1, (hagree c).2.1, (hagree c).2.2.1, (hagree c).2.2.2.1, (hagree c).2.2.2.2.1, (hagree c).2.2.2.2.2]
    exact Cert.ReferenceIdeal.Hand.refTerm_eq (Cert.KernelIdeal.KF.args m c) (hok c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
